-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S_ : Shape := ⟨0, ![]⟩
abbrev S4000000x1 : Shape := ⟨2, ![4000000, 1]⟩

class Facts : Prop where
  reducesTo_S2000000x3_S2000000_d1 : S2000000x3.ReducesTo [1] S2000000
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S32 : S_.BroadcastsInDim S32 (![] : Fin 0 → Fin S32.rank)
  reducesTo_S32_S_d0 : S32.ReducesTo [0] S_
  bcast_S_S12 : S_.BroadcastsInDim S12 (![] : Fin 0 → Fin S12.rank)
  reducesTo_S12_S_d0 : S12.ReducesTo [0] S_
  bcast_S_S1x56 : S_.BroadcastsInDim S1x56 (![] : Fin 0 → Fin S1x56.rank)
  reducesTo_S1x56_S_d0_1 : S1x56.ReducesTo [0, 1] S_
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000_S_d0 : S4000000.ReducesTo [0] S_
  gather_S2000000_S4000000x1_S4000000_n_0_n_n_0_1_1_wf : GatherDims.WF S2000000 S4000000x1 S4000000 [] [0] [] [0] [] 1 ![1]

variable [Facts]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def fn_part2 {F : FTy → Type} [FloatOps F] (main_arg6 : IVec S4000000 32) (main_v1 : FVec F S2000000 .f32) (main_v25 : IVec S_ 1) (main_v32 : FVec F S4000000 .f32) (main_v33 : FVec F S4000000 .f32) : IVec S_ 1 :=
  let main_v34 : IVec S4000000 1 := cmpf .ogt main_v32 main_v33
  let main_c_12 : IVec S_ 1 := constantI S_ 1 1#1
  let main_v35 : IVec S_ 1 := (fun x v => Host.reduce IntOp.andi x v reducesTo_S4000000_S_d0 h_S_) main_v34 main_c_12
  let main_v36 : IVec S_ 1 := andi main_v25 main_v35
  let main_c_13 : IVec S_ 32 := constantI S_ 32 0#32
  let main_v37 : IVec S4000000 32 := broadcastInDim S4000000 ![] bcast_S_S4000000 main_c_13
  let main_v38 : IVec S4000000 1 := cmpi .slt main_arg6 main_v37
  let main_c_14 : IVec S_ 32 := constantI S_ 32 2000000#32
  let main_v39 : IVec S4000000 32 := broadcastInDim S4000000 ![] bcast_S_S4000000 main_c_14
  let main_v40 : IVec S4000000 32 := addi main_arg6 main_v39
  let main_v41 : IVec S4000000 32 := select main_v38 main_v40 main_arg6
  let main_v42 : IVec S4000000x1 32 := broadcastInDim S4000000x1 ![0] bcast_S4000000_S4000000x1_0 main_v41
  let main_v43 : FVec F S4000000 .f32 := (fun x i => Host.gather gather_S2000000_S4000000x1_S4000000_n_0_n_n_0_1_1 x i) main_v1 main_v42
  let main_cst_15 : FVec F S_ .f32 := constant S_ .f32 0x00000000#32
  let main_v44 : FVec F S4000000 .f32 := broadcastInDim S4000000 ![] bcast_S_S4000000 main_cst_15
  let main_v45 : IVec S4000000 1 := cmpf .ogt main_v43 main_v44
  let main_c_16 : IVec S_ 1 := constantI S_ 1 1#1
  let main_v46 : IVec S_ 1 := (fun x v => Host.reduce IntOp.andi x v reducesTo_S4000000_S_d0 h_S_) main_v45 main_c_16
  let main_v47 : IVec S_ 1 := andi main_v36 main_v46
  main_v47

def fn_part1 {F : FTy → Type} [FloatOps F] (main_arg5 : IVec S4000000 32) (main_arg6 : IVec S4000000 32) (main_arg10 : FVec F S1x56 .f32) (main_v1 : FVec F S2000000 .f32) (main_v15 : IVec S_ 1) (main_v16 : FVec F S1x56 .f32) : IVec S_ 1 :=
  let main_cst_5 : FVec F S_ .f32 := constant S_ .f32 0x7F800000#32
  let main_v17 : FVec F S1x56 .f32 := broadcastInDim S1x56 ![] bcast_S_S1x56 main_cst_5
  let main_v18 : IVec S1x56 1 := cmpf .olt main_v16 main_v17
  let main_c_6 : IVec S_ 1 := constantI S_ 1 1#1
  let main_v19 : IVec S_ 1 := (fun x v => Host.reduce IntOp.andi x v reducesTo_S1x56_S_d0_1 h_S_) main_v18 main_c_6
  let main_v20 : IVec S_ 1 := andi main_v15 main_v19
  let main_v21 : FVec F S1x56 .f32 := Host.absf main_arg10
  let main_cst_7 : FVec F S_ .f32 := constant S_ .f32 0x7F800000#32
  let main_v22 : FVec F S1x56 .f32 := broadcastInDim S1x56 ![] bcast_S_S1x56 main_cst_7
  let main_v23 : IVec S1x56 1 := cmpf .olt main_v21 main_v22
  let main_c_8 : IVec S_ 1 := constantI S_ 1 1#1
  let main_v24 : IVec S_ 1 := (fun x v => Host.reduce IntOp.andi x v reducesTo_S1x56_S_d0_1 h_S_) main_v23 main_c_8
  let main_v25 : IVec S_ 1 := andi main_v20 main_v24
  let main_c_9 : IVec S_ 32 := constantI S_ 32 0#32
  let main_v26 : IVec S4000000 32 := broadcastInDim S4000000 ![] bcast_S_S4000000 main_c_9
  let main_v27 : IVec S4000000 1 := cmpi .slt main_arg5 main_v26
  let main_c_10 : IVec S_ 32 := constantI S_ 32 2000000#32
  let main_v28 : IVec S4000000 32 := broadcastInDim S4000000 ![] bcast_S_S4000000 main_c_10
  let main_v29 : IVec S4000000 32 := addi main_arg5 main_v28
  let main_v30 : IVec S4000000 32 := select main_v27 main_v29 main_arg5
  let main_v31 : IVec S4000000x1 32 := broadcastInDim S4000000x1 ![0] bcast_S4000000_S4000000x1_0 main_v30
  let main_v32 : FVec F S4000000 .f32 := (fun x i => Host.gather gather_S2000000_S4000000x1_S4000000_n_0_n_n_0_1_1 x i) main_v1 main_v31
  let main_cst_11 : FVec F S_ .f32 := constant S_ .f32 0x00000000#32
  let main_v33 : FVec F S4000000 .f32 := broadcastInDim S4000000 ![] bcast_S_S4000000 main_cst_11
  fn_part2 (F := F) main_arg6 main_v1 main_v25 main_v32 main_v33

def fn {F : FTy → Type} [FloatOps F] (main_arg0 : IVec S50000 32) (main_arg1 : FVec F S2000000x3 .f32) (main_arg2 : IVec S2000000 32) (main_arg3 : IVec S2000000 32) (main_arg4 : IVec S4000000 32) (main_arg5 : IVec S4000000 32) (main_arg6 : IVec S4000000 32) (main_arg7 : FVec F S32 .f32) (main_arg8 : FVec F S12 .f32) (main_arg9 : FVec F S1x56 .f32) (main_arg10 : FVec F S1x56 .f32) : IVec S_ 1 :=
  let main_v0 : FVec F S2000000x3 .f32 := mulf main_arg1 main_arg1
  let main_cst : FVec F S_ .f32 := constant S_ .f32 0x00000000#32
  let main_v1 : FVec F S2000000 .f32 := (fun x v => Host.reduceAdd x v reducesTo_S2000000x3_S2000000_d1 h_S_) main_v0 main_cst
  let main_v2 : FVec F S2000000x3 .f32 := Host.absf main_arg1
  let main_cst_0 : FVec F S_ .f32 := constant S_ .f32 0x7F800000#32
  let main_v3 : FVec F S2000000x3 .f32 := broadcastInDim S2000000x3 ![] bcast_S_S2000000x3 main_cst_0
  let main_v4 : IVec S2000000x3 1 := cmpf .olt main_v2 main_v3
  let main_c : IVec S_ 1 := constantI S_ 1 1#1
  let main_v5 : IVec S_ 1 := (fun x v => Host.reduce IntOp.andi x v reducesTo_S2000000x3_S_d0_1 h_S_) main_v4 main_c
  let main_v6 : FVec F S32 .f32 := Host.absf main_arg7
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_c_2 : IVec S_ 1 := constantI S_ 1 1#1
  let main_v9 : IVec S_ 1 := (fun x v => Host.reduce IntOp.andi x v reducesTo_S32_S_d0 h_S_) main_v8 main_c_2
  let main_v10 : IVec S_ 1 := andi main_v5 main_v9
  let main_v11 : FVec F S12 .f32 := Host.absf main_arg8
  let main_cst_3 : FVec F S_ .f32 := constant S_ .f32 0x7F800000#32
  let main_v12 : FVec F S12 .f32 := broadcastInDim S12 ![] bcast_S_S12 main_cst_3
  let main_v13 : IVec S12 1 := cmpf .olt main_v11 main_v12
  let main_c_4 : IVec S_ 1 := constantI S_ 1 1#1
  let main_v14 : IVec S_ 1 := (fun x v => Host.reduce IntOp.andi x v reducesTo_S12_S_d0 h_S_) main_v13 main_c_4
  let main_v15 : IVec S_ 1 := andi main_v10 main_v14
  let main_v16 : FVec F S1x56 .f32 := Host.absf main_arg9
  fn_part1 (F := F) main_arg5 main_arg6 main_arg10 main_v1 main_v15 main_v16
-- ==== Kernel.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S_ : Shape := ⟨0, ![]⟩
abbrev S2000000x1 : Shape := ⟨2, ![2000000, 1]⟩
abbrev S2000000x4 : Shape := ⟨2, ![2000000, 4]⟩
abbrev S1x32 : Shape := ⟨2, ![1, 32]⟩
abbrev S2000000x32 : Shape := ⟨2, ![2000000, 32]⟩
abbrev S5000x4 : Shape := ⟨2, ![5000, 4]⟩
abbrev S5000x32 : Shape := ⟨2, ![5000, 32]⟩
abbrev S5000x1 : Shape := ⟨2, ![5000, 1]⟩
abbrev S5000x3 : Shape := ⟨2, ![5000, 3]⟩
abbrev S5000 : Shape := ⟨1, ![5000]⟩
abbrev S50000x32 : Shape := ⟨2, ![50000, 32]⟩
abbrev S4000000x1 : Shape := ⟨2, ![4000000, 1]⟩
abbrev S4000000x3 : Shape := ⟨2, ![4000000, 3]⟩
abbrev S4000000x6 : Shape := ⟨2, ![4000000, 6]⟩
abbrev S4000000x4 : Shape := ⟨2, ![4000000, 4]⟩
abbrev S1x12 : Shape := ⟨2, ![1, 12]⟩
abbrev S4000000x24 : Shape := ⟨2, ![4000000, 24]⟩
abbrev S5000x6 : Shape := ⟨2, ![5000, 6]⟩
abbrev S5000x24 : Shape := ⟨2, ![5000, 24]⟩
abbrev S5000x12 : Shape := ⟨2, ![5000, 12]⟩
abbrev S50000x24 : Shape := ⟨2, ![50000, 24]⟩
abbrev S50000x56 : Shape := ⟨2, ![50000, 56]⟩

abbrev nBuf : Space → Nat
  | .hbm => 102
  | .vmem => 14
  | .smem => 0
  | _ => 0

abbrev bufTy : (tb : Table) → Fin (tcTables nBuf tb) → BufTy
  | .hbm, ⟨0, _⟩ => ⟨S50000, .i32⟩
  | .hbm, ⟨1, _⟩ => ⟨S2000000x3, .f32⟩
  | .hbm, ⟨2, _⟩ => ⟨S2000000, .i32⟩
  | .hbm, ⟨3, _⟩ => ⟨S2000000, .i32⟩
  | .hbm, ⟨4, _⟩ => ⟨S4000000, .i32⟩
  | .hbm, ⟨5, _⟩ => ⟨S4000000, .i32⟩
  | .hbm, ⟨6, _⟩ => ⟨S4000000, .i32⟩
  | .hbm, ⟨7, _⟩ => ⟨S32, .f32⟩
  | .hbm, ⟨8, _⟩ => ⟨S12, .f32⟩
  | .hbm, ⟨9, _⟩ => ⟨S1x56, .f32⟩
  | .hbm, ⟨10, _⟩ => ⟨S1x56, .f32⟩
  | .hbm, ⟨11, _⟩ => ⟨S50000, .f32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000, .f32⟩
  | .hbm, ⟨21, _⟩ => ⟨S2000000x1, .f32⟩
  | .hbm, ⟨22, _⟩ => ⟨S2000000x4, .f32⟩
  | .hbm, ⟨23, _⟩ => ⟨S1x32, .f32⟩
  | .hbm, ⟨24, _⟩ => ⟨S2000000x32, .f32⟩
  | .hbm, ⟨25, _⟩ => ⟨S2000000x1, .f32⟩
  | .hbm, ⟨26, _⟩ => ⟨S_, .f32⟩
  | .hbm, ⟨27, _⟩ => ⟨S50000x32, .f32⟩
  | .hbm, ⟨28, _⟩ => ⟨S2000000x1, .i32⟩
  | .hbm, ⟨29, _⟩ => ⟨S50000x32, .f32⟩
  | .hbm, ⟨30, _⟩ => ⟨S2000000, .f32⟩
  | .hbm, ⟨31, _⟩ => ⟨S_, .i32⟩
  | .hbm, ⟨32, _⟩ => ⟨S4000000, .i32⟩
  | .hbm, ⟨33, _⟩ => ⟨S4000000, .i1⟩
  | .hbm, ⟨34, _⟩ => ⟨S_, .i32⟩
  | .hbm, ⟨35, _⟩ => ⟨S4000000, .i32⟩
  | .hbm, ⟨36, _⟩ => ⟨S4000000, .i32⟩
  | .hbm, ⟨37, _⟩ => ⟨S4000000, .i32⟩
  | .hbm, ⟨38, _⟩ => ⟨S4000000x1, .i32⟩
  | .hbm, ⟨39, _⟩ => ⟨S4000000x3, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x3, .f32⟩
  | .hbm, ⟨49, _⟩ => ⟨S_, .i32⟩
  | .hbm, ⟨50, _⟩ => ⟨S4000000, .i32⟩
  | .hbm, ⟨51, _⟩ => ⟨S4000000, .i1⟩
  | .hbm, ⟨52, _⟩ => ⟨S_, .i32⟩
  | .hbm, ⟨53, _⟩ => ⟨S4000000, .i32⟩
  | .hbm, ⟨54, _⟩ => ⟨S4000000, .i32⟩
  | .hbm, ⟨55, _⟩ => ⟨S4000000, .i32⟩
  | .hbm, ⟨56, _⟩ => ⟨S4000000x1, .i32⟩
  | .hbm, ⟨57, _⟩ => ⟨S4000000, .f32⟩
  | .hbm, ⟨58, _⟩ => ⟨S_, .i32⟩
  | .hbm, ⟨59, _⟩ => ⟨S4000000, .i32⟩
  | .hbm, ⟨60, _⟩ => ⟨S4000000, .i1⟩
  | .hbm, ⟨61, _⟩ => ⟨S_, .i32⟩
  | .hbm, ⟨62, _⟩ => ⟨S4000000, .i32⟩
  | .hbm, ⟨63, _⟩ => ⟨S4000000, .i32⟩
  | .hbm, ⟨64, _⟩ => ⟨S4000000, .i32⟩
  | .hbm, ⟨65, _⟩ => ⟨S4000000x1, .i32⟩
  | .hbm, ⟨66, _⟩ => ⟨S4000000, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S4000000, .f32⟩
  | .hbm, ⟨76, _⟩ => ⟨S_, .i32⟩
  | .hbm, ⟨77, _⟩ => ⟨S4000000, .i32⟩
  | .hbm, ⟨78, _⟩ => ⟨S4000000, .i1⟩
  | .hbm, ⟨79, _⟩ => ⟨S_, .i32⟩
  | .hbm, ⟨80, _⟩ => ⟨S4000000, .i32⟩
  | .hbm, ⟨81, _⟩ => ⟨S4000000, .i32⟩
  | .hbm, ⟨82, _⟩ => ⟨S4000000, .i32⟩
  | .hbm, ⟨83, _⟩ => ⟨S4000000x1, .i32⟩
  | .hbm, ⟨84, _⟩ => ⟨S4000000, .f32⟩
  | .hbm, ⟨85, _⟩ => ⟨S4000000x6, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x4, .f32⟩
  | .hbm, ⟨91, _⟩ => ⟨S1x12, .f32⟩
  | .hbm, ⟨92, _⟩ => ⟨S4000000x24, .f32⟩
  | .hbm, ⟨93, _⟩ => ⟨S_, .f32⟩
  | .hbm, ⟨94, _⟩ => ⟨S50000x24, .f32⟩
  | .hbm, ⟨95, _⟩ => ⟨S4000000x1, .i32⟩
  | .hbm, ⟨96, _⟩ => ⟨S50000x24, .f32⟩
  | .hbm, ⟨97, _⟩ => ⟨S50000x56, .f32⟩
  | .hbm, ⟨98, _⟩ => ⟨S50000x56, .f32⟩
  | .hbm, ⟨99, _⟩ => ⟨S50000x56, .f32⟩
  | .hbm, ⟨100, _⟩ => ⟨S50000x56, .f32⟩
  | .hbm, ⟨101, _⟩ => ⟨S50000x56, .f32⟩
  | .local _ .vmem, ⟨0, _⟩ => ⟨S5000x4, .f32⟩
  | .local _ .vmem, ⟨1, _⟩ => ⟨S5000x4, .f32⟩
  | .local _ .vmem, ⟨2, _⟩ => ⟨S1x32, .f32⟩
  | .local _ .vmem, ⟨3, _⟩ => ⟨S5000x32, .f32⟩
  | .local _ .vmem, ⟨4, _⟩ => ⟨S5000x32, .f32⟩
  | .local _ .vmem, ⟨5, _⟩ => ⟨S5000x1, .f32⟩
  | .local _ .vmem, ⟨6, _⟩ => ⟨S5000x1, .f32⟩
  | .local _ .vmem, ⟨7, _⟩ => ⟨S5000x6, .f32⟩
  | .local _ .vmem, ⟨8, _⟩ => ⟨S5000x6, .f32⟩
  | .local _ .vmem, ⟨9, _⟩ => ⟨S5000x4, .f32⟩
  | .local _ .vmem, ⟨10, _⟩ => ⟨S5000x4, .f32⟩
  | .local _ .vmem, ⟨11, _⟩ => ⟨S1x12, .f32⟩
  | .local _ .vmem, ⟨12, _⟩ => ⟨S5000x24, .f32⟩
  | .local _ .vmem, ⟨13, _⟩ => ⟨S5000x24, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x3_S2000000x1_S2000000x4_d1 : Shape.Concatenates [S2000000x3, S2000000x1] S2000000x4 1
  shapeCasts_S32_S1x32 : S32.ShapeCasts S1x32
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x4_o0_0_S5000x3 : S5000x4.Slices ![0, 0] S5000x3
  slices_S5000x4_o0_3_S5000x1 : S5000x4.Slices ![0, 3] S5000x1
  reduces_S5000x3_S5000 : S5000x3.Reduces [1] S5000
  shapeCasts_S5000_S5000x1 : S5000.ShapeCasts S5000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  bcast_S_S50000x32 : S_.BroadcastsInDim S50000x32 (![] : Fin 0 → Fin S50000x32.rank)
  shapeCasts_S2000000x1_S2000000 : S2000000x1.ShapeCasts S2000000
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x3_S4000000x3_S4000000x6_d1 : Shape.Concatenates [S4000000x3, S4000000x3] S4000000x6 1
  concatenates_S4000000x1_S4000000x1_S4000000x1_S4000000x1_S4000000x4_d1 : Shape.Concatenates [S4000000x1, S4000000x1, S4000000x1, S4000000x1] S4000000x4 1
  shapeCasts_S12_S1x12 : S12.ShapeCasts S1x12
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  slices_S5000x6_o0_0_S5000x3 : S5000x6.Slices ![0, 0] S5000x3
  slices_S5000x6_o0_3_S5000x3 : S5000x6.Slices ![0, 3] S5000x3
  slices_S5000x4_o0_0_S5000x1 : S5000x4.Slices ![0, 0] S5000x1
  slices_S5000x4_o0_1_S5000x1 : S5000x4.Slices ![0, 1] S5000x1
  slices_S5000x4_o0_2_S5000x1 : S5000x4.Slices ![0, 2] S5000x1
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S5000x1_S5000x12 : S5000x1.Broadcasts S5000x12
  broadcasts_S1x12_S5000x12 : S1x12.Broadcasts S5000x12
  inb_S5000x24_S5000x12_0_0 : ∀ a, (![0, 0] : Fin 2 → Nat) a + S5000x12.size a ≤ S5000x24.size a
  h_S5000x12 : 0 < S5000x12.numel
  inb_S5000x24_S5000x12_0_12 : ∀ a, (![0, 12] : Fin 2 → Nat) a + S5000x12.size a ≤ S5000x24.size a
  bcast_S_S50000x24 : S_.BroadcastsInDim S50000x24 (![] : Fin 0 → Fin S50000x24.rank)
  concatenates_S50000x32_S50000x24_S50000x56_d1 : Shape.Concatenates [S50000x32, S50000x24] S50000x56 1
  bcast_S1x56_S50000x56_0_1 : S1x56.BroadcastsInDim S50000x56 (![0, 1] : Fin 2 → Fin S50000x56.rank)
  gather_S50000_S2000000x1_S2000000_n_0_n_n_0_1_1_wf : GatherDims.WF S50000 S2000000x1 S2000000 [] [0] [] [0] [] 1 ![1]
  scatter_S50000x32_S2000000x1_S2000000x32_1_0_0_1_wf : ScatterDims.WF S50000x32 S2000000x1 S2000000x32 [1] [0] [0] 1
  gather_S2000000x3_S4000000x1_S4000000x3_1_0_n_n_0_1_13_wf : GatherDims.WF S2000000x3 S4000000x1 S4000000x3 [1] [0] [] [0] [] 1 ![1, 3]
  gather_S2000000_S4000000x1_S4000000_n_0_n_n_0_1_1_wf : GatherDims.WF S2000000 S4000000x1 S4000000 [] [0] [] [0] [] 1 ![1]
  scatter_S50000x24_S4000000x1_S4000000x24_1_0_0_1_wf : ScatterDims.WF S50000x24 S4000000x1 S4000000x24 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S2000000x4.size a
  hwx0_0 : ∀ i : grid0.Coords, EltTy.bits .f32 = 32 ∨ (Rect.block (s := S2000000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S2000000x32.size a
  hwx0_2 : ∀ i : grid0.Coords, EltTy.bits .f32 = 32 ∨ (Rect.block (s := S2000000x32) S5000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S2000000x1.size a
  hwx0_3 : ∀ i : grid0.Coords, EltTy.bits .f32 = 32 ∨ (Rect.block (s := S2000000x1) S5000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x6.size a ≤ S4000000x6.size a
  hwx1_0 : ∀ i : grid1.Coords, EltTy.bits .f32 = 32 ∨ (Rect.block (s := S4000000x6) S5000x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x4.size a ≤ S4000000x4.size a
  hwx1_1 : ∀ i : grid1.Coords, EltTy.bits .f32 = 32 ∨ (Rect.block (s := S4000000x4) S5000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x12.size a ≤ S1x12.size a
  hwx1_2 : ∀ i : grid1.Coords, EltTy.bits .f32 = 32 ∨ (Rect.block (s := S1x12) S1x12.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x24.size a ≤ S4000000x24.size a
  hwx1_3 : ∀ i : grid1.Coords, EltTy.bits .f32 = 32 ∨ (Rect.block (s := S4000000x24) S5000x24.size (cc1_transform_3 i) (hinb1_3 i)).WholeWords (EltTy.packing .f32)

variable [Facts₀]

def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S50000x32_S2000000x1_S2000000x32_1_0_0_1 : ScatterDims S50000x32 S2000000x1 S2000000x32 where
  updateWindowDims := [1]
  insertedWindowDims := [0]
  scatterDimsToOperandDims := [0]
  indexVectorDim := 1
  wf := scatter_S50000x32_S2000000x1_S2000000x32_1_0_0_1_wf
def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S50000x24_S4000000x1_S4000000x24_1_0_0_1 : ScatterDims S50000x24 S4000000x1 S4000000x24 where
  updateWindowDims := [1]
  insertedWindowDims := [0]
  scatterDimsToOperandDims := [0]
  indexVectorDim := 1
  wf := scatter_S50000x24_S4000000x1_S4000000x24_1_0_0_1_wf

abbrev win0_0 : Pipeline.Window sig grid0 :=
  Pipeline.Window.ofSpec (Memref.whole main_v9) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S5000x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S5000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x12.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S5000x24.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S2 : Shape := ⟨1, ![2]⟩
abbrev S_ : Shape := ⟨0, ![]⟩
abbrev S2000000x1 : Shape := ⟨2, ![2000000, 1]⟩
abbrev S1x32 : Shape := ⟨2, ![1, 32]⟩
abbrev S2000000x32 : Shape := ⟨2, ![2000000, 32]⟩
abbrev S50000x32 : Shape := ⟨2, ![50000, 32]⟩
abbrev S4000000x1 : Shape := ⟨2, ![4000000, 1]⟩
abbrev S4000000x3 : Shape := ⟨2, ![4000000, 3]⟩
abbrev S1x2 : Shape := ⟨2, ![1, 2]⟩
abbrev S4000000x2 : Shape := ⟨2, ![4000000, 2]⟩
abbrev S1x12 : Shape := ⟨2, ![1, 12]⟩
abbrev S4000000x12 : Shape := ⟨2, ![4000000, 12]⟩
abbrev S4000000x1x1 : Shape := ⟨3, ![4000000, 1, 1]⟩
abbrev S4000000x2x1 : Shape := ⟨3, ![4000000, 2, 1]⟩
abbrev S4000000x1x12 : Shape := ⟨3, ![4000000, 1, 12]⟩
abbrev S4000000x2x12 : Shape := ⟨3, ![4000000, 2, 12]⟩
abbrev S4000000x24 : Shape := ⟨2, ![4000000, 24]⟩
abbrev S50000x24 : Shape := ⟨2, ![50000, 24]⟩
abbrev S50000x56 : Shape := ⟨2, ![50000, 56]⟩

abbrev nBuf : Space → Nat
  | .hbm => 212
  | .vmem => 0
  | .smem => 0
  | _ => 0

abbrev hbmTy0_0 (i : Nat) : BufTy := match i % 128 with
  | 0 => ⟨S50000, .i32⟩
  | 1 => ⟨S2000000x3, .f32⟩
  | 2 => ⟨S2000000, .i32⟩
  | 3 => ⟨S2000000, .i32⟩
  | 4 => ⟨S4000000, .i32⟩
  | 5 => ⟨S4000000, .i32⟩
  | 6 => ⟨S4000000, .i32⟩
  | 7 => ⟨S32, .f32⟩
  | 8 => ⟨S12, .f32⟩
  | 9 => ⟨S1x56, .f32⟩
  | 10 => ⟨S1x56, .f32⟩
  | 11 => ⟨S2, .f32⟩
  | 12 => ⟨S50000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000, .f32⟩
  | 22 => ⟨S2000000x3, .f32⟩
  | 23 => ⟨S_, .f32⟩
  | 24 => ⟨S2000000, .f32⟩
  | 25 => ⟨S2000000, .f32⟩
  | 26 => ⟨S2000000x1, .f32⟩
  | 27 => ⟨S1x32, .f32⟩
  | 28 => ⟨S2000000x32, .f32⟩
  | 29 => ⟨S2000000x32, .f32⟩
  | 30 => ⟨S2000000x32, .f32⟩
  | 31 => ⟨S2000000x32, .f32⟩
  | 32 => ⟨S_, .f32⟩
  | 33 => ⟨S2000000x32, .f32⟩
  | 34 => ⟨S2000000x32, .f32⟩
  | 35 => ⟨S2000000x32, .f32⟩
  | 36 => ⟨S_, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S_, .f32⟩
  | 50 => ⟨S2000000, .f32⟩
  | 51 => ⟨S2000000, .i1⟩
  | 52 => ⟨S_, .f32⟩
  | 53 => ⟨S_, .f32⟩
  | 54 => ⟨S2000000, .f32⟩
  | 55 => ⟨S2000000, .f32⟩
  | 56 => ⟨S2000000, .f32⟩
  | 57 => ⟨S2000000x1, .f32⟩
  | 58 => ⟨S2000000x32, .f32⟩
  | 59 => ⟨S2000000x32, .f32⟩
  | 60 => ⟨S_, .f32⟩
  | 61 => ⟨S50000x32, .f32⟩
  | 62 => ⟨S2000000x1, .i32⟩
  | 63 => ⟨S50000x32, .f32⟩
  | 64 => ⟨S_, .i32⟩
  | 65 => ⟨S4000000, .i32⟩
  | 66 => ⟨S4000000, .i1⟩
  | 67 => ⟨S_, .i32⟩
  | 68 => ⟨S4000000, .i32⟩
  | 69 => ⟨S4000000, .i32⟩
  | 70 => ⟨S4000000, .i32⟩
  | 71 => ⟨S4000000x1, .i32⟩
  | 72 => ⟨S4000000x3, .f32⟩
  | 73 => ⟨S_, .i32⟩
  | 74 => ⟨S4000000, .i32⟩
  | 75 => ⟨S4000000, .i1⟩
  | 76 => ⟨S_, .i32⟩
  | 77 => ⟨S4000000, .i32⟩
  | 78 => ⟨S4000000, .i32⟩
  | 79 => ⟨S4000000, .i32⟩
  | 80 => ⟨S4000000x1, .i32⟩
  | 81 => ⟨S4000000x3, .f32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000, .f32⟩
  | 91 => ⟨S_, .i32⟩
  | 92 => ⟨S4000000, .i32⟩
  | 93 => ⟨S4000000, .i1⟩
  | 94 => ⟨S_, .i32⟩
  | 95 => ⟨S4000000, .i32⟩
  | 96 => ⟨S4000000, .i32⟩
  | 97 => ⟨S4000000, .i32⟩
  | 98 => ⟨S4000000x1, .i32⟩
  | 99 => ⟨S4000000, .f32⟩
  | 100 => ⟨S_, .i32⟩
  | 101 => ⟨S4000000, .i32⟩
  | 102 => ⟨S4000000, .i1⟩
  | 103 => ⟨S_, .i32⟩
  | 104 => ⟨S4000000, .i32⟩
  | 105 => ⟨S4000000, .i32⟩
  | 106 => ⟨S4000000, .i32⟩
  | 107 => ⟨S4000000x1, .i32⟩
  | 108 => ⟨S4000000, .f32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S4000000, .f32⟩
  | 118 => ⟨S4000000x3, .f32⟩
  | 119 => ⟨S_, .f32⟩
  | 120 => ⟨S4000000, .f32⟩
  | 121 => ⟨S4000000, .f32⟩
  | 122 => ⟨S4000000, .f32⟩
  | 123 => ⟨S1x2, .f32⟩
  | 124 => ⟨S4000000x1, .f32⟩
  | 125 => ⟨S4000000x2, .f32⟩
  | 126 => ⟨S4000000x2, .f32⟩
  | 127 => ⟨S4000000x2, .f32⟩
  | _ => ⟨S50000, .i32⟩

abbrev hbmTy0_1 (i : Nat) : BufTy := match i % 128 with
  | 0 => ⟨S_, .f32⟩
  | 1 => ⟨S4000000x2, .f32⟩
  | 2 => ⟨S4000000x2, .f32⟩
  | 3 => ⟨S_, .f32⟩
  | 4 => ⟨S4000000x2, .f32⟩
  | 5 => ⟨S4000000x2, .f32⟩
  | 6 => ⟨S4000000, .f32⟩
  | 7 => ⟨S4000000x1, .f32⟩
  | 8 => ⟨S_, .f32⟩
  | 9 => ⟨S4000000x1, .f32⟩
  | 10 => ⟨S4000000x1, .f32⟩
  | 11 => ⟨S1x12, .f32⟩
  | 12 => ⟨S4000000x12, .f32⟩
  | 13 => ⟨S4000000x12, .f32⟩
  | 14 => ⟨S4000000x12, .f32⟩
  | 15 => ⟨S4000000x12, .f32⟩
  | 16 => ⟨S_, .f32⟩
  | 17 => ⟨S4000000x12, .f32⟩
  | 18 => ⟨S4000000x12, .f32⟩
  | 19 => ⟨S4000000x12, .f32⟩
  | 20 => ⟨S_, .f32⟩
  | 21 => ⟨S4000000, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S4000000, .f32⟩
  | 31 => ⟨S_, .f32⟩
  | 32 => ⟨S4000000, .f32⟩
  | 33 => ⟨S4000000, .f32⟩
  | 34 => ⟨S_, .f32⟩
  | 35 => ⟨S4000000, .f32⟩
  | 36 => ⟨S4000000, .f32⟩
  | 37 => ⟨S_, .f32⟩
  | 38 => ⟨S4000000, .f32⟩
  | 39 => ⟨S4000000, .i1⟩
  | 40 => ⟨S_, .f32⟩
  | 41 => ⟨S_, .f32⟩
  | 42 => ⟨S4000000, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S_, .f32⟩
  | 59 => ⟨S4000000, .f32⟩
  | 60 => ⟨S4000000, .i1⟩
  | 61 => ⟨S_, .f32⟩
  | 62 => ⟨S_, .f32⟩
  | 63 => ⟨S4000000, .f32⟩
  | 64 => ⟨S4000000, .f32⟩
  | 65 => ⟨S4000000, .f32⟩
  | 66 => ⟨S4000000x1x1, .f32⟩
  | 67 => ⟨S4000000x2x1, .f32⟩
  | 68 => ⟨S4000000x2x1, .f32⟩
  | 69 => ⟨S4000000x2x1, .f32⟩
  | 70 => ⟨S4000000x1x12, .f32⟩
  | 71 => ⟨S4000000x2x12, .f32⟩
  | 72 => ⟨S4000000x2x12, .f32⟩
  | 73 => ⟨S4000000x2x12, .f32⟩
  | 74 => ⟨S4000000x24, .f32⟩
  | 75 => ⟨S_, .f32⟩
  | 76 => ⟨S50000x24, .f32⟩
  | 77 => ⟨S4000000x1, .i32⟩
  | 78 => ⟨S50000x24, .f32⟩
  | 79 => ⟨S50000x56, .f32⟩
  | 80 => ⟨S50000x56, .f32⟩
  | 81 => ⟨S50000x56, .f32⟩
  | 82 => ⟨S50000x56, .f32⟩
  | 83 => ⟨S50000x56, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_v66 : Ref sig .tc := ⟨.hbm, 102, rfl⟩
abbrev main_c_18 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_19 : Ref sig .tc := ⟨.hbm, 109, rfl⟩
abbrev main_v72 : Ref sig .tc := ⟨.hbm, 110, rfl⟩
abbrev main_v73 : Ref sig .tc := ⟨.hbm, 111, rfl⟩
abbrev main_c_20 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_v89 : Ref sig .tc := ⟨.hbm, 130, rfl⟩
abbrev main_cst_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_25 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_26 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_27 : Ref sig .tc := ⟨.hbm, 152, rfl⟩
abbrev main_v107 : Ref sig .tc := ⟨.hbm, 153, rfl⟩
abbrev main_v108 : Ref sig .tc := ⟨.hbm, 154, rfl⟩
abbrev main_cst_28 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_29 : Ref sig .tc := ⟨.hbm, 159, rfl⟩
abbrev main_v112 : Ref sig .tc := ⟨.hbm, 160, rfl⟩
abbrev main_v113 : Ref sig .tc := ⟨.hbm, 161, rfl⟩
abbrev main_cst_30 : Ref sig .tc := ⟨.hbm, 162, rfl⟩
abbrev main_v114 : Ref sig .tc := ⟨.hbm, 163, rfl⟩
abbrev main_v115 : Ref sig .tc := ⟨.hbm, 164, rfl⟩
abbrev main_cst_31 : Ref sig .tc := ⟨.hbm, 165, rfl⟩
abbrev main_v116 : Ref sig .tc := ⟨.hbm, 166, rfl⟩
abbrev main_v117 : Ref sig .tc := ⟨.hbm, 167, rfl⟩
abbrev main_cst_32 : Ref sig .tc := ⟨.hbm, 168, rfl⟩
abbrev main_call2_v0 : Ref sig .tc := ⟨.hbm, 169, rfl⟩
abbrev main_call2_v1 : Ref sig .tc := ⟨.hbm, 170, rfl⟩
abbrev main_v118 : Ref sig .tc := ⟨.hbm, 171, rfl⟩
abbrev main_v119 : Ref sig .tc := ⟨.hbm, 172, rfl⟩
abbrev main_cst_33 : Ref sig .tc := ⟨.hbm, 173, rfl⟩
abbrev main_v120 : Ref sig .tc := ⟨.hbm, 174, rfl⟩
abbrev main_v121 : Ref sig .tc := ⟨.hbm, 175, rfl⟩
abbrev main_cst_34 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_35 : Ref sig .tc := ⟨.hbm, 180, rfl⟩
abbrev main_v125 : Ref sig .tc := ⟨.hbm, 181, rfl⟩
abbrev main_v126 : Ref sig .tc := ⟨.hbm, 182, rfl⟩
abbrev main_cst_36 : Ref sig .tc := ⟨.hbm, 183, rfl⟩
abbrev main_v127 : Ref sig .tc := ⟨.hbm, 184, rfl⟩
abbrev main_v128 : Ref sig .tc := ⟨.hbm, 185, rfl⟩
abbrev main_cst_37 : Ref sig .tc := ⟨.hbm, 186, rfl⟩
abbrev main_v129 : Ref sig .tc := ⟨.hbm, 187, rfl⟩
abbrev main_v130 : Ref sig .tc := ⟨.hbm, 188, rfl⟩
abbrev main_cst_38 : Ref sig .tc := ⟨.hbm, 189, rfl⟩
abbrev main_call3_v0 : Ref sig .tc := ⟨.hbm, 190, rfl⟩
abbrev main_call3_v1 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_39 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x3_S2000000_d1 : S2000000x3.ReducesTo [1] S2000000
  h_S_ : 0 < S_.numel
  bcast_S32_S1x32_1 : S32.BroadcastsInDim S1x32 (![1] : Fin 1 → Fin S1x32.rank)
  bcast_S2000000x1_S2000000x32_0_1 : S2000000x1.BroadcastsInDim S2000000x32 (![0, 1] : Fin 2 → Fin S2000000x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S_S50000x32 : S_.BroadcastsInDim S50000x32 (![] : Fin 0 → Fin S50000x32.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x3_S4000000_d1 : S4000000x3.ReducesTo [1] S4000000
  bcast_S2_S1x2_1 : S2.BroadcastsInDim S1x2 (![1] : Fin 1 → Fin S1x2.rank)
  bcast_S1x2_S4000000x2_0_1 : S1x2.BroadcastsInDim S4000000x2 (![0, 1] : Fin 2 → Fin S4000000x2.rank)
  bcast_S4000000x1_S4000000x2_0_1 : S4000000x1.BroadcastsInDim S4000000x2 (![0, 1] : Fin 2 → Fin S4000000x2.rank)
  bcast_S_S4000000x2 : S_.BroadcastsInDim S4000000x2 (![] : Fin 0 → Fin S4000000x2.rank)
  bcast_S_S4000000x1 : S_.BroadcastsInDim S4000000x1 (![] : Fin 0 → Fin S4000000x1.rank)
  bcast_S12_S1x12_1 : S12.BroadcastsInDim S1x12 (![1] : Fin 1 → Fin S1x12.rank)
  bcast_S4000000x1_S4000000x12_0_1 : S4000000x1.BroadcastsInDim S4000000x12 (![0, 1] : Fin 2 → Fin S4000000x12.rank)
  bcast_S1x12_S4000000x12_0_1 : S1x12.BroadcastsInDim S4000000x12 (![0, 1] : Fin 2 → Fin S4000000x12.rank)
  bcast_S_S4000000x12 : S_.BroadcastsInDim S4000000x12 (![] : Fin 0 → Fin S4000000x12.rank)
  bcast_S4000000_S4000000x1x1_0 : S4000000.BroadcastsInDim S4000000x1x1 (![0] : Fin 1 → Fin S4000000x1x1.rank)
  bcast_S4000000x2_S4000000x2x1_0_1 : S4000000x2.BroadcastsInDim S4000000x2x1 (![0, 1] : Fin 2 → Fin S4000000x2x1.rank)
  bcast_S4000000x1x1_S4000000x2x1_0_1_2 : S4000000x1x1.BroadcastsInDim S4000000x2x1 (![0, 1, 2] : Fin 3 → Fin S4000000x2x1.rank)
  bcast_S4000000x12_S4000000x1x12_0_2 : S4000000x12.BroadcastsInDim S4000000x1x12 (![0, 2] : Fin 2 → Fin S4000000x1x12.rank)
  bcast_S4000000x2x1_S4000000x2x12_0_1_2 : S4000000x2x1.BroadcastsInDim S4000000x2x12 (![0, 1, 2] : Fin 3 → Fin S4000000x2x12.rank)
  bcast_S4000000x1x12_S4000000x2x12_0_1_2 : S4000000x1x12.BroadcastsInDim S4000000x2x12 (![0, 1, 2] : Fin 3 → Fin S4000000x2x12.rank)
  shapeCasts_S4000000x2x12_S4000000x24 : S4000000x2x12.ShapeCasts S4000000x24
  bcast_S_S50000x24 : S_.BroadcastsInDim S50000x24 (![] : Fin 0 → Fin S50000x24.rank)
  concatenates_S50000x32_S50000x24_S50000x56_d1 : Shape.Concatenates [S50000x32, S50000x24] S50000x56 1
  bcast_S1x56_S50000x56_0_1 : S1x56.BroadcastsInDim S50000x56 (![0, 1] : Fin 2 → Fin S50000x56.rank)
  gather_S50000_S2000000x1_S2000000_n_0_n_n_0_1_1_wf : GatherDims.WF S50000 S2000000x1 S2000000 [] [0] [] [0] [] 1 ![1]
  scatter_S50000x32_S2000000x1_S2000000x32_1_0_0_1_wf : ScatterDims.WF S50000x32 S2000000x1 S2000000x32 [1] [0] [0] 1
  gather_S2000000x3_S4000000x1_S4000000x3_1_0_n_n_0_1_13_wf : GatherDims.WF S2000000x3 S4000000x1 S4000000x3 [1] [0] [] [0] [] 1 ![1, 3]
  gather_S2000000_S4000000x1_S4000000_n_0_n_n_0_1_1_wf : GatherDims.WF S2000000 S4000000x1 S4000000 [] [0] [] [0] [] 1 ![1]
  scatter_S50000x24_S4000000x1_S4000000x24_1_0_0_1_wf : ScatterDims.WF S50000x24 S4000000x1 S4000000x24 [1] [0] [0] 1

variable [Facts₀]

def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S50000x32_S2000000x1_S2000000x32_1_0_0_1 : ScatterDims S50000x32 S2000000x1 S2000000x32 where
  updateWindowDims := [1]
  insertedWindowDims := [0]
  scatterDimsToOperandDims := [0]
  indexVectorDim := 1
  wf := scatter_S50000x32_S2000000x1_S2000000x32_1_0_0_1_wf
def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S50000x24_S4000000x1_S4000000x24_1_0_0_1 : ScatterDims S50000x24 S4000000x1 S4000000x24 where
  updateWindowDims := [1]
  insertedWindowDims := [0]
  scatterDimsToOperandDims := [0]
  indexVectorDim := 1
  wf := scatter_S50000x24_S4000000x1_S4000000x24_1_0_0_1_wf

class Facts : Prop extends Facts₀ where

variable [Facts]
-- ==== Proof.K.Region0.lean ====
/-
  The radial launch, one grid point at a time, for any float instance and any contents `V` of the core's buffers when
  the launch is entered. The grid has 400 points; point `t` works on rows `5000 t … 5000 t + 4999` of the pair array
  (a block of 5000 × 4: three vector components and the neighbour charge) and on the whole 1 × 32 row of centres, and it
  writes a 5000 × 32 block of radial values and a 5000 × 1 block of pair lengths. The body reads its two input blocks,
  stores one value over the whole of each output block and keeps nothing between points: after the body the input
  buffers hold their blocks as before and each output buffer holds the stored value, a function of the input blocks alone.
-/
import proofs.«133981_j1932735284042_1_alg».proof.Proof.Gen.Kernel.Launch
import proofs.«133981_j1932735284042_1_alg».proof.Proof.Gen.Kernel.Skeleton
import proofs.«133981_j1932735284042_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`: the rows of its array that the point works on, as the launch finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pair buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The centres' buffer holds its block at every point: it is fetched at the first point only, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev rPairs0 : Rect S5000x4 := Rect.unit (s := S5000x4) ![0, 0] S5000x4.size inb_S5000x4_S5000x4_0_0
abbrev rCentres0 : Rect S1x32 := Rect.unit (s := S1x32) ![0, 0] S1x32.size inb_S1x32_S1x32_0_0
abbrev rRadial0 : Rect S5000x32 := Rect.unit (s := S5000x32) ![0, 0] S5000x32.size inb_S5000x32_S5000x32_0_0
abbrev rLength0 : Rect S5000x1 := Rect.unit (s := S5000x1) ![0, 0] S5000x1.size inb_S5000x1_S5000x1_0_0

/-! ## What the body leaves in each output buffer -/

/-- The radial block: the one store's value, from the pair block `x0` and the centres `x1`. -/
def out0_2 (x0 : Vec F S5000x4 .f32) (x1 : Vec F S1x32 .f32) : Vec F S5000x32 .f32 :=
  View.canon [⟨rRadial0, k0_pay3 (View.ld x0 rPairs0) (View.ld x1 rCentres0)⟩]

/-- The length block: the one store's value, from the pair block. -/
def out0_3 (x0 : Vec F S5000x4 .f32) : Vec F S5000x1 .f32 :=
  View.canon [⟨rLength0, k0_pay2 (View.ld x0 rPairs0)⟩]

theorem cover0_2 (p0 : Vec F S5000x32 .f32) (y : S5000x32.Idx) :
    ∃ pc ∈ ([⟨rRadial0, p0⟩] : List (View.Piece (Elt F) S5000x32 .f32)), y ∈ pc.1.set :=
  View.cover_of_tiled [⟨rRadial0, p0⟩] S5000x32.size (by rfl) y

theorem cover0_3 (p0 : Vec F S5000x1 .f32) (y : S5000x1.Idx) :
    ∃ pc ∈ ([⟨rLength0, p0⟩] : List (View.Piece (Elt F) S5000x1 .f32)), y ∈ pc.1.set :=
  View.cover_of_tiled [⟨rLength0, p0⟩] S5000x1.size (by rfl) y

/-! ## The body's triple -/

set_option maxHeartbeats 4000000 in
/-- On whole buffers, the inputs at `x0`, `x1` and the outputs at anything, the body runs to the end and leaves the
    inputs as they were, the radial buffer at `out0_2 x0 x1` and the length buffer at `out0_3 x0`. -/
theorem sound_kernel0 (c : Dev nD) (E : Set ℕ) (i : grid0.Coords)
    (arg1 : Memref sig .tc .vmem S5000x4 .f32) (harg1 : arg1.IsWhole) (arg2 : Memref sig .tc .vmem S1x32 .f32) (harg2 : arg2.IsWhole)
    (arg3 : Memref sig .tc .vmem S5000x32 .f32) (harg3 : arg3.IsWhole) (arg4 : Memref sig .tc .vmem S5000x1 .f32) (harg4 : arg4.IsWhole)
    (x0 : Vec F S5000x4 .f32) (x1 : Vec F S1x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0)) -∗ K ⟨⟩))
      ⊢ wp frame (wpE (defs₀ (F := F)) Variants.none c none) E (cc0__radial_kernel i arg1 harg1 arg2 harg2 arg3 harg3 arg4 harg4) K := by
  simp only [cc0__radial_kernel_eq_skeleton]; unfold cc0__radial_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- The arrays as the launch finds them; after the body at point `t` each input buffer at its block and each output
    buffer at the stored value of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: its input buffers hold their blocks, so the triple applies; what else the core holds and
    owes passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The angular launch, one grid point at a time, for any float instance and any contents `V` of the core's buffers when
  the launch is entered. The grid has 800 points; point `t` works on rows `5000 t … 5000 t + 4999` of the triples'
  component array (a block of 5000 × 6: the two pair vectors of each triple), on the same rows of the triples' scalar
  array (a block of 5000 × 4: the two pair lengths and the two neighbour charges) and on the whole 1 × 12 row of
  centres, and it writes a 5000 × 24 block of angular values. The body reads its three input blocks and stores two
  values side by side, one over columns 0–11 and one over columns 12–23 of the output block, which together fill it;
  it keeps nothing between points: after the body the input buffers hold their blocks as before and the output buffer
  holds the two stored values, a function of the input blocks alone.
-/
import proofs.«133981_j1932735284042_1_alg».proof.Proof.Gen.Kernel.Launch
import proofs.«133981_j1932735284042_1_alg».proof.Proof.Gen.Kernel.Skeleton
import proofs.«133981_j1932735284042_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`: the rows of its array that the point works on, as the launch finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The components' buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scalars' buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The centres' buffer holds its block at every point: it is fetched at the first point only, and its block index
    never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each input the whole of its buffer, the output in two halves -/

abbrev rComps1 : Rect S5000x6 := Rect.unit (s := S5000x6) ![0, 0] S5000x6.size inb_S5000x6_S5000x6_0_0
abbrev rScalars1 : Rect S5000x4 := Rect.unit (s := S5000x4) ![0, 0] S5000x4.size inb_S5000x4_S5000x4_0_0
abbrev rCentres1 : Rect S1x12 := Rect.unit (s := S1x12) ![0, 0] S1x12.size inb_S1x12_S1x12_0_0
/-- Columns 0–11 of the output block. -/
abbrev rPlus1 : Rect S5000x24 := Rect.unit (s := S5000x24) ![0, 0] S5000x12.size inb_S5000x24_S5000x12_0_0
/-- Columns 12–23 of the output block. -/
abbrev rMinus1 : Rect S5000x24 := Rect.unit (s := S5000x24) ![0, 12] S5000x12.size inb_S5000x24_S5000x12_0_12

/-! ## What the body leaves in the output buffer -/

/-- The angular block: the two stores' values side by side (the later store listed first), each from the components
    `x0`, the scalars `x1` and the centres `x2`: over columns 12–23 the value with `1 - cos θ`, over columns 0–11 the
    value with `1 + cos θ`. -/
def out1_3 (x0 : Vec F S5000x6 .f32) (x1 : Vec F S5000x4 .f32) (x2 : Vec F S1x12 .f32) : Vec F S5000x24 .f32 :=
  View.canon
    [⟨rMinus1, k1_pay4 (k1_pay6 (View.ld x1 rScalars1)) (k1_pay7 (View.ld x1 rScalars1)) (k1_pay8 (View.ld x1 rScalars1))
        (k1_pay9 (View.ld x1 rScalars1)) (k1_pay10 (View.ld x2 rCentres1)) (k1_pay11 (View.ld x0 rComps1) (View.ld x1 rScalars1))
        (k1_pay12 (View.ld x1 rScalars1)) (k1_pay13 (View.ld x1 rScalars1)) (k1_pay14 (View.ld x1 rScalars1))⟩,
     ⟨rPlus1, k1_pay3 (k1_pay6 (View.ld x1 rScalars1)) (k1_pay7 (View.ld x1 rScalars1)) (k1_pay8 (View.ld x1 rScalars1))
        (k1_pay9 (View.ld x1 rScalars1)) (k1_pay10 (View.ld x2 rCentres1)) (k1_pay11 (View.ld x0 rComps1) (View.ld x1 rScalars1))
        (k1_pay12 (View.ld x1 rScalars1)) (k1_pay13 (View.ld x1 rScalars1)) (k1_pay14 (View.ld x1 rScalars1))⟩]

/-- The two halves fill the block: every index lies in columns 0–11 or in columns 12–23. -/
theorem cover1_3 (p1 p0 : Vec F S5000x12 .f32) (y : S5000x24.Idx) :
    ∃ pc ∈ ([⟨rMinus1, p1⟩, ⟨rPlus1, p0⟩] : List (View.Piece (Elt F) S5000x24 .f32)), y ∈ pc.1.set :=
  View.cover_of_tiled [⟨rMinus1, p1⟩, ⟨rPlus1, p0⟩] S5000x12.size (by rfl) y

/-! ## The body's triple -/

set_option maxHeartbeats 4000000 in
/-- On whole buffers, the inputs at `x0`, `x1`, `x2` and the output at anything, the body runs to the end and leaves the
    inputs as they were and the output buffer at `out1_3 x0 x1 x2`. -/
theorem sound_kernel1 (c : Dev nD) (E : Set ℕ) (i : grid1.Coords)
    (arg1 : Memref sig .tc .vmem S5000x6 .f32) (harg1 : arg1.IsWhole) (arg2 : Memref sig .tc .vmem S5000x4 .f32) (harg2 : arg2.IsWhole)
    (arg3 : Memref sig .tc .vmem S1x12 .f32) (harg3 : arg3.IsWhole) (arg4 : Memref sig .tc .vmem S5000x24 .f32) (harg4 : arg4.IsWhole)
    (x0 : Vec F S5000x6 .f32) (x1 : Vec F S5000x4 .f32) (x2 : Vec F S1x12 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__angular_kernel i arg1 harg1 arg2 harg2 arg3 harg3 arg4 harg4) K := by
  simp only [cc1__angular_kernel_eq_skeleton]; unfold cc1__angular_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The proof data -/

/-- The arrays as the launch finds them; after the body at point `t` each input buffer at its block and the output
    buffer at the stored values of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold their blocks, so the triple applies; what else the core holds and
    owes passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program on a core, for any float instance: three stretches of host operations with the radial
  launch after the first and the angular launch after the second. The contents of the core's buffers are followed from
  the launch memory through each stretch (the fold of its operations) and each launch (its arrays at what the grid's
  write-backs leave, every other buffer as it was), so that at the end EVERY buffer the program can name holds a stated
  function of the launch memory. No host operation writes an argument and no launch writes one back, so the arguments
  end as launched; the result buffer ends at the last stretch's fold.
-/
import proofs.«133981_j1932735284042_1_alg».proof.Proof.K.Region0
import proofs.«133981_j1932735284042_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch: what the radial launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the radial launch: its four arrays at what the 400 points leave, everything else untouched. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch: what the angular launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the angular launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At the end: after the third stretch. -/
abbrev W5 : Dev nD → Valuation τ sig (Elt F) := fun c => StableHlo.after hostOps2 (W4 m ρ c)

/-! ## A buffer nothing writes ends as launched -/

/-- A buffer that no host operation of the three stretches writes and that is an array of neither launch holds its
    launch contents at the end. -/
theorem W5_keep (c : Dev nD) (b : Ref sig .tc)
    (h0 : ∀ op ∈ (hostOps0 : List (HloOp τ sig (Elt F))), (Proc.devRef .tc b : DevRef τ sig) ∉ op.writes)
    (h1 : ∀ op ∈ (hostOps1 : List (HloOp τ sig (Elt F))), (Proc.devRef .tc b : DevRef τ sig) ∉ op.writes)
    (h2 : ∀ op ∈ (hostOps2 : List (HloOp τ sig (Elt F))), (Proc.devRef .tc b : DevRef τ sig) ∉ op.writes)
    (hw0 : ∀ w, Pipeline.arrRef spec0 w ≠ b) (hw1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_forall_not_mem _ _ h2
    _ = W3 m ρ c (Proc.devRef .tc b) := W4_of_ne m ρ c b hw1
    _ = W2 m ρ c (Proc.devRef .tc b) := StableHlo.after_of_forall_not_mem _ _ h1
    _ = W1 m ρ c (Proc.devRef .tc b) := W2_of_ne m ρ c b hw0
    _ = W0 m ρ c (Proc.devRef .tc b) := StableHlo.after_of_forall_not_mem _ _ h0
    _ = m ((c : Thread nD τ).loc b) := rfl

/-- "No operation of this stretch writes that buffer": each operation writes one buffer, another one. -/
local macro "not_written" : tactic => `(tactic| (
  refine List.forall_iff_forall_mem.mp ?_
  simp only [hostOps0, hostOps1, hostOps2, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem W5_main_arg0 (c : Dev nD) : W5 m ρ c (Proc.devRef .tc main_arg0) = m ((c : Thread nD τ).loc main_arg0) :=
  W5_keep m ρ c main_arg0 (by not_written) (by not_written) (by not_written) (by decide) (by decide)
theorem W5_main_arg1 (c : Dev nD) : W5 m ρ c (Proc.devRef .tc main_arg1) = m ((c : Thread nD τ).loc main_arg1) :=
  W5_keep m ρ c main_arg1 (by not_written) (by not_written) (by not_written) (by decide) (by decide)
theorem W5_main_arg2 (c : Dev nD) : W5 m ρ c (Proc.devRef .tc main_arg2) = m ((c : Thread nD τ).loc main_arg2) :=
  W5_keep m ρ c main_arg2 (by not_written) (by not_written) (by not_written) (by decide) (by decide)
theorem W5_main_arg3 (c : Dev nD) : W5 m ρ c (Proc.devRef .tc main_arg3) = m ((c : Thread nD τ).loc main_arg3) :=
  W5_keep m ρ c main_arg3 (by not_written) (by not_written) (by not_written) (by decide) (by decide)
theorem W5_main_arg4 (c : Dev nD) : W5 m ρ c (Proc.devRef .tc main_arg4) = m ((c : Thread nD τ).loc main_arg4) :=
  W5_keep m ρ c main_arg4 (by not_written) (by not_written) (by not_written) (by decide) (by decide)
theorem W5_main_arg5 (c : Dev nD) : W5 m ρ c (Proc.devRef .tc main_arg5) = m ((c : Thread nD τ).loc main_arg5) :=
  W5_keep m ρ c main_arg5 (by not_written) (by not_written) (by not_written) (by decide) (by decide)
theorem W5_main_arg6 (c : Dev nD) : W5 m ρ c (Proc.devRef .tc main_arg6) = m ((c : Thread nD τ).loc main_arg6) :=
  W5_keep m ρ c main_arg6 (by not_written) (by not_written) (by not_written) (by decide) (by decide)
theorem W5_main_arg7 (c : Dev nD) : W5 m ρ c (Proc.devRef .tc main_arg7) = m ((c : Thread nD τ).loc main_arg7) :=
  W5_keep m ρ c main_arg7 (by not_written) (by not_written) (by not_written) (by decide) (by decide)
theorem W5_main_arg8 (c : Dev nD) : W5 m ρ c (Proc.devRef .tc main_arg8) = m ((c : Thread nD τ).loc main_arg8) :=
  W5_keep m ρ c main_arg8 (by not_written) (by not_written) (by not_written) (by decide) (by decide)
theorem W5_main_arg9 (c : Dev nD) : W5 m ρ c (Proc.devRef .tc main_arg9) = m ((c : Thread nD τ).loc main_arg9) :=
  W5_keep m ρ c main_arg9 (by not_written) (by not_written) (by not_written) (by decide) (by decide)
theorem W5_main_arg10 (c : Dev nD) : W5 m ρ c (Proc.devRef .tc main_arg10) = m ((c : Thread nD τ).loc main_arg10) :=
  W5_keep m ρ c main_arg10 (by not_written) (by not_written) (by not_written) (by decide) (by decide)

/-! ## The proof data of the two launches, and what rides along -/

/-- Neither launch has a prefetched table. -/
abbrev adm : (p : Fin 2) → (pcfgs (F := F) p).Adm := fun p => (cfgs p).toPCfg_adm
/-- Each launch's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its debts, none. -/
abbrev R (c : Dev nD) : sProp 𝕄 := iprop((∃ r, prngReg c r) ∗ ∃ W, owes (c : Thread nD τ) (0 : CellTallies nD τ sig Unit) W)
/-- A stretch of host operations from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
/-- The radial launch: entered with every unscoped buffer at `W1`, left with them at `W2`. Its four arrays are taken out
    of the unscoped buffers at entry and put back at what the grid leaves; the generator register goes into the
    launch's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The angular launch: entered with every unscoped buffer at `W3`, left with them at `W4`; otherwise as the radial one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as five segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
/-- The program is the run of its five segments. -/
theorem main_run (c : Dev nD) : main (F := F) c = Pipeline.Seg.run (segs m ρ) := (main_chain c).trans (by chain_rfl)

set_option backward.isDefEq.respectTransparency.types false in
/-- THE RUN. From any memory with zero counters every weakly fair execution of the program terminates without a fault,
    and at the end every unscoped buffer of every core holds `W5` of the launch memory. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-- THE FRAME: the program runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c),
     (h c main_arg4 (by decide)).trans (W5_main_arg4 m ρ c), (h c main_arg5 (by decide)).trans (W5_main_arg5 m ρ c),
     (h c main_arg6 (by decide)).trans (W5_main_arg6 m ρ c), (h c main_arg7 (by decide)).trans (W5_main_arg7 m ρ c),
     (h c main_arg8 (by decide)).trans (W5_main_arg8 m ρ c), (h c main_arg9 (by decide)).trans (W5_main_arg9 m ρ c),
     (h c main_arg10 (by decide)).trans (W5_main_arg10 m ρ c)⟩)
    (run_all m ρ)

end Cert.Kernel.Hand

end
-- ==== Proof.KI.Region0.lean ====
/-
  The radial launch, one grid point at a time, for any float instance and any contents `V` of the core's buffers when
  the launch is entered. The grid has 400 points; point `t` works on rows `5000 t … 5000 t + 4999` of the pair array
  (a block of 5000 × 4: three vector components and the neighbour charge) and on the whole 1 × 32 row of centres, and it
  writes a 5000 × 32 block of radial values and a 5000 × 1 block of pair lengths. The body reads its two input blocks,
  stores one value over the whole of each output block and keeps nothing between points: after the body the input
  buffers hold their blocks as before and each output buffer holds the stored value, a function of the input blocks alone.
-/
import proofs.«133981_j1932735284042_1_alg».proof.Proof.Gen.KernelIdeal.Launch
import proofs.«133981_j1932735284042_1_alg».proof.Proof.Gen.KernelIdeal.Skeleton
import proofs.«133981_j1932735284042_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`: the rows of its array that the point works on, as the launch finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pair buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The centres' buffer holds its block at every point: it is fetched at the first point only, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev rPairs0 : Rect S5000x4 := Rect.unit (s := S5000x4) ![0, 0] S5000x4.size inb_S5000x4_S5000x4_0_0
abbrev rCentres0 : Rect S1x32 := Rect.unit (s := S1x32) ![0, 0] S1x32.size inb_S1x32_S1x32_0_0
abbrev rRadial0 : Rect S5000x32 := Rect.unit (s := S5000x32) ![0, 0] S5000x32.size inb_S5000x32_S5000x32_0_0
abbrev rLength0 : Rect S5000x1 := Rect.unit (s := S5000x1) ![0, 0] S5000x1.size inb_S5000x1_S5000x1_0_0

/-! ## What the body leaves in each output buffer -/

/-- The radial block: the one store's value, from the pair block `x0` and the centres `x1`. -/
def out0_2 (x0 : Vec F S5000x4 .f32) (x1 : Vec F S1x32 .f32) : Vec F S5000x32 .f32 :=
  View.canon [⟨rRadial0, k0_pay3 (View.ld x0 rPairs0) (View.ld x1 rCentres0)⟩]

/-- The length block: the one store's value, from the pair block. -/
def out0_3 (x0 : Vec F S5000x4 .f32) : Vec F S5000x1 .f32 :=
  View.canon [⟨rLength0, k0_pay2 (View.ld x0 rPairs0)⟩]

theorem cover0_2 (p0 : Vec F S5000x32 .f32) (y : S5000x32.Idx) :
    ∃ pc ∈ ([⟨rRadial0, p0⟩] : List (View.Piece (Elt F) S5000x32 .f32)), y ∈ pc.1.set :=
  View.cover_of_tiled [⟨rRadial0, p0⟩] S5000x32.size (by rfl) y

theorem cover0_3 (p0 : Vec F S5000x1 .f32) (y : S5000x1.Idx) :
    ∃ pc ∈ ([⟨rLength0, p0⟩] : List (View.Piece (Elt F) S5000x1 .f32)), y ∈ pc.1.set :=
  View.cover_of_tiled [⟨rLength0, p0⟩] S5000x1.size (by rfl) y

/-! ## The body's triple -/

set_option maxHeartbeats 4000000 in
/-- On whole buffers, the inputs at `x0`, `x1` and the outputs at anything, the body runs to the end and leaves the
    inputs as they were, the radial buffer at `out0_2 x0 x1` and the length buffer at `out0_3 x0`. -/
theorem sound_kernel0 (c : Dev nD) (E : Set ℕ) (i : grid0.Coords)
    (arg1 : Memref sig .tc .vmem S5000x4 .f32) (harg1 : arg1.IsWhole) (arg2 : Memref sig .tc .vmem S1x32 .f32) (harg2 : arg2.IsWhole)
    (arg3 : Memref sig .tc .vmem S5000x32 .f32) (harg3 : arg3.IsWhole) (arg4 : Memref sig .tc .vmem S5000x1 .f32) (harg4 : arg4.IsWhole)
    (x0 : Vec F S5000x4 .f32) (x1 : Vec F S1x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0)) -∗ K ⟨⟩))
      ⊢ wp frame (wpE (defs₀ (F := F)) Variants.none c none) E (cc0__radial_kernel i arg1 harg1 arg2 harg2 arg3 harg3 arg4 harg4) K := by
  simp only [cc0__radial_kernel_eq_skeleton]; unfold cc0__radial_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- The arrays as the launch finds them; after the body at point `t` each input buffer at its block and each output
    buffer at the stored value of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: its input buffers hold their blocks, so the triple applies; what else the core holds and
    owes passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The angular launch, one grid point at a time, for any float instance and any contents `V` of the core's buffers when
  the launch is entered. The grid has 800 points; point `t` works on rows `5000 t … 5000 t + 4999` of the triples'
  component array (a block of 5000 × 6: the two pair vectors of each triple), on the same rows of the triples' scalar
  array (a block of 5000 × 4: the two pair lengths and the two neighbour charges) and on the whole 1 × 12 row of
  centres, and it writes a 5000 × 24 block of angular values. The body reads its three input blocks and stores two
  values side by side, one over columns 0–11 and one over columns 12–23 of the output block, which together fill it;
  it keeps nothing between points: after the body the input buffers hold their blocks as before and the output buffer
  holds the two stored values, a function of the input blocks alone.
-/
import proofs.«133981_j1932735284042_1_alg».proof.Proof.Gen.KernelIdeal.Launch
import proofs.«133981_j1932735284042_1_alg».proof.Proof.Gen.KernelIdeal.Skeleton
import proofs.«133981_j1932735284042_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`: the rows of its array that the point works on, as the launch finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The components' buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scalars' buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The centres' buffer holds its block at every point: it is fetched at the first point only, and its block index
    never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each input the whole of its buffer, the output in two halves -/

abbrev rComps1 : Rect S5000x6 := Rect.unit (s := S5000x6) ![0, 0] S5000x6.size inb_S5000x6_S5000x6_0_0
abbrev rScalars1 : Rect S5000x4 := Rect.unit (s := S5000x4) ![0, 0] S5000x4.size inb_S5000x4_S5000x4_0_0
abbrev rCentres1 : Rect S1x12 := Rect.unit (s := S1x12) ![0, 0] S1x12.size inb_S1x12_S1x12_0_0
/-- Columns 0–11 of the output block. -/
abbrev rPlus1 : Rect S5000x24 := Rect.unit (s := S5000x24) ![0, 0] S5000x12.size inb_S5000x24_S5000x12_0_0
/-- Columns 12–23 of the output block. -/
abbrev rMinus1 : Rect S5000x24 := Rect.unit (s := S5000x24) ![0, 12] S5000x12.size inb_S5000x24_S5000x12_0_12

/-! ## What the body leaves in the output buffer -/

/-- The angular block: the two stores' values side by side (the later store listed first), each from the components
    `x0`, the scalars `x1` and the centres `x2`: over columns 12–23 the value with `1 - cos θ`, over columns 0–11 the
    value with `1 + cos θ`. -/
def out1_3 (x0 : Vec F S5000x6 .f32) (x1 : Vec F S5000x4 .f32) (x2 : Vec F S1x12 .f32) : Vec F S5000x24 .f32 :=
  View.canon
    [⟨rMinus1, k1_pay4 (k1_pay6 (View.ld x1 rScalars1)) (k1_pay7 (View.ld x1 rScalars1)) (k1_pay8 (View.ld x1 rScalars1))
        (k1_pay9 (View.ld x1 rScalars1)) (k1_pay10 (View.ld x2 rCentres1)) (k1_pay11 (View.ld x0 rComps1) (View.ld x1 rScalars1))
        (k1_pay12 (View.ld x1 rScalars1)) (k1_pay13 (View.ld x1 rScalars1)) (k1_pay14 (View.ld x1 rScalars1))⟩,
     ⟨rPlus1, k1_pay3 (k1_pay6 (View.ld x1 rScalars1)) (k1_pay7 (View.ld x1 rScalars1)) (k1_pay8 (View.ld x1 rScalars1))
        (k1_pay9 (View.ld x1 rScalars1)) (k1_pay10 (View.ld x2 rCentres1)) (k1_pay11 (View.ld x0 rComps1) (View.ld x1 rScalars1))
        (k1_pay12 (View.ld x1 rScalars1)) (k1_pay13 (View.ld x1 rScalars1)) (k1_pay14 (View.ld x1 rScalars1))⟩]

/-- The two halves fill the block: every index lies in columns 0–11 or in columns 12–23. -/
theorem cover1_3 (p1 p0 : Vec F S5000x12 .f32) (y : S5000x24.Idx) :
    ∃ pc ∈ ([⟨rMinus1, p1⟩, ⟨rPlus1, p0⟩] : List (View.Piece (Elt F) S5000x24 .f32)), y ∈ pc.1.set :=
  View.cover_of_tiled [⟨rMinus1, p1⟩, ⟨rPlus1, p0⟩] S5000x12.size (by rfl) y

/-! ## The body's triple -/

set_option maxHeartbeats 4000000 in
/-- On whole buffers, the inputs at `x0`, `x1`, `x2` and the output at anything, the body runs to the end and leaves the
    inputs as they were and the output buffer at `out1_3 x0 x1 x2`. -/
theorem sound_kernel1 (c : Dev nD) (E : Set ℕ) (i : grid1.Coords)
    (arg1 : Memref sig .tc .vmem S5000x6 .f32) (harg1 : arg1.IsWhole) (arg2 : Memref sig .tc .vmem S5000x4 .f32) (harg2 : arg2.IsWhole)
    (arg3 : Memref sig .tc .vmem S1x12 .f32) (harg3 : arg3.IsWhole) (arg4 : Memref sig .tc .vmem S5000x24 .f32) (harg4 : arg4.IsWhole)
    (x0 : Vec F S5000x6 .f32) (x1 : Vec F S5000x4 .f32) (x2 : Vec F S1x12 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__angular_kernel i arg1 harg1 arg2 harg2 arg3 harg3 arg4 harg4) K := by
  simp only [cc1__angular_kernel_eq_skeleton]; unfold cc1__angular_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The proof data -/

/-- The arrays as the launch finds them; after the body at point `t` each input buffer at its block and the output
    buffer at the stored values of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold their blocks, so the triple applies; what else the core holds and
    owes passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program on a core, for any float instance: three stretches of host operations with the radial
  launch after the first and the angular launch after the second. The contents of the core's buffers are followed from
  the launch memory through each stretch (the fold of its operations) and each launch (its arrays at what the grid's
  write-backs leave, every other buffer as it was), so that at the end EVERY buffer the program can name holds a stated
  function of the launch memory. No host operation writes an argument and no launch writes one back, so the arguments
  end as launched; the result buffer ends at the last stretch's fold.
-/
import proofs.«133981_j1932735284042_1_alg».proof.Proof.KI.Region0
import proofs.«133981_j1932735284042_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch: what the radial launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the radial launch: its four arrays at what the 400 points leave, everything else untouched. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch: what the angular launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the angular launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At the end: after the third stretch. -/
abbrev W5 : Dev nD → Valuation τ sig (Elt F) := fun c => StableHlo.after hostOps2 (W4 m ρ c)

/-! ## A buffer nothing writes ends as launched -/

/-- A buffer that no host operation of the three stretches writes and that is an array of neither launch holds its
    launch contents at the end. -/
theorem W5_keep (c : Dev nD) (b : Ref sig .tc)
    (h0 : ∀ op ∈ (hostOps0 : List (HloOp τ sig (Elt F))), (Proc.devRef .tc b : DevRef τ sig) ∉ op.writes)
    (h1 : ∀ op ∈ (hostOps1 : List (HloOp τ sig (Elt F))), (Proc.devRef .tc b : DevRef τ sig) ∉ op.writes)
    (h2 : ∀ op ∈ (hostOps2 : List (HloOp τ sig (Elt F))), (Proc.devRef .tc b : DevRef τ sig) ∉ op.writes)
    (hw0 : ∀ w, Pipeline.arrRef spec0 w ≠ b) (hw1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_forall_not_mem _ _ h2
    _ = W3 m ρ c (Proc.devRef .tc b) := W4_of_ne m ρ c b hw1
    _ = W2 m ρ c (Proc.devRef .tc b) := StableHlo.after_of_forall_not_mem _ _ h1
    _ = W1 m ρ c (Proc.devRef .tc b) := W2_of_ne m ρ c b hw0
    _ = W0 m ρ c (Proc.devRef .tc b) := StableHlo.after_of_forall_not_mem _ _ h0
    _ = m ((c : Thread nD τ).loc b) := rfl

/-- "No operation of this stretch writes that buffer": each operation writes one buffer, another one. -/
local macro "not_written" : tactic => `(tactic| (
  refine List.forall_iff_forall_mem.mp ?_
  simp only [hostOps0, hostOps1, hostOps2, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem W5_main_arg0 (c : Dev nD) : W5 m ρ c (Proc.devRef .tc main_arg0) = m ((c : Thread nD τ).loc main_arg0) :=
  W5_keep m ρ c main_arg0 (by not_written) (by not_written) (by not_written) (by decide) (by decide)
theorem W5_main_arg1 (c : Dev nD) : W5 m ρ c (Proc.devRef .tc main_arg1) = m ((c : Thread nD τ).loc main_arg1) :=
  W5_keep m ρ c main_arg1 (by not_written) (by not_written) (by not_written) (by decide) (by decide)
theorem W5_main_arg2 (c : Dev nD) : W5 m ρ c (Proc.devRef .tc main_arg2) = m ((c : Thread nD τ).loc main_arg2) :=
  W5_keep m ρ c main_arg2 (by not_written) (by not_written) (by not_written) (by decide) (by decide)
theorem W5_main_arg3 (c : Dev nD) : W5 m ρ c (Proc.devRef .tc main_arg3) = m ((c : Thread nD τ).loc main_arg3) :=
  W5_keep m ρ c main_arg3 (by not_written) (by not_written) (by not_written) (by decide) (by decide)
theorem W5_main_arg4 (c : Dev nD) : W5 m ρ c (Proc.devRef .tc main_arg4) = m ((c : Thread nD τ).loc main_arg4) :=
  W5_keep m ρ c main_arg4 (by not_written) (by not_written) (by not_written) (by decide) (by decide)
theorem W5_main_arg5 (c : Dev nD) : W5 m ρ c (Proc.devRef .tc main_arg5) = m ((c : Thread nD τ).loc main_arg5) :=
  W5_keep m ρ c main_arg5 (by not_written) (by not_written) (by not_written) (by decide) (by decide)
theorem W5_main_arg6 (c : Dev nD) : W5 m ρ c (Proc.devRef .tc main_arg6) = m ((c : Thread nD τ).loc main_arg6) :=
  W5_keep m ρ c main_arg6 (by not_written) (by not_written) (by not_written) (by decide) (by decide)
theorem W5_main_arg7 (c : Dev nD) : W5 m ρ c (Proc.devRef .tc main_arg7) = m ((c : Thread nD τ).loc main_arg7) :=
  W5_keep m ρ c main_arg7 (by not_written) (by not_written) (by not_written) (by decide) (by decide)
theorem W5_main_arg8 (c : Dev nD) : W5 m ρ c (Proc.devRef .tc main_arg8) = m ((c : Thread nD τ).loc main_arg8) :=
  W5_keep m ρ c main_arg8 (by not_written) (by not_written) (by not_written) (by decide) (by decide)
theorem W5_main_arg9 (c : Dev nD) : W5 m ρ c (Proc.devRef .tc main_arg9) = m ((c : Thread nD τ).loc main_arg9) :=
  W5_keep m ρ c main_arg9 (by not_written) (by not_written) (by not_written) (by decide) (by decide)
theorem W5_main_arg10 (c : Dev nD) : W5 m ρ c (Proc.devRef .tc main_arg10) = m ((c : Thread nD τ).loc main_arg10) :=
  W5_keep m ρ c main_arg10 (by not_written) (by not_written) (by not_written) (by decide) (by decide)

/-! ## The proof data of the two launches, and what rides along -/

/-- Neither launch has a prefetched table. -/
abbrev adm : (p : Fin 2) → (pcfgs (F := F) p).Adm := fun p => (cfgs p).toPCfg_adm
/-- Each launch's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its debts, none. -/
abbrev R (c : Dev nD) : sProp 𝕄 := iprop((∃ r, prngReg c r) ∗ ∃ W, owes (c : Thread nD τ) (0 : CellTallies nD τ sig Unit) W)
/-- A stretch of host operations from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
/-- The radial launch: entered with every unscoped buffer at `W1`, left with them at `W2`. Its four arrays are taken out
    of the unscoped buffers at entry and put back at what the grid leaves; the generator register goes into the
    launch's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The angular launch: entered with every unscoped buffer at `W3`, left with them at `W4`; otherwise as the radial one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as five segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
/-- The program is the run of its five segments. -/
theorem main_run (c : Dev nD) : main (F := F) c = Pipeline.Seg.run (segs m ρ) := (main_chain c).trans (by chain_rfl)

set_option backward.isDefEq.respectTransparency.types false in
/-- THE RUN. From any memory with zero counters every weakly fair execution of the program terminates without a fault,
    and at the end every unscoped buffer of every core holds `W5` of the launch memory. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-- THE FRAME: the program runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c),
     (h c main_arg4 (by decide)).trans (W5_main_arg4 m ρ c), (h c main_arg5 (by decide)).trans (W5_main_arg5 m ρ c),
     (h c main_arg6 (by decide)).trans (W5_main_arg6 m ρ c), (h c main_arg7 (by decide)).trans (W5_main_arg7 m ρ c),
     (h c main_arg8 (by decide)).trans (W5_main_arg8 m ρ c), (h c main_arg9 (by decide)).trans (W5_main_arg9 m ρ c),
     (h c main_arg10 (by decide)).trans (W5_main_arg10 m ρ c)⟩)
    (run_all m ρ)

end Cert.KernelIdeal.Hand

end
-- ==== Proof.KI.KStages.lean ====
/-
  The host side of the kernel's program as functions of the argument arrays: the index arrays made non-negative, the
  neighbour charges, the two launches' input arrays (the pair vectors with the charge beside them; the gathered pair
  vectors side by side; the gathered lengths and charges side by side), and the way from the launches' results to the
  program's result (a sum per atom of each, side by side, minus the mean, over the deviation).
-/
import proofs.«133981_j1932735284042_1_alg».proof.Proof.Gen.KernelIdeal

noncomputable section

namespace Cert.KernelIdeal.Hand

open Cert.KernelIdeal Cert.KernelIdeal.Gen
open Idealize.ShloMosaic

section Stages

variable {F : FTy → Type} [FloatOps F]

/-- An index array of pairs' atoms made non-negative (a negative index counts from the end) and laid out as a column. -/
def nrmP (a3 : IVec S2000000 32) : IVec S2000000x1 32 :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 50000#32))) a3)
/-- The same for an index array of triples' pairs. -/
def nrmT (a : IVec S4000000 32) : IVec S4000000x1 32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 2000000#32))) a)
/-- The neighbour charge of every pair: the atoms' charges as floats, gathered by the pairs' second atom. -/
def zjK (a0 : IVec S50000 32) (a3 : IVec S2000000 32) : FVec F S2000000 .f32 :=
  Host.gather gather_S50000_S2000000x1_S2000000_n_0_n_n_0_1_1 (sitofp .f32 a0 : FVec F S50000 .f32) (nrmP a3)
/-- The radial launch's pair array: the pair vector's three components and the neighbour charge side by side. -/
def rzK (a0 : IVec S50000 32) (a1 : FVec F S2000000x3 .f32) (a3 : IVec S2000000 32) : FVec F S2000000x4 .f32 :=
  concatenate S2000000x4 1 [⟨S2000000x3, a1⟩, ⟨S2000000x1, broadcastInDim S2000000x1 ![0] bcast_S2000000_S2000000x1_0 (zjK (F := F) a0 a3)⟩]
    concatenates_S2000000x3_S2000000x1_S2000000x4_d1
/-- Rows of the pair vectors gathered by a triple index array. -/
def gRow (a1 : FVec F S2000000x3 .f32) (a : IVec S4000000 32) : FVec F S4000000x3 .f32 :=
  Host.gather gather_S2000000x3_S4000000x1_S4000000x3_1_0_n_n_0_1_13 a1 (nrmT a)
/-- Entries of a per-pair array gathered by a triple index array. -/
def gVec (x : FVec F S2000000 .f32) (a : IVec S4000000 32) : FVec F S4000000 .f32 :=
  Host.gather gather_S2000000_S4000000x1_S4000000_n_0_n_n_0_1_1 x (nrmT a)
/-- The angular launch's component array: the two gathered pair vectors side by side. -/
def r6K (a1 : FVec F S2000000x3 .f32) (a5 a6 : IVec S4000000 32) : FVec F S4000000x6 .f32 :=
  concatenate S4000000x6 1 [⟨S4000000x3, gRow a1 a5⟩, ⟨S4000000x3, gRow a1 a6⟩] concatenates_S4000000x3_S4000000x3_S4000000x6_d1
/-- The angular launch's scalar array: the two gathered lengths and the two gathered charges side by side. -/
def s4K (d z : FVec F S2000000 .f32) (a5 a6 : IVec S4000000 32) : FVec F S4000000x4 .f32 :=
  concatenate S4000000x4 1
    [⟨S4000000x1, broadcastInDim S4000000x1 ![0] bcast_S4000000_S4000000x1_0 (gVec d a5)⟩,
     ⟨S4000000x1, broadcastInDim S4000000x1 ![0] bcast_S4000000_S4000000x1_0 (gVec d a6)⟩,
     ⟨S4000000x1, broadcastInDim S4000000x1 ![0] bcast_S4000000_S4000000x1_0 (gVec z a5)⟩,
     ⟨S4000000x1, broadcastInDim S4000000x1 ![0] bcast_S4000000_S4000000x1_0 (gVec z a6)⟩]
    concatenates_S4000000x1_S4000000x1_S4000000x1_S4000000x1_S4000000x4_d1
/-- From the per-pair radial values and the per-triple angular values to the result: each summed per atom, the two
    laid side by side, the mean subtracted and the quotient by the deviation taken. -/
def tailK (rad : FVec F S2000000x32 .f32) (ang : FVec F S4000000x24 .f32) (a2 : IVec S2000000 32) (a4 : IVec S4000000 32)
    (a9 a10 : FVec F S1x56 .f32) : FVec F S50000x56 .f32 :=
  Host.divf
    (subf
      (concatenate S50000x56 1
        [⟨S50000x32, Host.scatterAdd scatter_S50000x32_S2000000x1_S2000000x32_1_0_0_1
            (broadcastInDim S50000x32 ![] bcast_S_S50000x32 (constant (F := F) S_ .f32 0x00000000#32))
            (broadcastInDim S2000000x1 ![0] bcast_S2000000_S2000000x1_0 a2) rad⟩,
         ⟨S50000x24, Host.scatterAdd scatter_S50000x24_S4000000x1_S4000000x24_1_0_0_1
            (broadcastInDim S50000x24 ![] bcast_S_S50000x24 (constant (F := F) S_ .f32 0x00000000#32))
            (broadcastInDim S4000000x1 ![0] bcast_S4000000_S4000000x1_0 a4) ang⟩]
        concatenates_S50000x32_S50000x24_S50000x56_d1)
      (broadcastInDim S50000x56 ![0, 1] bcast_S1x56_S50000x56_0_1 a9))
    (broadcastInDim S50000x56 ![0, 1] bcast_S1x56_S50000x56_0_1 a10)

end Stages

end Cert.KernelIdeal.Hand

end
-- ==== Proof.KI.KValue.lean ====
/-
  The kernel program's buffers read back through the run: what each launch is entered with and what the result buffer
  holds at the end, as the staged functions of the argument arrays and of the launches' result arrays.
-/
import proofs.«133981_j1932735284042_1_alg».proof.Proof.KI.Run
import proofs.«133981_j1932735284042_1_alg».proof.Proof.KI.KStages

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## The boundary contents read back -/

/-- A buffer that the first stretch does not write and that is no array of the radial launch is, at that launch's
    exit, as launched. -/
theorem W2_keep (c : Dev nD) (b : Ref sig .tc)
    (h0 : ∀ op ∈ (hostOps0 : List (HloOp τ sig (Elt F))), (Proc.devRef .tc b : DevRef τ sig) ∉ op.writes)
    (hw0 : ∀ w, Pipeline.arrRef spec0 w ≠ b) : W2 m ρ c (Proc.devRef .tc b) = m ((c : Thread nD τ).loc b) :=
  ((W2_of_ne m ρ c b hw0).trans (StableHlo.after_of_forall_not_mem _ _ h0)).trans rfl

/-- The radial launch's pair array. -/
theorem V1_v9 (c : Dev nD) : V1 m ρ c main_v9
    = rzK (m ((c : Thread nD τ).loc main_arg0)) (m ((c : Thread nD τ).loc main_arg1)) (m ((c : Thread nD τ).loc main_arg3)) := by
  show StableHlo.after hostOps0 (W0 m ρ c) (Proc.devRef .tc main_v9) = _
  after_results
  rfl
/-- The radial launch's centres: the argument as one row. -/
theorem V1_v10 (c : Dev nD) : V1 m ρ c main_v10 = shapeCast S1x32 (m ((c : Thread nD τ).loc main_arg7)) shapeCasts_S32_S1x32 := by
  show StableHlo.after hostOps0 (W0 m ρ c) (Proc.devRef .tc main_v10) = _
  after_results
  rfl
/-- The neighbour charges, still there when the second stretch reads them. -/
theorem W2_v7 (c : Dev nD) : W2 m ρ c (Proc.devRef .tc main_v7)
    = zjK (m ((c : Thread nD τ).loc main_arg0)) (m ((c : Thread nD τ).loc main_arg3)) := by
  rw [W2_of_ne m ρ c main_v7 (by decide)]
  show StableHlo.after hostOps0 (W0 m ρ c) (Proc.devRef .tc main_v7) = _
  after_results
  rfl

/-- "No operation of this stretch writes that buffer": each operation writes one buffer, another one. -/
local macro "not_written'" : tactic => `(tactic| (
  refine List.forall_iff_forall_mem.mp ?_
  simp only [hostOps0, hostOps1, hostOps2, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem W2_arg1 (c : Dev nD) : W2 m ρ c (Proc.devRef .tc main_arg1) = m ((c : Thread nD τ).loc main_arg1) :=
  W2_keep m ρ c main_arg1 (by not_written') (by decide)
theorem W2_arg2 (c : Dev nD) : W2 m ρ c (Proc.devRef .tc main_arg2) = m ((c : Thread nD τ).loc main_arg2) :=
  W2_keep m ρ c main_arg2 (by not_written') (by decide)
theorem W2_arg5 (c : Dev nD) : W2 m ρ c (Proc.devRef .tc main_arg5) = m ((c : Thread nD τ).loc main_arg5) :=
  W2_keep m ρ c main_arg5 (by not_written') (by decide)
theorem W2_arg6 (c : Dev nD) : W2 m ρ c (Proc.devRef .tc main_arg6) = m ((c : Thread nD τ).loc main_arg6) :=
  W2_keep m ρ c main_arg6 (by not_written') (by decide)
theorem W2_arg8 (c : Dev nD) : W2 m ρ c (Proc.devRef .tc main_arg8) = m ((c : Thread nD τ).loc main_arg8) :=
  W2_keep m ρ c main_arg8 (by not_written') (by decide)
/-- The radial launch's two results, at its exit. -/
theorem W2_v11_0 (c : Dev nD) : W2 m ρ c (Proc.devRef .tc main_v11_0) = (dat0 (V1 m ρ) c).arrAt 2 cfg0.N := W2_arr m ρ c 2
theorem W2_v11_1 (c : Dev nD) : W2 m ρ c (Proc.devRef .tc main_v11_1) = (dat0 (V1 m ρ) c).arrAt 3 cfg0.N := W2_arr m ρ c 3

/-- The angular launch's component array. -/
theorem V3_v58 (c : Dev nD) : V3 m ρ c main_v58
    = r6K (m ((c : Thread nD τ).loc main_arg1)) (m ((c : Thread nD τ).loc main_arg5)) (m ((c : Thread nD τ).loc main_arg6)) := by
  show StableHlo.after hostOps1 (W2 m ρ c) (Proc.devRef .tc main_v58) = _
  after_results
  rw [W2_arg1, W2_arg5, W2_arg6]
  rfl

/-- The four columns of the angular launch's scalar array, each as the second stretch leaves it. -/
theorem W3_v59 (c : Dev nD) : W3 m ρ c (Proc.devRef .tc main_v59)
    = broadcastInDim S4000000x1 ![0] bcast_S4000000_S4000000x1_0
        (gVec (shapeCast S2000000 ((dat0 (V1 m ρ) c).arrAt 3 cfg0.N) shapeCasts_S2000000x1_S2000000) (m ((c : Thread nD τ).loc main_arg5))) := by
  show StableHlo.after hostOps1 (W2 m ρ c) (Proc.devRef .tc main_v59) = _
  after_results
  rw [W2_v11_1, W2_arg5]
  rfl
theorem W3_v60 (c : Dev nD) : W3 m ρ c (Proc.devRef .tc main_v60)
    = broadcastInDim S4000000x1 ![0] bcast_S4000000_S4000000x1_0
        (gVec (shapeCast S2000000 ((dat0 (V1 m ρ) c).arrAt 3 cfg0.N) shapeCasts_S2000000x1_S2000000) (m ((c : Thread nD τ).loc main_arg6))) := by
  show StableHlo.after hostOps1 (W2 m ρ c) (Proc.devRef .tc main_v60) = _
  after_results
  rw [W2_v11_1, W2_arg6]
  rfl
theorem W3_v61 (c : Dev nD) : W3 m ρ c (Proc.devRef .tc main_v61)
    = broadcastInDim S4000000x1 ![0] bcast_S4000000_S4000000x1_0
        (gVec (zjK (m ((c : Thread nD τ).loc main_arg0)) (m ((c : Thread nD τ).loc main_arg3))) (m ((c : Thread nD τ).loc main_arg5))) := by
  show StableHlo.after hostOps1 (W2 m ρ c) (Proc.devRef .tc main_v61) = _
  after_results
  rw [W2_v7, W2_arg5]
  rfl
theorem W3_v62 (c : Dev nD) : W3 m ρ c (Proc.devRef .tc main_v62)
    = broadcastInDim S4000000x1 ![0] bcast_S4000000_S4000000x1_0
        (gVec (zjK (m ((c : Thread nD τ).loc main_arg0)) (m ((c : Thread nD τ).loc main_arg3))) (m ((c : Thread nD τ).loc main_arg6))) := by
  show StableHlo.after hostOps1 (W2 m ρ c) (Proc.devRef .tc main_v62) = _
  after_results
  rw [W2_v7, W2_arg6]
  rfl

/-- The angular launch's scalar array: its four columns side by side — gathered from the radial launch's lengths
    (its second result, as a flat array) and from the neighbour charges. The last two operations of the stretch (the
    side-by-side layout itself and a reshape of the centres) leave the four columns' buffers alone, so each column is
    the buffer's contents just read. -/
theorem V3_v63 (c : Dev nD) : V3 m ρ c main_v63
    = s4K (shapeCast S2000000 ((dat0 (V1 m ρ) c).arrAt 3 cfg0.N) shapeCasts_S2000000x1_S2000000)
        (zjK (m ((c : Thread nD τ).loc main_arg0)) (m ((c : Thread nD τ).loc main_arg3)))
        (m ((c : Thread nD τ).loc main_arg5)) (m ((c : Thread nD τ).loc main_arg6)) := by
  have h59 := W3_v59 m ρ c
  have h60 := W3_v60 m ρ c
  have h61 := W3_v61 m ρ c
  have h62 := W3_v62 m ρ c
  show StableHlo.after hostOps1 (W2 m ρ c) (Proc.devRef .tc main_v63) = _
  simp only [W3, hostOps1, StableHlo.after_cons, StableHlo.after_nil] at h59 h60 h61 h62 ⊢
  rw [StableHlo.reshape_result_ne] at h59; rotate_left; decide
  rw [StableHlo.nary_result_ne] at h59; rotate_left; decide
  rw [StableHlo.reshape_result_ne] at h60; rotate_left; decide
  rw [StableHlo.nary_result_ne] at h60; rotate_left; decide
  rw [StableHlo.reshape_result_ne] at h61; rotate_left; decide
  rw [StableHlo.nary_result_ne] at h61; rotate_left; decide
  rw [StableHlo.reshape_result_ne] at h62; rotate_left; decide
  rw [StableHlo.nary_result_ne] at h62; rotate_left; decide
  rw [StableHlo.reshape_result_ne]; rotate_left; decide
  rw [StableHlo.nary4_result, h59, h60, h61, h62]
  rfl

/-- The angular launch's centres: the argument as one row. -/
theorem V3_v64 (c : Dev nD) : V3 m ρ c main_v64 = shapeCast S1x12 (m ((c : Thread nD τ).loc main_arg8)) shapeCasts_S12_S1x12 := by
  show StableHlo.after hostOps1 (W2 m ρ c) (Proc.devRef .tc main_v64) = _
  after_results
  rw [W2_arg8]
  rfl

/-- The radial values summed per atom, as the third stretch finds them. -/
theorem W3_v14 (c : Dev nD) : W3 m ρ c (Proc.devRef .tc main_v14)
    = Host.scatterAdd scatter_S50000x32_S2000000x1_S2000000x32_1_0_0_1
        (broadcastInDim S50000x32 ![] bcast_S_S50000x32 (constant (F := F) S_ .f32 0x00000000#32))
        (broadcastInDim S2000000x1 ![0] bcast_S2000000_S2000000x1_0 (m ((c : Thread nD τ).loc main_arg2)))
        ((dat0 (V1 m ρ) c).arrAt 2 cfg0.N) := by
  show StableHlo.after hostOps1 (W2 m ρ c) (Proc.devRef .tc main_v14) = _
  after_results
  rw [W2_v11_0, W2_arg2]

/-- A buffer that none of the first two stretches writes and that is an array of neither launch is, at the angular
    launch's exit, as launched. -/
theorem W4_keep (c : Dev nD) (b : Ref sig .tc)
    (h0 : ∀ op ∈ (hostOps0 : List (HloOp τ sig (Elt F))), (Proc.devRef .tc b : DevRef τ sig) ∉ op.writes)
    (h1 : ∀ op ∈ (hostOps1 : List (HloOp τ sig (Elt F))), (Proc.devRef .tc b : DevRef τ sig) ∉ op.writes)
    (hw0 : ∀ w, Pipeline.arrRef spec0 w ≠ b) (hw1 : ∀ w, Pipeline.arrRef spec1 w ≠ b) :
    W4 m ρ c (Proc.devRef .tc b) = m ((c : Thread nD τ).loc b) :=
  ((W4_of_ne m ρ c b hw1).trans (StableHlo.after_of_forall_not_mem _ _ h1)).trans (W2_keep m ρ c b h0 hw0)

theorem W4_arg4 (c : Dev nD) : W4 m ρ c (Proc.devRef .tc main_arg4) = m ((c : Thread nD τ).loc main_arg4) :=
  W4_keep m ρ c main_arg4 (by not_written') (by not_written') (by decide) (by decide)
theorem W4_arg9 (c : Dev nD) : W4 m ρ c (Proc.devRef .tc main_arg9) = m ((c : Thread nD τ).loc main_arg9) :=
  W4_keep m ρ c main_arg9 (by not_written') (by not_written') (by decide) (by decide)
theorem W4_arg10 (c : Dev nD) : W4 m ρ c (Proc.devRef .tc main_arg10) = m ((c : Thread nD τ).loc main_arg10) :=
  W4_keep m ρ c main_arg10 (by not_written') (by not_written') (by decide) (by decide)
theorem W4_v14 (c : Dev nD) : W4 m ρ c (Proc.devRef .tc main_v14) = W3 m ρ c (Proc.devRef .tc main_v14) :=
  W4_of_ne m ρ c main_v14 (by decide)
theorem W4_v65 (c : Dev nD) : W4 m ρ c (Proc.devRef .tc main_v65) = (dat1 (V3 m ρ) c).arrAt 3 cfg1.N := W4_arr m ρ c 3

/-- THE RESULT: the program's result buffer at the end, from what the two launches leave in their result arrays. -/
theorem W5_v73 (c : Dev nD) : W5 m ρ c (Proc.devRef .tc main_v73)
    = tailK ((dat0 (V1 m ρ) c).arrAt 2 cfg0.N) ((dat1 (V3 m ρ) c).arrAt 3 cfg1.N)
        (m ((c : Thread nD τ).loc main_arg2)) (m ((c : Thread nD τ).loc main_arg4))
        (m ((c : Thread nD τ).loc main_arg9)) (m ((c : Thread nD τ).loc main_arg10)) := by
  show StableHlo.after hostOps2 (W4 m ρ c) (Proc.devRef .tc main_v73) = _
  after_results
  rw [W4_v14, W3_v14, W4_v65, W4_arg4, W4_arg9, W4_arg10]
  rfl

end Cert.KernelIdeal.Hand

end
-- ==== Proof.Spec.lean ====
/-
  The mathematics both programs compute, stated once over the extended reals, element by element.

  For a pair vector `a ∈ ℝ³` its length is `d = √(a·a)`. The RADIAL entry of pair `p` at centre `μ_j` is
  `exp(-4 (d - μ_j)²) · (f(d) · z)`, with `z` the neighbour's charge and `f` the cosine cutoff
  `f(d) = ½ (cos(π d / 5) + 1)` for `d < 5`, `0` from `5` on. The ANGULAR entry of a triple with pair vectors
  `a, b` (lengths `da, db`, charges `za, zb`) is `2⁻⁷ za zb f(da) f(db) · (1 ± cos θ)⁸ · exp(-8 (½(da + db) - μ)²)`
  with `cos θ = a·b / (da db)`; the sign is `+` in columns 0–11 and `-` in columns 12–23, the centre `μ` that of the
  column modulo 12. Products are grouped as the kernel groups them (`((c·x)·x)` for `c x²`; the eighth power by three
  squarings): on the extended reals the grouping of a product does not matter, and an eighth power by squaring is
  the real power exactly where the base is not `-∞`.
-/
import Idealize.ShloMosaic.PureOps.Ideal
import Idealize.ShloMosaic.Lib.ValueIdx

noncomputable section

open scoped BigOperators

namespace Cert.Spec

open Idealize.ShloMosaic Idealize.ShloMosaic.ValueIdx

/-- A single-precision word read as the extended real it denotes. -/
abbrev lit (w : BitVec 32) : EReal := Ideal.ofBits .f32 w

/-! ## Scalars -/

/-- The cosine cutoff `f(d)`: `½ (cos(π d / 5) + 1)` below the radius `5`, zero from it on. -/
def fcut (d : EReal) : EReal :=
  Scalar.select (Ideal.cmp .olt d (lit 0x40A00000#32))
    (lit 0x3F000000#32 * (Ideal.cos (Ideal.div (lit 0x40490FDB#32 * d) (lit 0x40A00000#32)) + lit 0x3F800000#32))
    (lit 0x00000000#32)

/-- `a · b` for two vectors of three components. -/
def dot3 (a b : Fin 3 → EReal) : EReal := ∑ k : Fin 3, a k * b k

/-- The length `√(a · a)`. -/
def len3 (a : Fin 3 → EReal) : EReal := Ideal.sqrt (dot3 a a)

/-- The radial entry: `exp(-4 (d - μ)²) · (f(d) · z)`, the square grouped `((-4)·x)·x`. -/
def radE (d z mu : EReal) : EReal :=
  Ideal.exp ((lit 0xC0800000#32 * (d - mu)) * (d - mu)) * (fcut d * z)

/-- `cos θ = a·b / (da db)`. -/
def cosT (a b : Fin 3 → EReal) (da db : EReal) : EReal := Ideal.div (dot3 a b) (da * db)

/-- The eighth power by three squarings. -/
def sq8 (x : EReal) : EReal := ((x * x) * (x * x)) * ((x * x) * (x * x))

/-- The prefactor `2⁻⁷ za zb f(da) f(db)`, grouped from the left. -/
def pref (za zb da db : EReal) : EReal :=
  (((lit 0x3C000000#32 * za) * zb) * fcut da) * fcut db

/-- The radial part of an angular entry: `exp(-8 (½(da + db) - μ)²)`, the square grouped `((-8)·x)·x`. -/
def radA (da db mu : EReal) : EReal :=
  Ideal.exp ((lit 0xC1000000#32 * (lit 0x3F000000#32 * (da + db) - mu)) * (lit 0x3F000000#32 * (da + db) - mu))

/-- The angular entry with `1 + cos θ`. -/
def angPos (a b : Fin 3 → EReal) (da db za zb mu : EReal) : EReal :=
  (pref za zb da db * sq8 (lit 0x3F800000#32 + cosT a b da db)) * radA da db mu

/-- The angular entry with `1 - cos θ`. -/
def angNeg (a b : Fin 3 → EReal) (da db za zb mu : EReal) : EReal :=
  (pref za zb da db * sq8 (lit 0x3F800000#32 - cosT a b da db)) * radA da db mu

/-! ## Accessors: rows and columns of a two-dimensional array -/

variable {α : Type}

/-- The first coordinate of a rank-2 index, at its extent. -/
abbrev c0 {n m : Nat} (i : (⟨2, ![n, m]⟩ : Shape).Idx) : Fin n := ⟨(i 0).val, idx2_lt0 i⟩
/-- The second coordinate of a rank-2 index, at its extent. -/
abbrev c1 {n m : Nat} (i : (⟨2, ![n, m]⟩ : Shape).Idx) : Fin m := ⟨(i 1).val, idx2_lt1 i⟩
/-- The coordinate of a rank-1 index, at its extent. -/
abbrev c {n : Nat} (i : (⟨1, ![n]⟩ : Shape).Idx) : Fin n := ⟨(i 0).val, (i 0).isLt⟩

/-- Column `k` of `x`, as a one-dimensional array. -/
def col {n m : Nat} (k : Fin m) (x : (⟨2, ![n, m]⟩ : Shape).Idx → α) : (⟨1, ![n]⟩ : Shape).Idx → α :=
  fun i => x (ix2 (c i) k)

/-- Columns `off, …, off + w - 1` of `x`. -/
def cols {n m : Nat} (off w : Nat) (h : off + w ≤ m) (x : (⟨2, ![n, m]⟩ : Shape).Idx → α) :
    (⟨2, ![n, w]⟩ : Shape).Idx → α :=
  fun i => x (ix2 (c0 i) ⟨off + (c1 i).val, by have := (c1 i).isLt; omega⟩)

/-- The one row of a `1 × n` array, as a one-dimensional array. -/
def row {n : Nat} (x : (⟨2, ![1, n]⟩ : Shape).Idx → α) : (⟨1, ![n]⟩ : Shape).Idx → α :=
  fun i => x (ix2 0 (c i))

/-- A one-dimensional array as the one column of an `n × 1` array. -/
def asCol {n : Nat} (x : (⟨1, ![n]⟩ : Shape).Idx → α) : (⟨2, ![n, 1]⟩ : Shape).Idx → α :=
  fun i => x (ix1 (c0 i))

/-! ## The arrays -/

/-- Row `p` of a `· × 3` array as a vector of three components. -/
abbrev vec3 {n : Nat} (r : (⟨2, ![n, 3]⟩ : Shape).Idx → EReal) (p : Fin n) : Fin 3 → EReal := fun k => r (ix2 p k)

/-- The pair lengths: entry `p` is the length of row `p`. -/
def dAt {n : Nat} (r : (⟨2, ![n, 3]⟩ : Shape).Idx → EReal) (p : Fin n) : EReal := len3 (vec3 r p)
def dArr {n : Nat} (r : (⟨2, ![n, 3]⟩ : Shape).Idx → EReal) : (⟨1, ![n]⟩ : Shape).Idx → EReal := fun i => dAt r (c i)

/-- The radial array: entry `(p, j)` from row `p`'s length, the neighbour charge `z p` and the centre `μ j`. -/
def radAt {n J : Nat} (r : (⟨2, ![n, 3]⟩ : Shape).Idx → EReal) (z : (⟨1, ![n]⟩ : Shape).Idx → EReal)
    (mu : (⟨1, ![J]⟩ : Shape).Idx → EReal) (p : Fin n) (j : Fin J) : EReal :=
  radE (dAt r p) (z (ix1 p)) (mu (ix1 j))
def radArr {n J : Nat} (r : (⟨2, ![n, 3]⟩ : Shape).Idx → EReal) (z : (⟨1, ![n]⟩ : Shape).Idx → EReal)
    (mu : (⟨1, ![J]⟩ : Shape).Idx → EReal) : (⟨2, ![n, J]⟩ : Shape).Idx → EReal :=
  fun i => radAt r z mu (c0 i) (c1 i)

/-- The angular array over twelve centres: entry `(t, q)` is the `1 + cos θ` entry at centre `q` for `q < 12` and the
    `1 - cos θ` entry at centre `q - 12` for `12 ≤ q`, from the triple's two pair vectors (rows `t` of `ra`, `rb`), their
    lengths `da t`, `db t` and the two neighbour charges `za t`, `zb t`. -/
def angAt {n : Nat} (ra rb : (⟨2, ![n, 3]⟩ : Shape).Idx → EReal) (da db za zb : (⟨1, ![n]⟩ : Shape).Idx → EReal)
    (mu : (⟨1, ![12]⟩ : Shape).Idx → EReal) (t : Fin n) (q : Fin 24) : EReal :=
  if q.val < 12 then
    angPos (vec3 ra t) (vec3 rb t) (da (ix1 t)) (db (ix1 t)) (za (ix1 t)) (zb (ix1 t)) (mu (ix1 ⟨q.val % 12, Nat.mod_lt _ (by norm_num)⟩))
  else
    angNeg (vec3 ra t) (vec3 rb t) (da (ix1 t)) (db (ix1 t)) (za (ix1 t)) (zb (ix1 t)) (mu (ix1 ⟨q.val % 12, Nat.mod_lt _ (by norm_num)⟩))
def angArr {n : Nat} (ra rb : (⟨2, ![n, 3]⟩ : Shape).Idx → EReal) (da db za zb : (⟨1, ![n]⟩ : Shape).Idx → EReal)
    (mu : (⟨1, ![12]⟩ : Shape).Idx → EReal) : (⟨2, ![n, 24]⟩ : Shape).Idx → EReal :=
  fun i => angAt ra rb da db za zb mu (c0 i) (c1 i)

theorem dArr_ix1 {n : Nat} (r : (⟨2, ![n, 3]⟩ : Shape).Idx → EReal) (p : Fin n) : dArr r (ix1 p) = dAt r p := rfl
theorem radArr_ix2 {n J : Nat} (r : (⟨2, ![n, 3]⟩ : Shape).Idx → EReal) (z : (⟨1, ![n]⟩ : Shape).Idx → EReal)
    (mu : (⟨1, ![J]⟩ : Shape).Idx → EReal) (p : Fin n) (j : Fin J) : radArr r z mu (ix2 p j) = radAt r z mu p j := rfl
theorem angArr_ix2 {n : Nat} (ra rb : (⟨2, ![n, 3]⟩ : Shape).Idx → EReal) (da db za zb : (⟨1, ![n]⟩ : Shape).Idx → EReal)
    (mu : (⟨1, ![12]⟩ : Shape).Idx → EReal) (t : Fin n) (q : Fin 24) : angArr ra rb da db za zb mu (ix2 t q) = angAt ra rb da db za zb mu t q := rfl

end Cert.Spec

end
-- ==== Proof.KI.Final0.lean ====
/-
  What the radial launch leaves in its two output arrays, over the extended reals. Point `t` of the 400 works on rows
  `5000 t … 5000 t + 4999`. At row `p` it stores the length `d = √(Σ_k a_k²)` of the pair vector `a` (the row's first three
  entries; the sum over the three lanes starts from the zero word, which is the sum's neutral element) and, at centre
  `μ_j`, the value `exp(((-4)(d - μ_j))(d - μ_j)) · (f(d) · z)` with `z` the row's fourth entry and `f` the cosine cutoff —
  the specification's length and radial entry of that row, grouped as they are there, so that once the index has been
  pushed through the stored value no algebra is left. Every row lies in the block of point `row / 5000`, and what a point
  writes back is its block of one function of the arrays the launch finds; so after the last point the radial array is the
  specification's radial array of the pair array's columns 0–2, its column 3 and the row of centres, and the length array
  is the specification's array of lengths as one column.
-/
import proofs.«133981_j1932735284042_1_alg».proof.Proof.KI.Region0
import proofs.«133981_j1932735284042_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open scoped BigOperators

/-! ## Two layout operations of a column, read at an index -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Column

/-! ## The body's two stored values at an index -/

/-- The block's cast to its own shape is the block. -/
theorem pay1_eq (x0 : Vec Ideal S5000x4 .f32) : k0_pay1 x0 = x0 := by
  unfold k0_pay1; exact shapeCast_self _ _

/-- The sum over a row's three lanes: the sum of the row's three entries. -/
theorem laneSum_at (src : FVec Ideal S5000x3 .f32) (hφ : FKind.Formats .f32)
    (hacc : (0x00000000#32 : BitVec 32) = 0x00000000#32) (p : Fin 5000) :
    multiReduction (F := Ideal) .add [1] S5000 src 0x00000000#32 reduces_S5000x3_S5000 hφ hacc (ix1 p) = ∑ k : Fin 3, src (ix2 p k) :=
  (Ideal.multiReduction_add_single src 0x00000000#32 reduces_S5000x3_S5000 hφ hacc (ix1 p)).trans
    (Finset.sum_congr rfl fun k _ => congrArg src (funext fun a => Fin.ext (by match a with | ⟨0, _⟩ => rfl | ⟨1, _⟩ => rfl)))

/-- The stored length at row `p`: the length of the row's first three components. -/
theorem pay2_at (x0 : Vec Ideal S5000x4 .f32) (p : Fin 5000) (u : Fin 1) :
    k0_pay2 x0 (ix2 p u) = Spec.dAt (Spec.cols 0 3 (by norm_num) (x0 : S5000x4.Idx → EReal)) p := by
  unfold k0_pay2
  rw [pay1_eq]
  show Ideal.sqrt (shapeCast S5000x1 _ shapeCasts_S5000_S5000x1 (ix2 p u)) = _
  rw [shapeCast_a_a1_apply]
  refine (congrArg Ideal.sqrt (laneSum_at _ _ _ p)).trans ?_
  simp only [mulf_apply, slice2_axis1_eq]
  rfl

/-- The exponential and the cosine of a vector, at an index. -/
theorem exp_at {s : Shape} {φ : FTy} (a : FVec Ideal s φ) (i : s.Idx) : Idealize.ShloMosaic.exp a i = Ideal.exp (a i) := rfl
theorem cos_at {s : Shape} {φ : FTy} (a : FVec Ideal s φ) (i : s.Idx) : Idealize.ShloMosaic.cos a i = Ideal.cos (a i) := rfl

/-- The stored radial value at row `p` and centre `j`: the radial entry of the row's length, its fourth component
    (the neighbour's charge) and the centre. -/
theorem pay3_at (x0 : Vec Ideal S5000x4 .f32) (x1 : Vec Ideal S1x32 .f32) (p : Fin 5000) (j : Fin 32) :
    k0_pay3 x0 x1 (ix2 p j)
      = Spec.radAt (Spec.cols 0 3 (by norm_num) (x0 : S5000x4.Idx → EReal)) (Spec.col 3 (x0 : S5000x4.Idx → EReal))
          (Spec.row (x1 : S1x32.Idx → EReal)) p j := by
  unfold k0_pay3
  simp only [pay1_eq, shapeCast_self, mulf_apply, subf_apply, addf_apply, divf_apply, select_apply, cmpf_apply, broadcast_apply,
    exp_at, cos_at, broadcastTo_a1_ab_apply, broadcastTo_1b_ab_apply, pay2_at, slice2_axis1_eq]
  rfl

/-! ## From blocks to the arrays -/

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the grid: at point `t` the pair block, the radial block and the length block
    are block `t` along the rows, and the one block of centres is block `0`; no window moves along the columns. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of point `t`'s pair block is entry `(5000 t + p, k)` of the pair array. -/
theorem pairBlock_at (c : Dev nD) (t : Fin cfg0.N) (p : Fin 5000) (k : Fin 4) (P : Fin 2000000) (hP : P.val = t.val * 5000 + p.val) :
    iblk0 V c 0 t (ix2 p k) = (V c main_v9 : S2000000x4.Idx → EReal) (ix2 P k) := by
  show V c main_v9 (((cfg0.win 0).blk t).view.emb (ix2 p k)) = V c main_v9 (ix2 P k)
  obtain ⟨e0, e1, -⟩ := blockIndex0 t
  refine congrArg (V c main_v9) (funext fun a => Fin.ext ?_)
  match a with
  | ⟨0, _⟩ => show win0_0.index t (0 : Fin 2) * 5000 + 1 * p.val = P.val; omega
  | ⟨1, _⟩ => show win0_0.index t (1 : Fin 2) * 4 + 1 * k.val = k.val; omega

/-- Entry `(u, j)` of the block of centres is entry `(0, j)` of the centres' array, at every point. -/
theorem centreBlock_at (c : Dev nD) (t : Fin cfg0.N) (u : Fin 1) (j : Fin 32) :
    iblk0 V c 1 t (ix2 u j) = (V c main_v10 : S1x32.Idx → EReal) (ix2 0 j) := by
  show V c main_v10 (((cfg0.win 1).blk t).view.emb (ix2 u j)) = V c main_v10 (ix2 0 j)
  obtain ⟨-, -, e0, e1, -⟩ := blockIndex0 t
  refine congrArg (V c main_v10) (funext fun a => Fin.ext ?_)
  match a with
  | ⟨0, _⟩ => show win0_1.index t (0 : Fin 2) * 1 + 1 * u.val = 0; omega
  | ⟨1, _⟩ => show win0_1.index t (1 : Fin 2) * 32 + 1 * j.val = j.val; omega

/-! ## The specification's entries depend on a row's four entries and a centre only -/

/-- Rows with the same four entries have the same length. -/
theorem dAt_of_row {n m : Nat} (x : (⟨2, ![n, 4]⟩ : Shape).Idx → EReal) (X : (⟨2, ![m, 4]⟩ : Shape).Idx → EReal)
    (p : Fin n) (P : Fin m) (h : ∀ k : Fin 4, x (ix2 p k) = X (ix2 P k)) :
    Spec.dAt (Spec.cols 0 3 (by norm_num) x) p = Spec.dAt (Spec.cols 0 3 (by norm_num) X) P := by
  show Ideal.sqrt (∑ k : Fin 3, x (ix2 p ⟨0 + k.val, by omega⟩) * x (ix2 p ⟨0 + k.val, by omega⟩))
    = Ideal.sqrt (∑ k : Fin 3, X (ix2 P ⟨0 + k.val, by omega⟩) * X (ix2 P ⟨0 + k.val, by omega⟩))
  simp only [h]

/-- Rows with the same four entries have, at equal centres, the same radial entry. -/
theorem radAt_of_row {n m : Nat} (x : (⟨2, ![n, 4]⟩ : Shape).Idx → EReal) (X : (⟨2, ![m, 4]⟩ : Shape).Idx → EReal)
    (mu mu' : (⟨2, ![1, 32]⟩ : Shape).Idx → EReal) (p : Fin n) (P : Fin m) (j J : Fin 32)
    (h : ∀ k : Fin 4, x (ix2 p k) = X (ix2 P k)) (hmu : mu (ix2 0 j) = mu' (ix2 0 J)) :
    Spec.radAt (Spec.cols 0 3 (by norm_num) x) (Spec.col 3 x) (Spec.row mu) p j
      = Spec.radAt (Spec.cols 0 3 (by norm_num) X) (Spec.col 3 X) (Spec.row mu') P J := by
  show Spec.radE (Spec.dAt (Spec.cols 0 3 (by norm_num) x) p) (x (ix2 p 3)) (mu (ix2 0 j))
    = Spec.radE (Spec.dAt (Spec.cols 0 3 (by norm_num) X) P) (X (ix2 P 3)) (mu' (ix2 0 J))
  rw [dAt_of_row x X p P h, h 3, hmu]

/-! ## What each point writes back -/

/-- Point `t` writes back block `t` of the array of pair lengths. -/
theorem flushed0_3_eq (c : Dev nD) (t : Fin cfg0.N) :
    (dat0 (F := Ideal) V c).flushed 3 t
      = ((cfg0.win 3).blk t).view.read (Elt Ideal)
          (Spec.asCol (Spec.dArr (Spec.cols 0 3 (by norm_num) (V c main_v9 : S2000000x4.Idx → EReal)))) := by
  show (cfg0.win 3).cut (grid0.coords t) ((dat0 (F := Ideal) V c).after 3 t) = _
  rw [after0_3]
  unfold out0_3
  rw [View.canon_unit_zero zeros2]
  simp only [View.ld_unit_zero (S := S5000x4) zeros2]
  funext y
  obtain ⟨p, u, rfl⟩ : ∃ (p : Fin 5000) (u : Fin 1), y = ix2 p u := ⟨y 0, y 1, eq_ix2 y⟩
  obtain ⟨-, -, -, -, -, -, e0, e1⟩ := blockIndex0 t
  show k0_pay2 (iblk0 V c 0 t) (ix2 p u)
    = Spec.dAt (Spec.cols 0 3 (by norm_num) (V c main_v9 : S2000000x4.Idx → EReal))
        (Spec.c0 (((cfg0.win 3).blk t).view.emb (ix2 p u) : S2000000x1.Idx))
  refine (pay2_at _ p u).trans ?_
  exact dAt_of_row _ _ p _ fun k => pairBlock_at V c t p k _
    (by show win0_3.index t (0 : Fin 2) * 5000 + 1 * p.val = t.val * 5000 + p.val; omega)

/-- Point `t` writes back block `t` of the radial array. -/
theorem flushed0_2_eq (c : Dev nD) (t : Fin cfg0.N) :
    (dat0 (F := Ideal) V c).flushed 2 t
      = ((cfg0.win 2).blk t).view.read (Elt Ideal)
          (Spec.radArr (Spec.cols 0 3 (by norm_num) (V c main_v9 : S2000000x4.Idx → EReal))
            (Spec.col 3 (V c main_v9 : S2000000x4.Idx → EReal)) (Spec.row (V c main_v10 : S1x32.Idx → EReal))) := by
  show (cfg0.win 2).cut (grid0.coords t) ((dat0 (F := Ideal) V c).after 2 t) = _
  rw [after0_2]
  unfold out0_2
  rw [View.canon_unit_zero zeros2]
  simp only [View.ld_unit_zero (S := S5000x4) zeros2, View.ld_unit_zero (S := S1x32) zeros2]
  funext y
  obtain ⟨p, j, rfl⟩ : ∃ (p : Fin 5000) (j : Fin 32), y = ix2 p j := ⟨y 0, y 1, eq_ix2 y⟩
  obtain ⟨-, -, -, -, e0, e1, -⟩ := blockIndex0 t
  show k0_pay3 (iblk0 V c 0 t) (iblk0 V c 1 t) (ix2 p j)
    = Spec.radAt (Spec.cols 0 3 (by norm_num) (V c main_v9 : S2000000x4.Idx → EReal))
        (Spec.col 3 (V c main_v9 : S2000000x4.Idx → EReal)) (Spec.row (V c main_v10 : S1x32.Idx → EReal))
        (Spec.c0 (((cfg0.win 2).blk t).view.emb (ix2 p j) : S2000000x32.Idx))
        (Spec.c1 (((cfg0.win 2).blk t).view.emb (ix2 p j) : S2000000x32.Idx))
  refine (pay3_at _ _ p j).trans ?_
  refine radAt_of_row _ _ _ _ p _ j _ (fun k => pairBlock_at V c t p k _
    (by show win0_2.index t (0 : Fin 2) * 5000 + 1 * p.val = t.val * 5000 + p.val; omega)) ?_
  refine (centreBlock_at V c t 0 j).trans (congrArg (V c main_v10) (funext fun a => Fin.ext ?_))
  match a with
  | ⟨0, _⟩ => rfl
  | ⟨1, _⟩ => show j.val = win0_2.index t (1 : Fin 2) * 32 + 1 * j.val; omega

/-! ## Every row is in some point's block -/

/-- An index of the length array is in point `t`'s block iff each coordinate is in the block's range on its axis. -/
theorem mem_blk0_3 (t : Fin cfg0.N) (i : S2000000x1.Idx) :
    i ∈ ((cfg0.win 3).blk t).view.set ↔ ∀ a : Fin 2, win0_3.index t a * S5000x1.size a ≤ (i a).val
      ∧ (i a).val < win0_3.index t a * S5000x1.size a + S5000x1.size a := by
  show i ∈ ((View.whole main_v11_1).slice (win0_3.rect t)).set ↔ _
  rw [View.set_slice_whole, Rect.mem_set_unit]
  exact Iff.rfl

/-- An index of the radial array is in point `t`'s block iff each coordinate is in the block's range on its axis. -/
theorem mem_blk0_2 (t : Fin cfg0.N) (i : S2000000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v11_0).slice (win0_2.rect t)).set ↔ _
  rw [View.set_slice_whole, Rect.mem_set_unit]
  exact Iff.rfl

/-- Row `r` of the length array is in the block of point `r / 5000`. -/
theorem rows_covered0_3 (i : S2000000x1.Idx) :
    ∃ t : Fin cfg0.N, (cfg0.win 3).flush t = true ∧ i ∈ ((cfg0.win 3).blk t).view.set := by
  have hi0 : (i 0).val < 2000000 := (i 0).isLt
  have hi1 : (i 1).val < 1 := (i 1).isLt
  have hN : cfg0.N = 400 := N_0
  have ht : (i 0).val / 5000 < cfg0.N := by rw [hN]; omega
  obtain ⟨-, -, -, -, -, -, e0, e1⟩ := blockIndex0 ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 1 ≤ (i 1).val
      ∧ (i 1).val < win0_3.index ⟨(i 0).val / 5000, ht⟩ (1 : Fin 2) * 1 + 1
    omega

/-- Row `r` of the radial array is in the block of point `r / 5000`. -/
theorem rows_covered0_2 (i : S2000000x32.Idx) :
    ∃ t : Fin cfg0.N, (cfg0.win 2).flush t = true ∧ i ∈ ((cfg0.win 2).blk t).view.set := by
  have hi0 : (i 0).val < 2000000 := (i 0).isLt
  have hi1 : (i 1).val < 32 := (i 1).isLt
  have hN : cfg0.N = 400 := N_0
  have ht : (i 0).val / 5000 < cfg0.N := by rw [hN]; omega
  obtain ⟨-, -, -, -, e0, e1, -⟩ := blockIndex0 ⟨(i 0).val / 5000, ht⟩
  have e0' : win0_2.index ⟨(i 0).val / 5000, ht⟩ (0 : Fin 2) = (i 0).val / 5000 := e0
  refine ⟨⟨(i 0).val / 5000, ht⟩, flush0_2 _, ?_⟩
  rw [mem_blk0_2]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 32 ≤ (i 1).val
      ∧ (i 1).val < win0_2.index ⟨(i 0).val / 5000, ht⟩ (1 : Fin 2) * 32 + 32
    omega

/-! ## The two arrays after the launch -/

/-- After all 400 points the radial array holds the radial entry of every pair at every centre. -/
theorem final0_2 (c : Dev nD) :
    (dat0 (F := Ideal) V c).arrAt 2 cfg0.N
      = Spec.radArr (Spec.cols 0 3 (by norm_num) (V c main_v9)) (Spec.col 3 (V c main_v9)) (Spec.row (V c main_v10)) :=
  (dat0 (F := Ideal) V c).arrAt_eq_of_cover 2 _ (fun t _ => flushed0_2_eq V c t) rows_covered0_2

/-- After all 400 points the length array holds every pair's length, as one column. -/
theorem final0_3 (c : Dev nD) :
    (dat0 (F := Ideal) V c).arrAt 3 cfg0.N = Spec.asCol (Spec.dArr (Spec.cols 0 3 (by norm_num) (V c main_v9))) :=
  (dat0 (F := Ideal) V c).arrAt_eq_of_cover 3 _ (fun t _ => flushed0_3_eq V c t) rows_covered0_3

end Cert.KernelIdeal.Hand

end
-- ==== Proof.KI.Final1.lean ====
/-
  What the angular launch leaves in its output array, over the extended reals. First the two values the body stores,
  read at one element: at row p and centre j of a 5000 × 12 half they are the angular entries with 1 + cos θ and with
  1 - cos θ of the triple in row p. Then one grid point's output block is the angular array of the point's three input
  blocks; each input block is rows 5000 t … 5000 t + 4999 of its array (the centres' block their whole row), an angular
  entry reads one row only, and the 800 blocks of 5000 rows fill the 4,000,000 rows: so the array ends holding the angular
  array of the arrays the launch found.
-/
import proofs.«133981_j1932735284042_1_alg».proof.Proof.KI.Region1
import proofs.«133981_j1932735284042_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

namespace Ang1

/-! ## Two layout forms at an index: a column kept by a sum, and a column spread over the columns -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loaded blocks' columns -/

section Columns
variable (v4 : Vec Ideal S5000x4 .f32) (p : Fin 5000)

theorem pay6_at : k1_pay6 v4 (ix2 p (0 : Fin 1)) = v4 (ix2 p (0 : Fin 4)) := by
  unfold k1_pay6 k1_pay5
  rw [shapeCast_self]
  exact slice2_axis1_apply 0 v4 _ p 0 0 rfl

theorem pay7_at : k1_pay7 v4 (ix2 p (0 : Fin 1)) = v4 (ix2 p (1 : Fin 4)) := by
  unfold k1_pay7 k1_pay5
  rw [shapeCast_self]
  exact slice2_axis1_apply 1 v4 _ p 0 1 rfl

theorem pay8_at : k1_pay8 v4 (ix2 p (0 : Fin 1)) = v4 (ix2 p (2 : Fin 4)) := by
  unfold k1_pay8 k1_pay5
  rw [shapeCast_self]
  exact slice2_axis1_apply 2 v4 _ p 0 2 rfl

theorem pay9_at : k1_pay9 v4 (ix2 p (0 : Fin 1)) = v4 (ix2 p (3 : Fin 4)) := by
  unfold k1_pay9 k1_pay5
  rw [shapeCast_self]
  exact slice2_axis1_apply 3 v4 _ p 0 3 rfl

end Columns

theorem pay10_eq (v10 : Vec Ideal S1x12 .f32) : k1_pay10 v10 = v10 := by
  unfold k1_pay10
  exact shapeCast_self _ _

/-! ## The cutoff of each length, and the cosine of the angle -/

section Scalars
variable (v0 : Vec Ideal S5000x6 .f32) (v4 : Vec Ideal S5000x4 .f32) (p : Fin 5000)

/-- The first length's cutoff. -/
theorem pay12_at : k1_pay12 v4 (ix2 p (0 : Fin 1)) = Spec.fcut (v4 (ix2 p (0 : Fin 4))) := by
  rw [← pay6_at v4 p]
  rfl

/-- The second length is below the radius. -/
theorem pay13_at : k1_pay13 v4 (ix2 p (0 : Fin 1)) = Ideal.cmp .olt (v4 (ix2 p (1 : Fin 4))) (Spec.lit 0x40A00000#32) := by
  rw [← pay7_at v4 p]
  rfl

/-- The second length's cutoff below the radius. -/
theorem pay14_at : k1_pay14 v4 (ix2 p (0 : Fin 1))
    = Spec.lit 0x3F000000#32 * (Ideal.cos (Ideal.div (Spec.lit 0x40490FDB#32 * v4 (ix2 p (1 : Fin 4))) (Spec.lit 0x40A00000#32))
        + Spec.lit 0x3F800000#32) := by
  rw [← pay7_at v4 p]
  rfl

/-- The inserted coordinate of the lane sum: row p with component k. -/
theorem lift_row (k : Fin 3) : reduces_S5000x3_S5000.lift (ix1 p) k = ix2 p k := by
  funext a
  match a with
  | ⟨0, _⟩ => rfl
  | ⟨1, _⟩ => rfl

/-- The cosine of the angle: the two pair vectors' product summed over the three components, over the product of the lengths. -/
theorem pay11_at : k1_pay11 v0 v4 (ix2 p (0 : Fin 1))
    = Spec.cosT (fun k : Fin 3 => v0 (ix2 p ⟨0 + k.val, by omega⟩)) (fun k : Fin 3 => v0 (ix2 p ⟨3 + k.val, by omega⟩))
        (v4 (ix2 p (0 : Fin 4))) (v4 (ix2 p (1 : Fin 4))) := by
  unfold k1_pay11 Spec.cosT
  show Ideal.div (shapeCast S5000x1 _ shapeCasts_S5000_S5000x1 (ix2 p (0 : Fin 1)))
    (k1_pay6 v4 (ix2 p (0 : Fin 1)) * k1_pay7 v4 (ix2 p (0 : Fin 1))) = _
  rw [pay6_at, pay7_at, shapeCast_a_a1_apply]
  congr 1
  refine (Ideal.multiReduction_add_single _ _ reduces_S5000x3_S5000 _ _ (ix1 p)).trans ?_
  unfold Spec.dot3
  show ∑ k : Fin 3, _ = _
  refine Finset.sum_congr rfl fun k _ => ?_
  rw [lift_row, mulf_apply, shapeCast_self, slice2_axis1_eq, slice2_axis1_eq]

end Scalars

/-! ## The prefactor, the radial part and the two stored values -/

theorem pay1_at (v8 v9 v29 : FVec Ideal S5000x1 .f32) (v31 : IVec S5000x1 1) (v40 : FVec Ideal S5000x1 .f32) (i : S5000x1.Idx) :
    k1_pay1 v8 v9 v29 v31 v40 i
      = (((Spec.lit 0x3C000000#32 * v8 i) * v9 i) * v29 i) * Scalar.select (v31 i) (v40 i) (Spec.lit 0x00000000#32) := rfl

theorem pay2_at (v6 v7 : FVec Ideal S5000x1 .f32) (v11 : FVec Ideal S1x12 .f32) (p : Fin 5000) (j : Fin 12) :
    k1_pay2 v6 v7 v11 (ix2 p j) = Spec.radA (v6 (ix2 p (0 : Fin 1))) (v7 (ix2 p (0 : Fin 1))) (v11 (ix2 (0 : Fin 1) j)) := by
  unfold k1_pay2 Spec.radA
  show Ideal.exp ((Spec.lit 0xC1000000#32 * (broadcastTo S5000x12 _ broadcasts_S5000x1_S5000x12 (ix2 p j)
      - broadcastTo S5000x12 v11 broadcasts_S1x12_S5000x12 (ix2 p j)))
    * (broadcastTo S5000x12 _ broadcasts_S5000x1_S5000x12 (ix2 p j) - broadcastTo S5000x12 v11 broadcasts_S1x12_S5000x12 (ix2 p j))) = _
  rw [broadcastTo_a1_ab_apply, broadcastTo_1b_ab_apply]
  rfl

theorem pay3_split (v6 v7 v8 v9 : FVec Ideal S5000x1 .f32) (v11 : FVec Ideal S1x12 .f32) (v16 v29 : FVec Ideal S5000x1 .f32)
    (v31 : IVec S5000x1 1) (v40 : FVec Ideal S5000x1 .f32) (p : Fin 5000) (j : Fin 12) :
    k1_pay3 v6 v7 v8 v9 v11 v16 v29 v31 v40 (ix2 p j)
      = (k1_pay1 v8 v9 v29 v31 v40 (ix2 p (0 : Fin 1)) * Spec.sq8 (Spec.lit 0x3F800000#32 + v16 (ix2 p (0 : Fin 1))))
          * k1_pay2 v6 v7 v11 (ix2 p j) := by
  unfold k1_pay3
  show broadcastTo S5000x12 _ broadcasts_S5000x1_S5000x12 (ix2 p j) * k1_pay2 v6 v7 v11 (ix2 p j) = _
  rw [broadcastTo_a1_ab_apply]
  rfl

theorem pay4_split (v6 v7 v8 v9 : FVec Ideal S5000x1 .f32) (v11 : FVec Ideal S1x12 .f32) (v16 v29 : FVec Ideal S5000x1 .f32)
    (v31 : IVec S5000x1 1) (v40 : FVec Ideal S5000x1 .f32) (p : Fin 5000) (j : Fin 12) :
    k1_pay4 v6 v7 v8 v9 v11 v16 v29 v31 v40 (ix2 p j)
      = (k1_pay1 v8 v9 v29 v31 v40 (ix2 p (0 : Fin 1)) * Spec.sq8 (Spec.lit 0x3F800000#32 - v16 (ix2 p (0 : Fin 1))))
          * k1_pay2 v6 v7 v11 (ix2 p j) := by
  unfold k1_pay4
  show broadcastTo S5000x12 _ broadcasts_S5000x1_S5000x12 (ix2 p j) * k1_pay2 v6 v7 v11 (ix2 p j) = _
  rw [broadcastTo_a1_ab_apply]
  rfl

section Stored
variable (v0 : Vec Ideal S5000x6 .f32) (v4 : Vec Ideal S5000x4 .f32) (v10 : Vec Ideal S1x12 .f32) (p : Fin 5000) (j : Fin 12)

/-- The value stored in columns 0 to 11, at row p and centre j: the entry with 1 + cos θ. -/
theorem pay3_at :
    k1_pay3 (k1_pay6 v4) (k1_pay7 v4) (k1_pay8 v4) (k1_pay9 v4) (k1_pay10 v10) (k1_pay11 v0 v4) (k1_pay12 v4) (k1_pay13 v4)
        (k1_pay14 v4) (ix2 p j)
      = Spec.angPos (fun k : Fin 3 => v0 (ix2 p ⟨0 + k.val, by omega⟩)) (fun k : Fin 3 => v0 (ix2 p ⟨3 + k.val, by omega⟩))
          (v4 (ix2 p (0 : Fin 4))) (v4 (ix2 p (1 : Fin 4))) (v4 (ix2 p (2 : Fin 4))) (v4 (ix2 p (3 : Fin 4)))
          (v10 (ix2 (0 : Fin 1) j)) := by
  rw [pay3_split, pay1_at, pay2_at, pay6_at, pay7_at, pay8_at, pay9_at, pay10_eq, pay11_at, pay12_at, pay13_at, pay14_at]
  rfl

/-- The value stored in columns 12 to 23, at row p and centre j: the entry with 1 - cos θ. -/
theorem pay4_at :
    k1_pay4 (k1_pay6 v4) (k1_pay7 v4) (k1_pay8 v4) (k1_pay9 v4) (k1_pay10 v10) (k1_pay11 v0 v4) (k1_pay12 v4) (k1_pay13 v4)
        (k1_pay14 v4) (ix2 p j)
      = Spec.angNeg (fun k : Fin 3 => v0 (ix2 p ⟨0 + k.val, by omega⟩)) (fun k : Fin 3 => v0 (ix2 p ⟨3 + k.val, by omega⟩))
          (v4 (ix2 p (0 : Fin 4))) (v4 (ix2 p (1 : Fin 4))) (v4 (ix2 p (2 : Fin 4))) (v4 (ix2 p (3 : Fin 4)))
          (v10 (ix2 (0 : Fin 1) j)) := by
  rw [pay4_split, pay1_at, pay2_at, pay6_at, pay7_at, pay8_at, pay9_at, pay10_eq, pay11_at, pay12_at, pay13_at, pay14_at]
  rfl

end Stored

/-! ## One point's block of the output: the angular array of the point's input blocks -/

theorem hz1 : (![0, 0] : Fin 2 → Nat) = fun _ => 0 := funext fun a => by fin_cases a <;> rfl

/-- The angular array of a block of 5000 triples: its two pair vectors from the 5000 × 6 block, its lengths and charges
    from the 5000 × 4 block, the centres from the 1 × 12 row. -/
def blockAng (x0 : Vec Ideal S5000x6 .f32) (x1 : Vec Ideal S5000x4 .f32) (x2 : Vec Ideal S1x12 .f32) : Vec Ideal S5000x24 .f32 :=
  Spec.angArr (Spec.cols 0 3 (by norm_num) x0) (Spec.cols 3 3 (by norm_num) x0) (Spec.col 0 x1) (Spec.col 1 x1)
    (Spec.col 2 x1) (Spec.col 3 x1) (Spec.row x2)

theorem blockAng_lo (x0 : Vec Ideal S5000x6 .f32) (x1 : Vec Ideal S5000x4 .f32) (x2 : Vec Ideal S1x12 .f32) (p : Fin 5000) (j : Fin 12) :
    blockAng x0 x1 x2 (ix2 p ⟨0 + j.val, by omega⟩)
      = Spec.angPos (fun k : Fin 3 => x0 (ix2 p ⟨0 + k.val, by omega⟩)) (fun k : Fin 3 => x0 (ix2 p ⟨3 + k.val, by omega⟩))
          (x1 (ix2 p (0 : Fin 4))) (x1 (ix2 p (1 : Fin 4))) (x1 (ix2 p (2 : Fin 4))) (x1 (ix2 p (3 : Fin 4)))
          (x2 (ix2 (0 : Fin 1) j)) := by
  unfold blockAng
  rw [Spec.angArr_ix2]
  unfold Spec.angAt
  rw [if_pos (show 0 + j.val < 12 by omega)]
  have hj : (⟨(0 + j.val) % 12, Nat.mod_lt _ (by norm_num)⟩ : Fin 12) = j := Fin.ext (by show (0 + j.val) % 12 = j.val; omega)
  rw [hj]
  rfl

theorem blockAng_hi (x0 : Vec Ideal S5000x6 .f32) (x1 : Vec Ideal S5000x4 .f32) (x2 : Vec Ideal S1x12 .f32) (p : Fin 5000) (j : Fin 12) :
    blockAng x0 x1 x2 (ix2 p ⟨12 + j.val, by omega⟩)
      = Spec.angNeg (fun k : Fin 3 => x0 (ix2 p ⟨0 + k.val, by omega⟩)) (fun k : Fin 3 => x0 (ix2 p ⟨3 + k.val, by omega⟩))
          (x1 (ix2 p (0 : Fin 4))) (x1 (ix2 p (1 : Fin 4))) (x1 (ix2 p (2 : Fin 4))) (x1 (ix2 p (3 : Fin 4)))
          (x2 (ix2 (0 : Fin 1) j)) := by
  unfold blockAng
  rw [Spec.angArr_ix2]
  unfold Spec.angAt
  rw [if_neg (show ¬ 12 + j.val < 12 by omega)]
  have hj : (⟨(12 + j.val) % 12, Nat.mod_lt _ (by norm_num)⟩ : Fin 12) = j := Fin.ext (by show (12 + j.val) % 12 = j.val; omega)
  rw [hj]
  rfl

/-- The body's two stores, columns 12 to 23 and columns 0 to 11, leave the angular array of the loaded blocks. -/
theorem out1_3_eq (x0 : Vec Ideal S5000x6 .f32) (x1 : Vec Ideal S5000x4 .f32) (x2 : Vec Ideal S1x12 .f32) :
    out1_3 x0 x1 x2 = blockAng x0 x1 x2 := by
  unfold out1_3
  simp only [View.ld_unit_zero (S := S5000x6) hz1, View.ld_unit_zero (S := S5000x4) hz1, View.ld_unit_zero (S := S1x12) hz1]
  funext y
  refine View.canon_apply_of_pieces (blockAng x0 x1 x2) _ ?_ y ?_
  · intro pc hpc
    rcases List.mem_cons.mp hpc with rfl | hpc
    · intro x
      obtain ⟨p, j, rfl⟩ : ∃ (p : Fin 5000) (j : Fin 12), x = ix2 p j := ⟨x 0, x 1, eq_ix2 x⟩
      have he : rMinus1.emb (ix2 p j) = ix2 p (⟨12 + j.val, by omega⟩ : Fin 24) := by
        funext a; apply Fin.ext
        match a with
        | ⟨0, _⟩ => show 0 + 1 * p.val = p.val; omega
        | ⟨1, _⟩ => show 12 + 1 * j.val = 12 + j.val; omega
      show k1_pay4 (F := Ideal) _ _ _ _ _ _ _ _ _ (ix2 p j) = blockAng x0 x1 x2 (rMinus1.emb (ix2 p j))
      rw [he, blockAng_hi, pay4_at]
    rcases List.mem_cons.mp hpc with rfl | hpc
    · intro x
      obtain ⟨p, j, rfl⟩ : ∃ (p : Fin 5000) (j : Fin 12), x = ix2 p j := ⟨x 0, x 1, eq_ix2 x⟩
      have he : rPlus1.emb (ix2 p j) = ix2 p (⟨0 + j.val, by omega⟩ : Fin 24) := by
        funext a; apply Fin.ext
        match a with
        | ⟨0, _⟩ => show 0 + 1 * p.val = p.val; omega
        | ⟨1, _⟩ => show 0 + 1 * j.val = 0 + j.val; omega
      show k1_pay3 (F := Ideal) _ _ _ _ _ _ _ _ _ (ix2 p j) = blockAng x0 x1 x2 (rPlus1.emb (ix2 p j))
      rw [he, blockAng_lo, pay3_at]
    · exact absurd hpc List.not_mem_nil
  · exact cover1_3 _ _ y

/-! ## Each input block as rows of its array -/

/-- Two angular entries are equal when the rows, lengths and charges they read are, at the same centres and column. -/
theorem angAt_congr {n n' : Nat} {ra rb : (⟨2, ![n, 3]⟩ : Shape).Idx → EReal} {da db za zb : (⟨1, ![n]⟩ : Shape).Idx → EReal}
    {ra' rb' : (⟨2, ![n', 3]⟩ : Shape).Idx → EReal} {da' db' za' zb' : (⟨1, ![n']⟩ : Shape).Idx → EReal}
    {mu mu' : (⟨1, ![12]⟩ : Shape).Idx → EReal} {t : Fin n} {t' : Fin n'} {q q' : Fin 24}
    (hra : ∀ k, ra (ix2 t k) = ra' (ix2 t' k)) (hrb : ∀ k, rb (ix2 t k) = rb' (ix2 t' k))
    (hda : da (ix1 t) = da' (ix1 t')) (hdb : db (ix1 t) = db' (ix1 t'))
    (hza : za (ix1 t) = za' (ix1 t')) (hzb : zb (ix1 t) = zb' (ix1 t')) (hmu : mu = mu') (hq : q = q') :
    Spec.angAt ra rb da db za zb mu t q = Spec.angAt ra' rb' da' db' za' zb' mu' t' q' := by
  subst hq hmu
  unfold Spec.angAt
  rw [show Spec.vec3 ra t = Spec.vec3 ra' t' from funext hra, show Spec.vec3 rb t = Spec.vec3 rb' t' from funext hrb,
    hda, hdb, hza, hzb]

section Arrays
variable (V : (c : Dev nD) → (b : Ref sig .tc) → Buf (Elt Ideal) ((c : Thread nD τ).loc b))

/-- The index maps over the grid: point t's blocks are block row t of the three arrays of 4,000,000 rows, and the
    one block of the centres. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's block of the pair vectors is rows 5000 t … 5000 t + 4999 of their array. -/
theorem iblk1_0_apply (c : Dev nD) (t : Fin cfg1.N) (x : S5000x6.Idx) (k : S4000000x6.Idx)
    (hk0 : (k 0).val = 5000 * t.val + (x 0).val) (hk1 : (k 1).val = (x 1).val) :
    (iblk1 V c 0 t : Vec Ideal S5000x6 .f32) x = (V c main_v58 : S4000000x6.Idx → EReal) k := by
  obtain ⟨e0, e1, -⟩ := idx_facts1 t
  unfold iblk1
  rw [View.read_apply]
  show V c main_v58 _ = V c main_v58 _
  congr 1
  funext a
  apply Fin.ext
  match a with
  | ⟨0, _⟩ => show win1_0.index t 0 * 5000 + 1 * (x 0).val = (k 0).val; rw [e0, hk0]; omega
  | ⟨1, _⟩ => show win1_0.index t 1 * 6 + 1 * (x 1).val = (k 1).val; rw [e1, hk1]; omega

/-- Point t's block of the lengths and charges is rows 5000 t … 5000 t + 4999 of their array. -/
theorem iblk1_1_apply (c : Dev nD) (t : Fin cfg1.N) (x : S5000x4.Idx) (k : S4000000x4.Idx)
    (hk0 : (k 0).val = 5000 * t.val + (x 0).val) (hk1 : (k 1).val = (x 1).val) :
    (iblk1 V c 1 t : Vec Ideal S5000x4 .f32) x = (V c main_v63 : S4000000x4.Idx → EReal) k := by
  obtain ⟨-, -, e0, e1, -⟩ := idx_facts1 t
  unfold iblk1
  rw [View.read_apply]
  show V c main_v63 _ = V c main_v63 _
  congr 1
  funext a
  apply Fin.ext
  match a with
  | ⟨0, _⟩ => show win1_1.index t 0 * 5000 + 1 * (x 0).val = (k 0).val; rw [e0, hk0]; omega
  | ⟨1, _⟩ => show win1_1.index t 1 * 4 + 1 * (x 1).val = (k 1).val; rw [e1, hk1]; omega

/-- Every point's block of the centres is their whole row. -/
theorem iblk1_2_eq (c : Dev nD) (t : Fin cfg1.N) :
    (iblk1 V c 2 t : Vec Ideal S1x12 .f32) = (V c main_v64 : S1x12.Idx → EReal) := by
  obtain ⟨-, -, -, -, e0, e1, -⟩ := idx_facts1 t
  funext x
  unfold iblk1
  rw [View.read_apply]
  show V c main_v64 _ = V c main_v64 _
  congr 1
  funext a
  apply Fin.ext
  match a with
  | ⟨0, _⟩ => show win1_2.index t 0 * 1 + 1 * (x 0).val = (x 0).val; rw [e0]; omega
  | ⟨1, _⟩ => show win1_2.index t 1 * 12 + 1 * (x 1).val = (x 1).val; rw [e1]; omega

/-! ## From the blocks to the array -/

/-- The whole angular array of the arrays as the launch finds them. -/
def wholeAng (c : Dev nD) : S4000000x24.Idx → EReal :=
  Spec.angArr (Spec.cols 0 3 (by norm_num) (V c main_v58)) (Spec.cols 3 3 (by norm_num) (V c main_v58))
    (Spec.col 0 (V c main_v63)) (Spec.col 1 (V c main_v63)) (Spec.col 2 (V c main_v63)) (Spec.col 3 (V c main_v63))
    (Spec.row (V c main_v64))

/-- What point t writes back is block t of the whole angular array. -/
theorem flushed1_3_eq (c : Dev nD) (t : Fin cfg1.N) :
    (dat1 (F := Ideal) V c).flushed 3 t = ((cfg1.win 3).blk t).view.read (Elt Ideal) (wholeAng V c) := by
  show (cfg1.win 3).cut (grid1.coords t) ((dat1 V c).after 3 t) = _
  rw [after1_3, out1_3_eq]
  obtain ⟨-, -, -, -, -, -, e0, e1⟩ := idx_facts1 t
  funext j
  have hj0 : (j 0).val < 5000 := (j 0).isLt
  have hj1 : (j 1).val < 24 := (j 1).isLt
  show blockAng _ _ _ ((cfg1.win 3).xinj (grid1.coords t) j) = wholeAng V c (((cfg1.win 3).blk t).view.emb j)
  unfold blockAng wholeAng
  have hrow : ((((cfg1.win 3).blk t).view.emb j) 0).val = 5000 * t.val + (j 0).val := by
    show win1_3.index t 0 * 5000 + 1 * (j 0).val = _
    rw [e0]; omega
  have hcol : ((((cfg1.win 3).blk t).view.emb j) 1).val = (j 1).val := by
    show win1_3.index t 1 * 24 + 1 * (j 1).val = _
    rw [e1]; omega
  refine angAt_congr (fun k => ?_) (fun k => ?_) ?_ ?_ ?_ ?_ ?_ ?_
  · exact iblk1_0_apply V c t _ _ hrow rfl
  · exact iblk1_0_apply V c t _ _ hrow rfl
  · exact iblk1_1_apply V c t _ _ hrow rfl
  · exact iblk1_1_apply V c t _ _ hrow rfl
  · exact iblk1_1_apply V c t _ _ hrow rfl
  · exact iblk1_1_apply V c t _ _ hrow rfl
  · exact congrArg Spec.row (iblk1_2_eq V c t)
  · exact Fin.ext hcol.symm

/-- An index of the array is in point t's block iff each coordinate is in the block's range on its axis. -/
theorem mem_blk1_3 (t : Fin cfg1.N) (i : S4000000x24.Idx) :
    i ∈ ((cfg1.win 3).blk t).view.set ↔ ∀ a : Fin 2, win1_3.index t a * S5000x24.size a ≤ (i a).val
      ∧ (i a).val < win1_3.index t a * S5000x24.size a + S5000x24.size a := by
  show i ∈ ((View.whole main_v65).slice (win1_3.rect t)).set ↔ _
  rw [View.set_slice_whole, Rect.mem_set_unit]
  exact Iff.rfl

/-- Row r of the array is in the block of point r / 5000. -/
theorem covered1_3 (i : S4000000x24.Idx) :
    ∃ t : Fin cfg1.N, (cfg1.win 3).flush t = true ∧ i ∈ ((cfg1.win 3).blk t).view.set := by
  have hi0 : (i 0).val < 4000000 := (i 0).isLt
  have hi1 : (i 1).val < 24 := (i 1).isLt
  have hN : grid1.N = 800 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, e0, e1⟩ := idx_facts1 t
  refine ⟨t, flush1_3 t, ?_⟩
  rw [mem_blk1_3]
  intro a
  match a with
  | ⟨0, _⟩ =>
    show win1_3.index t 0 * 5000 ≤ (i 0).val ∧ (i 0).val < win1_3.index t 0 * 5000 + 5000
    rw [e0, ht]; omega
  | ⟨1, _⟩ =>
    show win1_3.index t 1 * 24 ≤ (i 1).val ∧ (i 1).val < win1_3.index t 1 * 24 + 24
    rw [e1]; omega

end Arrays

end Ang1

section Final
variable (V : (c : Dev nD) → (b : Ref sig .tc) → Buf (Elt Ideal) ((c : Thread nD τ).loc b))

/-- The array after the angular launch: the angular array of the pair vectors, lengths, charges and centres as the launch
    finds them. -/
theorem final1_3 (c : Dev nD) :
    (dat1 (F := Ideal) V c).arrAt 3 cfg1.N
      = Spec.angArr (Spec.cols 0 3 (by norm_num) (V c main_v58)) (Spec.cols 3 3 (by norm_num) (V c main_v58))
          (Spec.col 0 (V c main_v63)) (Spec.col 1 (V c main_v63)) (Spec.col 2 (V c main_v63)) (Spec.col 3 (V c main_v63))
          (Spec.row (V c main_v64)) :=
  (dat1 V c).arrAt_eq_of_cover 3 (Ang1.wholeAng V c) (fun t _ => Ang1.flushed1_3_eq V c t) Ang1.covered1_3

end Final

end Cert.KernelIdeal.Hand

end
-- ==== Proof.KI.KLayout.lean ====
/-
  The kernel program's input arrays read column by column.

  The radial launch's pair array is the pair vectors (three columns) with the neighbour charges as a fourth column beside
  them; the angular launch's component array is two gathered pair-vector arrays side by side (three columns each), and its
  scalar array is four gathered per-pair arrays, each laid out as one column. The centres reach the launches as one-row
  arrays. Each statement below says which array a column (or a block of columns, or the one row) of such an array is:
  an index is split into its coordinates, and the side-by-side array is read at that index in the piece that holds the
  column, at the same row; a one-column or one-row layout of a flat array holds the flat array's entry at the row's (the
  column's) position, the two indices having the same position in row-major order.
-/
import proofs.«133981_j1932735284042_1_alg».proof.Proof.Spec
import proofs.«133981_j1932735284042_1_alg».proof.Proof.KI.KStages
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx

namespace Layout

/-! ## A flat array laid out as one column, read at a row -/

/-- The one-column layout of a flat array of `n ≠ 1` entries holds, at row `p`, the flat array's entry `p`. -/
theorem asColumn_apply {α : Type} {n : Nat} (hn : ¬ n = 1) (x : (⟨1, ![n]⟩ : Shape).Idx → α)
    (h : (⟨1, ![n]⟩ : Shape).BroadcastsInDim ⟨2, ![n, 1]⟩ (![0] : Fin 1 → Fin 2)) (p : Fin n) (u : Fin 1) :
    broadcastInDim (⟨2, ![n, 1]⟩ : Shape) (![0] : Fin 1 → Fin 2) h x (ix2 p u) = x (ix1 p) :=
  broadcastInDim_apply _ h x (ix2 p u) (ix1 p) (fun a => by
    match a with
    | ⟨0, _⟩ => exact (if_neg hn).symm)

/-- Off the column axis, a row index `(p, u)` of a one-column piece and `(p, c)` of the whole have the same coordinate. -/
theorem row_coord {n m : Nat} (p : Fin n) (u : Fin 1) (c : Fin m) (b : Fin 2) (hb : b ≠ (1 : Fin 2)) :
    ((ix2 p u) b).val = ((ix2 p c) b).val := by
  match b, hb with
  | ⟨0, _⟩, _ => rfl
  | ⟨1, _⟩, hb => exact absurd rfl hb

end Layout

open Layout

/-! ## The radial launch's pair array -/

/-- Its first three columns are the pair vectors. -/
theorem cols_rzK (a0 : IVec S50000 32) (a1 : FVec Ideal S2000000x3 .f32) (a3 : IVec S2000000 32) :
    Spec.cols 0 3 (by norm_num) (rzK (F := Ideal) a0 a1 a3) = a1 := by
  funext i
  obtain ⟨p, k, rfl⟩ : ∃ (p : Fin 2000000) (k : Fin 3), i = ix2 p k := ⟨_, _, eq_ix2 i⟩
  unfold Spec.cols rzK
  exact concatenate_pair_apply_left (t := S2000000x4) (s₁ := S2000000x3) (s₂ := S2000000x1) (1 : Fin 2) a1 _ _ _ (by rfl)
    (ix2 p k) (fun b => by
      match b with
      | ⟨0, _⟩ => rfl
      | ⟨1, _⟩ => exact (Nat.zero_add k.val).symm)

/-- Its fourth column is the neighbour charges. -/
theorem col3_rzK (a0 : IVec S50000 32) (a1 : FVec Ideal S2000000x3 .f32) (a3 : IVec S2000000 32) :
    Spec.col (3 : Fin 4) (rzK (F := Ideal) a0 a1 a3) = zjK (F := Ideal) a0 a3 := by
  funext i
  obtain ⟨p, rfl⟩ : ∃ p : Fin 2000000, i = ix1 p := ⟨_, eq_ix1 i⟩
  unfold Spec.col rzK
  refine (concatenate_pair_apply_right (t := S2000000x4) (s₁ := S2000000x3) (s₂ := S2000000x1) (1 : Fin 2) a1 _ _ _
    (by rfl) (by rfl) (ix2 p (0 : Fin 1)) (fun b hb => row_coord p 0 _ b hb) (by rfl)).trans ?_
  exact asColumn_apply (by decide) _ _ p 0

/-! ## The centres as one-row arrays, and a column read back as a flat array -/

/-- The one row of the thirty-two radial centres' one-row layout is the centres. -/
theorem row_centres32 (a7 : FVec Ideal S32 .f32) : Spec.row (shapeCast S1x32 a7 shapeCasts_S32_S1x32) = a7 := by
  funext i
  obtain ⟨p, rfl⟩ : ∃ p : Fin 32, i = ix1 p := ⟨_, eq_ix1 i⟩
  unfold Spec.row
  exact shapeCast_a_1a_apply a7 _ 0 p

/-- The one row of the twelve angular centres' one-row layout is the centres. -/
theorem row_centres12 (a8 : FVec Ideal S12 .f32) : Spec.row (shapeCast S1x12 a8 shapeCasts_S12_S1x12) = a8 := by
  funext i
  obtain ⟨p, rfl⟩ : ∃ p : Fin 12, i = ix1 p := ⟨_, eq_ix1 i⟩
  unfold Spec.row
  exact shapeCast_a_1a_apply a8 _ 0 p

/-- A flat array laid out as one column and read back flat is the array: entry `p` and the column's row `p` have the
    same position `p · 1 + 0 = p` in row-major order. -/
theorem flat_asCol (x : FVec Ideal S2000000 .f32) :
    shapeCast S2000000 (Spec.asCol x) shapeCasts_S2000000x1_S2000000 = x := by
  funext i
  obtain ⟨p, rfl⟩ : ∃ p : Fin 2000000, i = ix1 p := ⟨_, eq_ix1 i⟩
  refine (shapeCast_apply (Spec.asCol x) _ (ix1 p) (ix2 p (0 : Fin 1)) ?_).trans rfl
  rw [Shape.rowMajor_val_two, Shape.rowMajor_val_one]
  show p.val * 1 + 0 = p.val
  omega

/-! ## The angular launch's component array -/

/-- Its first three columns are the pair vectors gathered by the triples' first pair. -/
theorem colsA_r6K (a1 : FVec Ideal S2000000x3 .f32) (a5 a6 : IVec S4000000 32) :
    Spec.cols 0 3 (by norm_num) (r6K (F := Ideal) a1 a5 a6) = gRow a1 a5 := by
  funext i
  obtain ⟨p, k, rfl⟩ : ∃ (p : Fin 4000000) (k : Fin 3), i = ix2 p k := ⟨_, _, eq_ix2 i⟩
  unfold Spec.cols r6K
  exact concatenate_pair_apply_left (t := S4000000x6) (s₁ := S4000000x3) (s₂ := S4000000x3) (1 : Fin 2) (gRow a1 a5) _ _ _
    (by rfl) (ix2 p k) (fun b => by
      match b with
      | ⟨0, _⟩ => rfl
      | ⟨1, _⟩ => exact (Nat.zero_add k.val).symm)

/-- Its last three columns are the pair vectors gathered by the triples' second pair. -/
theorem colsB_r6K (a1 : FVec Ideal S2000000x3 .f32) (a5 a6 : IVec S4000000 32) :
    Spec.cols 3 3 (by norm_num) (r6K (F := Ideal) a1 a5 a6) = gRow a1 a6 := by
  funext i
  obtain ⟨p, k, rfl⟩ : ∃ (p : Fin 4000000) (k : Fin 3), i = ix2 p k := ⟨_, _, eq_ix2 i⟩
  unfold Spec.cols r6K
  exact concatenate_pair_apply_right (t := S4000000x6) (s₁ := S4000000x3) (s₂ := S4000000x3) (1 : Fin 2) _ (gRow a1 a6) _ _
    (by rfl) (by rfl) (ix2 p k) (fun b hb => by
      match b, hb with
      | ⟨0, _⟩, _ => rfl
      | ⟨1, _⟩, hb => exact absurd rfl hb) (by exact Nat.add_comm k.val 3)

/-! ## The angular launch's scalar array -/

namespace Layout

/-- Four one-column layouts of flat arrays side by side: at row `p`, column `q` holds the `q`-th flat array's entry
    `p` (the columns before it take up `q` positions of the row, one each). -/
theorem four_cols (y0 y1 y2 y3 : FVec Ideal S4000000 .f32) (X : FVec Ideal S4000000x4 .f32)
    (hX : X = concatenate S4000000x4 1
        [⟨S4000000x1, broadcastInDim S4000000x1 ![0] bcast_S4000000_S4000000x1_0 y0⟩,
         ⟨S4000000x1, broadcastInDim S4000000x1 ![0] bcast_S4000000_S4000000x1_0 y1⟩,
         ⟨S4000000x1, broadcastInDim S4000000x1 ![0] bcast_S4000000_S4000000x1_0 y2⟩,
         ⟨S4000000x1, broadcastInDim S4000000x1 ![0] bcast_S4000000_S4000000x1_0 y3⟩]
        concatenates_S4000000x1_S4000000x1_S4000000x1_S4000000x1_S4000000x4_d1) (p : Fin 4000000) :
    X (ix2 p (0 : Fin 4)) = y0 (ix1 p) ∧ X (ix2 p (1 : Fin 4)) = y1 (ix1 p) ∧
      X (ix2 p (2 : Fin 4)) = y2 (ix1 p) ∧ X (ix2 p (3 : Fin 4)) = y3 (ix1 p) := by
  subst hX
  refine ⟨?_, ?_, ?_, ?_⟩
  · exact (concatenate_apply_piece (t := S4000000x4) (1 : Fin 2) _ _ _ 0 (by show (0 : Nat) < 4; omega) S4000000x1 _ (by rfl) (by rfl) 0 (by rfl)
      (ix2 p (0 : Fin 1)) (fun b hb => row_coord p 0 _ b hb) (by rfl)).trans (asColumn_apply (by decide) y0 _ p 0)
  · exact (concatenate_apply_piece (t := S4000000x4) (1 : Fin 2) _ _ _ 1 (by show (1 : Nat) < 4; omega) S4000000x1 _ (by rfl) (by rfl) 1 (by rfl)
      (ix2 p (0 : Fin 1)) (fun b hb => row_coord p 0 _ b hb) (by rfl)).trans (asColumn_apply (by decide) y1 _ p 0)
  · exact (concatenate_apply_piece (t := S4000000x4) (1 : Fin 2) _ _ _ 2 (by show (2 : Nat) < 4; omega) S4000000x1 _ (by rfl) (by rfl) 2 (by rfl)
      (ix2 p (0 : Fin 1)) (fun b hb => row_coord p 0 _ b hb) (by rfl)).trans (asColumn_apply (by decide) y2 _ p 0)
  · exact (concatenate_apply_piece (t := S4000000x4) (1 : Fin 2) _ _ _ 3 (by show (3 : Nat) < 4; omega) S4000000x1 _ (by rfl) (by rfl) 3 (by rfl)
      (ix2 p (0 : Fin 1)) (fun b hb => row_coord p 0 _ b hb) (by rfl)).trans (asColumn_apply (by decide) y3 _ p 0)

end Layout

/-- Column 0: the lengths gathered by the triples' first pair. -/
theorem col0_s4K (d z : FVec Ideal S2000000 .f32) (a5 a6 : IVec S4000000 32) :
    Spec.col (0 : Fin 4) (s4K (F := Ideal) d z a5 a6) = gVec d a5 := by
  funext i
  obtain ⟨p, rfl⟩ : ∃ p : Fin 4000000, i = ix1 p := ⟨_, eq_ix1 i⟩
  unfold Spec.col
  exact (four_cols (gVec d a5) (gVec d a6) (gVec z a5) (gVec z a6) (s4K (F := Ideal) d z a5 a6) (by unfold s4K; rfl) p).1

/-- Column 1: the lengths gathered by the triples' second pair. -/
theorem col1_s4K (d z : FVec Ideal S2000000 .f32) (a5 a6 : IVec S4000000 32) :
    Spec.col (1 : Fin 4) (s4K (F := Ideal) d z a5 a6) = gVec d a6 := by
  funext i
  obtain ⟨p, rfl⟩ : ∃ p : Fin 4000000, i = ix1 p := ⟨_, eq_ix1 i⟩
  unfold Spec.col
  exact (four_cols (gVec d a5) (gVec d a6) (gVec z a5) (gVec z a6) (s4K (F := Ideal) d z a5 a6) (by unfold s4K; rfl) p).2.1

/-- Column 2: the charges gathered by the triples' first pair. -/
theorem col2_s4K (d z : FVec Ideal S2000000 .f32) (a5 a6 : IVec S4000000 32) :
    Spec.col (2 : Fin 4) (s4K (F := Ideal) d z a5 a6) = gVec z a5 := by
  funext i
  obtain ⟨p, rfl⟩ : ∃ p : Fin 4000000, i = ix1 p := ⟨_, eq_ix1 i⟩
  unfold Spec.col
  exact (four_cols (gVec d a5) (gVec d a6) (gVec z a5) (gVec z a6) (s4K (F := Ideal) d z a5 a6) (by unfold s4K; rfl) p).2.2.1

/-- Column 3: the charges gathered by the triples' second pair. -/
theorem col3_s4K (d z : FVec Ideal S2000000 .f32) (a5 a6 : IVec S4000000 32) :
    Spec.col (3 : Fin 4) (s4K (F := Ideal) d z a5 a6) = gVec z a6 := by
  funext i
  obtain ⟨p, rfl⟩ : ∃ p : Fin 4000000, i = ix1 p := ⟨_, eq_ix1 i⟩
  unfold Spec.col
  exact (four_cols (gVec d a5) (gVec d a6) (gVec z a5) (gVec z a6) (s4K (F := Ideal) d z a5 a6) (by unfold s4K; rfl) p).2.2.2

end Cert.KernelIdeal.Hand

end
-- ==== Proof.RefOps.lean ====
/- The operations of the reference program's @main as list literals, one per window of the printed text, in order;
   where @main calls a function, that function's operations stand in the call's place over the call's operands
   and its record of buffers. A table only: every statement about it is proved in the module that imports this one. -/
import proofs.«133981_j1932735284042_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 65 operations of window main_part0, in order. -/
abbrev ops0 : List (HloOp τ sig (Elt F)) :=
  [ StableHlo.nullary main_cst (fun i => FloatOps.ofBits .f32 (lit0 (S2.rowMajor i))),
    StableHlo.unary main_arg0 main_v0 (sitofp .f32 : (⟨S50000, .i32⟩ : BufTy).Contents (Elt F) → (⟨S50000, .f32⟩ : BufTy).Contents (Elt F)),
    StableHlo.nullary main_c (constantI S_ 32 0#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg3 main_v1 main_v2 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 50000#32),
    StableHlo.unary main_c_0 main_v3 (broadcastInDim S2000000 ![] bcast_S_S2000000 : (⟨S_, .i32⟩ : BufTy).Contents (Elt F) → (⟨S2000000, .i32⟩ : BufTy).Contents (Elt F)),
    StableHlo.binary main_arg3 main_v3 main_v4 (addi : (⟨S2000000, .i32⟩ : BufTy).Contents (Elt F) → (⟨S2000000, .i32⟩ : BufTy).Contents (Elt F) → (⟨S2000000, .i32⟩ : BufTy).Contents (Elt F)),
    StableHlo.ternary main_v2 main_v4 main_arg3 main_v5 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v5 main_v6 (broadcastInDim S2000000x1 ![0] bcast_S2000000_S2000000x1_0 : (⟨S2000000, .i32⟩ : BufTy).Contents (Elt F) → (⟨S2000000x1, .i32⟩ : BufTy).Contents (Elt F)),
    StableHlo.binary main_v0 main_v6 main_v7 ((fun x i => Host.gather gather_S50000_S2000000x1_S2000000_n_0_n_n_0_1_1 x i) : (⟨S50000, .f32⟩ : BufTy).Contents (Elt F) → (⟨S2000000x1, .i32⟩ : BufTy).Contents (Elt F) → (⟨S2000000, .f32⟩ : BufTy).Contents (Elt F)),
    StableHlo.TRef.binary (.of main_arg1) (.of main_arg1) main_call0.v0 mulf,
    StableHlo.TRef.nullary main_call0.cst (constant S_ .f32 0x00000000#32),
    StableHlo.TRef.binary main_call0.v0 main_call0.cst main_call0.v1 (fun x v => Host.reduceAdd x v reducesTo_S2000000x3_S2000000_d1 h_S_),
    StableHlo.TRef.unary main_call0.v1 main_call0.v2 Host.sqrt,
    StableHlo.unary main_v8 main_v9 (broadcastInDim S2000000x1 ![0] bcast_S2000000_S2000000x1_0 : (⟨S2000000, .f32⟩ : BufTy).Contents (Elt F) → (⟨S2000000x1, .f32⟩ : BufTy).Contents (Elt F)),
    StableHlo.unary main_arg7 main_v10 (broadcastInDim S1x32 ![1] bcast_S32_S1x32_1 : (⟨S32, .f32⟩ : BufTy).Contents (Elt F) → (⟨S1x32, .f32⟩ : BufTy).Contents (Elt F)),
    StableHlo.unary main_v9 main_v11 (broadcastInDim S2000000x32 ![0, 1] bcast_S2000000x1_S2000000x32_0_1 : (⟨S2000000x1, .f32⟩ : BufTy).Contents (Elt F) → (⟨S2000000x32, .f32⟩ : BufTy).Contents (Elt F)),
    StableHlo.unary main_v10 main_v12 (broadcastInDim S2000000x32 ![0, 1] bcast_S1x32_S2000000x32_0_1 : (⟨S1x32, .f32⟩ : BufTy).Contents (Elt F) → (⟨S2000000x32, .f32⟩ : BufTy).Contents (Elt F)),
    StableHlo.binary main_v11 main_v12 main_v13 (subf : (⟨S2000000x32, .f32⟩ : BufTy).Contents (Elt F) → (⟨S2000000x32, .f32⟩ : BufTy).Contents (Elt F) → (⟨S2000000x32, .f32⟩ : BufTy).Contents (Elt F)),
    StableHlo.binary main_v13 main_v13 main_v14 (mulf : (⟨S2000000x32, .f32⟩ : BufTy).Contents (Elt F) → (⟨S2000000x32, .f32⟩ : BufTy).Contents (Elt F) → (⟨S2000000x32, .f32⟩ : BufTy).Contents (Elt F)),
    StableHlo.nullary main_cst_1 (constant S_ .f32 0xC0800000#32),
    StableHlo.unary main_cst_1 main_v15 (broadcastInDim S2000000x32 ![] bcast_S_S2000000x32 : (⟨S_, .f32⟩ : BufTy).Contents (Elt F) → (⟨S2000000x32, .f32⟩ : BufTy).Contents (Elt F)),
    StableHlo.binary main_v15 main_v14 main_v16 (mulf : (⟨S2000000x32, .f32⟩ : BufTy).Contents (Elt F) → (⟨S2000000x32, .f32⟩ : BufTy).Contents (Elt F) → (⟨S2000000x32, .f32⟩ : BufTy).Contents (Elt F)),
    StableHlo.unary main_v16 main_v17 (Host.exp : (⟨S2000000x32, .f32⟩ : BufTy).Contents (Elt F) → (⟨S2000000x32, .f32⟩ : BufTy).Contents (Elt F)),
    StableHlo.nullary main_cst_2 (constant S_ .f32 0x40490FDB#32),
    StableHlo.unary main_cst_2 main_v18 (broadcastInDim S2000000 ![] bcast_S_S2000000 : (⟨S_, .f32⟩ : BufTy).Contents (Elt F) → (⟨S2000000, .f32⟩ : BufTy).Contents (Elt F)),
    StableHlo.binary main_v18 main_v8 main_v19 (mulf : (⟨S2000000, .f32⟩ : BufTy).Contents (Elt F) → (⟨S2000000, .f32⟩ : BufTy).Contents (Elt F) → (⟨S2000000, .f32⟩ : BufTy).Contents (Elt F)),
    StableHlo.nullary main_cst_3 (constant S_ .f32 0x40A00000#32),
    StableHlo.unary main_cst_3 main_v20 (broadcastInDim S2000000 ![] bcast_S_S2000000 : (⟨S_, .f32⟩ : BufTy).Contents (Elt F) → (⟨S2000000, .f32⟩ : BufTy).Contents (Elt F)),
    StableHlo.binary main_v19 main_v20 main_v21 (Host.divf : (⟨S2000000, .f32⟩ : BufTy).Contents (Elt F) → (⟨S2000000, .f32⟩ : BufTy).Contents (Elt F) → (⟨S2000000, .f32⟩ : BufTy).Contents (Elt F)),
    StableHlo.unary main_v21 main_v22 (Host.cos : (⟨S2000000, .f32⟩ : BufTy).Contents (Elt F) → (⟨S2000000, .f32⟩ : BufTy).Contents (Elt F)),
    StableHlo.nullary main_cst_4 (constant S_ .f32 0x3F800000#32),
    StableHlo.unary main_cst_4 main_v23 (broadcastInDim S2000000 ![] bcast_S_S2000000 : (⟨S_, .f32⟩ : BufTy).Contents (Elt F) → (⟨S2000000, .f32⟩ : BufTy).Contents (Elt F)),
    StableHlo.binary main_v22 main_v23 main_v24 (addf : (⟨S2000000, .f32⟩ : BufTy).Contents (Elt F) → (⟨S2000000, .f32⟩ : BufTy).Contents (Elt F) → (⟨S2000000, .f32⟩ : BufTy).Contents (Elt F)),
    StableHlo.nullary main_cst_5 (constant S_ .f32 0x3F000000#32),
    StableHlo.unary main_cst_5 main_v25 (broadcastInDim S2000000 ![] bcast_S_S2000000 : (⟨S_, .f32⟩ : BufTy).Contents (Elt F) → (⟨S2000000, .f32⟩ : BufTy).Contents (Elt F)),
    StableHlo.binary main_v25 main_v24 main_v26 (mulf : (⟨S2000000, .f32⟩ : BufTy).Contents (Elt F) → (⟨S2000000, .f32⟩ : BufTy).Contents (Elt F) → (⟨S2000000, .f32⟩ : BufTy).Contents (Elt F)),
    StableHlo.nullary main_cst_6 (constant S_ .f32 0x40A00000#32),
    StableHlo.unary main_cst_6 main_v27 (broadcastInDim S2000000 ![] bcast_S_S2000000 : (⟨S_, .f32⟩ : BufTy).Contents (Elt F) → (⟨S2000000, .f32⟩ : BufTy).Contents (Elt F)),
    StableHlo.binary main_v8 main_v27 main_v28 (cmpf .olt : (⟨S2000000, .f32⟩ : BufTy).Contents (Elt F) → (⟨S2000000, .f32⟩ : BufTy).Contents (Elt F) → (⟨S2000000, .i1⟩ : BufTy).Contents (Elt F)),
    StableHlo.nullary main_cst_7 (constant S_ .f32 0x00000000#32),
    StableHlo.TRef.unary (.of main_cst_7) main_call1.v0 id,
    StableHlo.TRef.unary main_call1.v0 main_call1.v1 (broadcastInDim S2000000 ![] bcast_S_S2000000),
    StableHlo.TRef.ternary (.of main_v28) (.of main_v26) main_call1.v1 main_call1.v2 select,
    StableHlo.binary main_v29 main_v7 main_v30 (mulf : (⟨S2000000, .f32⟩ : BufTy).Contents (Elt F) → (⟨S2000000, .f32⟩ : BufTy).Contents (Elt F) → (⟨S2000000, .f32⟩ : BufTy).Contents (Elt F)),
    StableHlo.unary main_v30 main_v31 (broadcastInDim S2000000x1 ![0] bcast_S2000000_S2000000x1_0 : (⟨S2000000, .f32⟩ : BufTy).Contents (Elt F) → (⟨S2000000x1, .f32⟩ : BufTy).Contents (Elt F)),
    StableHlo.unary main_v31 main_v32 (broadcastInDim S2000000x32 ![0, 1] bcast_S2000000x1_S2000000x32_0_1 : (⟨S2000000x1, .f32⟩ : BufTy).Contents (Elt F) → (⟨S2000000x32, .f32⟩ : BufTy).Contents (Elt F)),
    StableHlo.binary main_v17 main_v32 main_v33 (mulf : (⟨S2000000x32, .f32⟩ : BufTy).Contents (Elt F) → (⟨S2000000x32, .f32⟩ : BufTy).Contents (Elt F) → (⟨S2000000x32, .f32⟩ : BufTy).Contents (Elt F)),
    StableHlo.nullary main_cst_8 (constant S_ .f32 0x00000000#32),
    StableHlo.unary main_cst_8 main_v34 (broadcastInDim S50000x32 ![] bcast_S_S50000x32 : (⟨S_, .f32⟩ : BufTy).Contents (Elt F) → (⟨S50000x32, .f32⟩ : BufTy).Contents (Elt F)),
    StableHlo.unary main_arg2 main_v35 (broadcastInDim S2000000x1 ![0] bcast_S2000000_S2000000x1_0 : (⟨S2000000, .i32⟩ : BufTy).Contents (Elt F) → (⟨S2000000x1, .i32⟩ : BufTy).Contents (Elt F)),
    StableHlo.ternary main_v34 main_v35 main_v33 main_v36 ((fun x i u => Host.scatterAdd scatter_S50000x32_S2000000x1_S2000000x32_1_0_0_1 x i u) : (⟨S50000x32, .f32⟩ : BufTy).Contents (Elt F) → (⟨S2000000x1, .i32⟩ : BufTy).Contents (Elt F) → (⟨S2000000x32, .f32⟩ : BufTy).Contents (Elt F) → (⟨S50000x32, .f32⟩ : BufTy).Contents (Elt F)),
    StableHlo.nullary main_c_9 (constantI S_ 32 0#32),
    StableHlo.unary main_c_9 main_v37 (broadcastInDim S4000000 ![] bcast_S_S4000000 : (⟨S_, .i32⟩ : BufTy).Contents (Elt F) → (⟨S4000000, .i32⟩ : BufTy).Contents (Elt F)),
    StableHlo.binary main_arg5 main_v37 main_v38 (cmpi .slt : (⟨S4000000, .i32⟩ : BufTy).Contents (Elt F) → (⟨S4000000, .i32⟩ : BufTy).Contents (Elt F) → (⟨S4000000, .i1⟩ : BufTy).Contents (Elt F)),
    StableHlo.nullary main_c_10 (constantI S_ 32 2000000#32),
    StableHlo.unary main_c_10 main_v39 (broadcastInDim S4000000 ![] bcast_S_S4000000 : (⟨S_, .i32⟩ : BufTy).Contents (Elt F) → (⟨S4000000, .i32⟩ : BufTy).Contents (Elt F)),
    StableHlo.binary main_arg5 main_v39 main_v40 (addi : (⟨S4000000, .i32⟩ : BufTy).Contents (Elt F) → (⟨S4000000, .i32⟩ : BufTy).Contents (Elt F) → (⟨S4000000, .i32⟩ : BufTy).Contents (Elt F)),
    StableHlo.ternary main_v38 main_v40 main_arg5 main_v41 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v41 main_v42 (broadcastInDim S4000000x1 ![0] bcast_S4000000_S4000000x1_0 : (⟨S4000000, .i32⟩ : BufTy).Contents (Elt F) → (⟨S4000000x1, .i32⟩ : BufTy).Contents (Elt F)),
    StableHlo.binary main_arg1 main_v42 main_v43 ((fun x i => Host.gather gather_S2000000x3_S4000000x1_S4000000x3_1_0_n_n_0_1_13 x i) : (⟨S2000000x3, .f32⟩ : BufTy).Contents (Elt F) → (⟨S4000000x1, .i32⟩ : BufTy).Contents (Elt F) → (⟨S4000000x3, .f32⟩ : BufTy).Contents (Elt F)),
    StableHlo.nullary main_c_11 (constantI S_ 32 0#32),
    StableHlo.unary main_c_11 main_v44 (broadcastInDim S4000000 ![] bcast_S_S4000000 : (⟨S_, .i32⟩ : BufTy).Contents (Elt F) → (⟨S4000000, .i32⟩ : BufTy).Contents (Elt F)),
    StableHlo.binary main_arg6 main_v44 main_v45 (cmpi .slt : (⟨S4000000, .i32⟩ : BufTy).Contents (Elt F) → (⟨S4000000, .i32⟩ : BufTy).Contents (Elt F) → (⟨S4000000, .i1⟩ : BufTy).Contents (Elt F)) ]

/-- The 60 operations of window main_part1, in order. -/
abbrev ops1 : List (HloOp τ sig (Elt F)) :=
  [ StableHlo.nullary main_c_12 (constantI S_ 32 2000000#32),
    StableHlo.unary main_c_12 main_v46 (broadcastInDim S4000000 ![] bcast_S_S4000000 : (⟨S_, .i32⟩ : BufTy).Contents (Elt F) → (⟨S4000000, .i32⟩ : BufTy).Contents (Elt F)),
    StableHlo.binary main_arg6 main_v46 main_v47 (addi : (⟨S4000000, .i32⟩ : BufTy).Contents (Elt F) → (⟨S4000000, .i32⟩ : BufTy).Contents (Elt F) → (⟨S4000000, .i32⟩ : BufTy).Contents (Elt F)),
    StableHlo.ternary main_v45 main_v47 main_arg6 main_v48 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v48 main_v49 (broadcastInDim S4000000x1 ![0] bcast_S4000000_S4000000x1_0 : (⟨S4000000, .i32⟩ : BufTy).Contents (Elt F) → (⟨S4000000x1, .i32⟩ : BufTy).Contents (Elt F)),
    StableHlo.binary main_arg1 main_v49 main_v50 ((fun x i => Host.gather gather_S2000000x3_S4000000x1_S4000000x3_1_0_n_n_0_1_13 x i) : (⟨S2000000x3, .f32⟩ : BufTy).Contents (Elt F) → (⟨S4000000x1, .i32⟩ : BufTy).Contents (Elt F) → (⟨S4000000x3, .f32⟩ : BufTy).Contents (Elt F)),
    StableHlo.nullary main_c_13 (constantI S_ 32 0#32),
    StableHlo.unary main_c_13 main_v51 (broadcastInDim S4000000 ![] bcast_S_S4000000 : (⟨S_, .i32⟩ : BufTy).Contents (Elt F) → (⟨S4000000, .i32⟩ : BufTy).Contents (Elt F)),
    StableHlo.binary main_arg5 main_v51 main_v52 (cmpi .slt : (⟨S4000000, .i32⟩ : BufTy).Contents (Elt F) → (⟨S4000000, .i32⟩ : BufTy).Contents (Elt F) → (⟨S4000000, .i1⟩ : BufTy).Contents (Elt F)),
    StableHlo.nullary main_c_14 (constantI S_ 32 2000000#32),
    StableHlo.unary main_c_14 main_v53 (broadcastInDim S4000000 ![] bcast_S_S4000000 : (⟨S_, .i32⟩ : BufTy).Contents (Elt F) → (⟨S4000000, .i32⟩ : BufTy).Contents (Elt F)),
    StableHlo.binary main_arg5 main_v53 main_v54 (addi : (⟨S4000000, .i32⟩ : BufTy).Contents (Elt F) → (⟨S4000000, .i32⟩ : BufTy).Contents (Elt F) → (⟨S4000000, .i32⟩ : BufTy).Contents (Elt F)),
    StableHlo.ternary main_v52 main_v54 main_arg5 main_v55 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v55 main_v56 (broadcastInDim S4000000x1 ![0] bcast_S4000000_S4000000x1_0 : (⟨S4000000, .i32⟩ : BufTy).Contents (Elt F) → (⟨S4000000x1, .i32⟩ : BufTy).Contents (Elt F)),
    StableHlo.binary main_v8 main_v56 main_v57 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    StableHlo.nullary main_c_15 (constantI S_ 32 0#32),
    StableHlo.unary main_c_15 main_v58 (broadcastInDim S4000000 ![] bcast_S_S4000000 : (⟨S_, .i32⟩ : BufTy).Contents (Elt F) → (⟨S4000000, .i32⟩ : BufTy).Contents (Elt F)),
    StableHlo.binary main_arg6 main_v58 main_v59 (cmpi .slt : (⟨S4000000, .i32⟩ : BufTy).Contents (Elt F) → (⟨S4000000, .i32⟩ : BufTy).Contents (Elt F) → (⟨S4000000, .i1⟩ : BufTy).Contents (Elt F)),
    StableHlo.nullary main_c_16 (constantI S_ 32 2000000#32),
    StableHlo.unary main_c_16 main_v60 (broadcastInDim S4000000 ![] bcast_S_S4000000 : (⟨S_, .i32⟩ : BufTy).Contents (Elt F) → (⟨S4000000, .i32⟩ : BufTy).Contents (Elt F)),
    StableHlo.binary main_arg6 main_v60 main_v61 (addi : (⟨S4000000, .i32⟩ : BufTy).Contents (Elt F) → (⟨S4000000, .i32⟩ : BufTy).Contents (Elt F) → (⟨S4000000, .i32⟩ : BufTy).Contents (Elt F)),
    StableHlo.ternary main_v59 main_v61 main_arg6 main_v62 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v62 main_v63 (broadcastInDim S4000000x1 ![0] bcast_S4000000_S4000000x1_0 : (⟨S4000000, .i32⟩ : BufTy).Contents (Elt F) → (⟨S4000000x1, .i32⟩ : BufTy).Contents (Elt F)),
    StableHlo.binary main_v8 main_v63 main_v64 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    StableHlo.nullary main_c_17 (constantI S_ 32 0#32),
    StableHlo.unary main_c_17 main_v65 (broadcastInDim S4000000 ![] bcast_S_S4000000 : (⟨S_, .i32⟩ : BufTy).Contents (Elt F) → (⟨S4000000, .i32⟩ : BufTy).Contents (Elt F)),
    StableHlo.binary main_arg5 main_v65 main_v66 (cmpi .slt : (⟨S4000000, .i32⟩ : BufTy).Contents (Elt F) → (⟨S4000000, .i32⟩ : BufTy).Contents (Elt F) → (⟨S4000000, .i1⟩ : BufTy).Contents (Elt F)),
    StableHlo.nullary main_c_18 (constantI S_ 32 2000000#32),
    StableHlo.unary main_c_18 main_v67 (broadcastInDim S4000000 ![] bcast_S_S4000000 : (⟨S_, .i32⟩ : BufTy).Contents (Elt F) → (⟨S4000000, .i32⟩ : BufTy).Contents (Elt F)),
    StableHlo.binary main_arg5 main_v67 main_v68 (addi : (⟨S4000000, .i32⟩ : BufTy).Contents (Elt F) → (⟨S4000000, .i32⟩ : BufTy).Contents (Elt F) → (⟨S4000000, .i32⟩ : BufTy).Contents (Elt F)),
    StableHlo.ternary main_v66 main_v68 main_arg5 main_v69 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v69 main_v70 (broadcastInDim S4000000x1 ![0] bcast_S4000000_S4000000x1_0 : (⟨S4000000, .i32⟩ : BufTy).Contents (Elt F) → (⟨S4000000x1, .i32⟩ : BufTy).Contents (Elt F)),
    StableHlo.binary main_v7 main_v70 main_v71 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    StableHlo.nullary main_c_19 (constantI S_ 32 0#32),
    StableHlo.unary main_c_19 main_v72 (broadcastInDim S4000000 ![] bcast_S_S4000000 : (⟨S_, .i32⟩ : BufTy).Contents (Elt F) → (⟨S4000000, .i32⟩ : BufTy).Contents (Elt F)),
    StableHlo.binary main_arg6 main_v72 main_v73 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 2000000#32),
    StableHlo.unary main_c_20 main_v74 (broadcastInDim S4000000 ![] bcast_S_S4000000 : (⟨S_, .i32⟩ : BufTy).Contents (Elt F) → (⟨S4000000, .i32⟩ : BufTy).Contents (Elt F)),
    StableHlo.binary main_arg6 main_v74 main_v75 (addi : (⟨S4000000, .i32⟩ : BufTy).Contents (Elt F) → (⟨S4000000, .i32⟩ : BufTy).Contents (Elt F) → (⟨S4000000, .i32⟩ : BufTy).Contents (Elt F)),
    StableHlo.ternary main_v73 main_v75 main_arg6 main_v76 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v76 main_v77 (broadcastInDim S4000000x1 ![0] bcast_S4000000_S4000000x1_0 : (⟨S4000000, .i32⟩ : BufTy).Contents (Elt F) → (⟨S4000000x1, .i32⟩ : BufTy).Contents (Elt F)),
    StableHlo.binary main_v7 main_v77 main_v78 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    StableHlo.binary main_v43 main_v50 main_v79 (mulf : (⟨S4000000x3, .f32⟩ : BufTy).Contents (Elt F) → (⟨S4000000x3, .f32⟩ : BufTy).Contents (Elt F) → (⟨S4000000x3, .f32⟩ : BufTy).Contents (Elt F)),
    StableHlo.nullary main_cst_21 (constant S_ .f32 0x00000000#32),
    StableHlo.binary main_v79 main_cst_21 main_v80 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)),
    StableHlo.binary main_v57 main_v64 main_v81 (mulf : (⟨S4000000, .f32⟩ : BufTy).Contents (Elt F) → (⟨S4000000, .f32⟩ : BufTy).Contents (Elt F) → (⟨S4000000, .f32⟩ : BufTy).Contents (Elt F)),
    StableHlo.binary main_v80 main_v81 main_v82 (Host.divf : (⟨S4000000, .f32⟩ : BufTy).Contents (Elt F) → (⟨S4000000, .f32⟩ : BufTy).Contents (Elt F) → (⟨S4000000, .f32⟩ : BufTy).Contents (Elt F)),
    StableHlo.unary main_cst main_v83 (broadcastInDim S1x2 ![1] bcast_S2_S1x2_1 : (⟨S2, .f32⟩ : BufTy).Contents (Elt F) → (⟨S1x2, .f32⟩ : BufTy).Contents (Elt F)),
    StableHlo.unary main_v82 main_v84 (broadcastInDim S4000000x1 ![0] bcast_S4000000_S4000000x1_0 : (⟨S4000000, .f32⟩ : BufTy).Contents (Elt F) → (⟨S4000000x1, .f32⟩ : BufTy).Contents (Elt F)),
    StableHlo.unary main_v83 main_v85 (broadcastInDim S4000000x2 ![0, 1] bcast_S1x2_S4000000x2_0_1 : (⟨S1x2, .f32⟩ : BufTy).Contents (Elt F) → (⟨S4000000x2, .f32⟩ : BufTy).Contents (Elt F)),
    StableHlo.unary main_v84 main_v86 (broadcastInDim S4000000x2 ![0, 1] bcast_S4000000x1_S4000000x2_0_1 : (⟨S4000000x1, .f32⟩ : BufTy).Contents (Elt F) → (⟨S4000000x2, .f32⟩ : BufTy).Contents (Elt F)),
    StableHlo.binary main_v85 main_v86 main_v87 (mulf : (⟨S4000000x2, .f32⟩ : BufTy).Contents (Elt F) → (⟨S4000000x2, .f32⟩ : BufTy).Contents (Elt F) → (⟨S4000000x2, .f32⟩ : BufTy).Contents (Elt F)),
    StableHlo.nullary main_cst_22 (constant S_ .f32 0x3F800000#32),
    StableHlo.unary main_cst_22 main_v88 (broadcastInDim S4000000x2 ![] bcast_S_S4000000x2 : (⟨S_, .f32⟩ : BufTy).Contents (Elt F) → (⟨S4000000x2, .f32⟩ : BufTy).Contents (Elt F)),
    StableHlo.binary main_v88 main_v87 main_v89 (addf : (⟨S4000000x2, .f32⟩ : BufTy).Contents (Elt F) → (⟨S4000000x2, .f32⟩ : BufTy).Contents (Elt F) → (⟨S4000000x2, .f32⟩ : BufTy).Contents (Elt F)),
    StableHlo.nullary main_cst_23 (constant S_ .f32 0x41000000#32),
    StableHlo.unary main_cst_23 main_v90 (broadcastInDim S4000000x2 ![] bcast_S_S4000000x2 : (⟨S_, .f32⟩ : BufTy).Contents (Elt F) → (⟨S4000000x2, .f32⟩ : BufTy).Contents (Elt F)),
    StableHlo.binary main_v89 main_v90 main_v91 (Host.powf : (⟨S4000000x2, .f32⟩ : BufTy).Contents (Elt F) → (⟨S4000000x2, .f32⟩ : BufTy).Contents (Elt F) → (⟨S4000000x2, .f32⟩ : BufTy).Contents (Elt F)),
    StableHlo.binary main_v57 main_v64 main_v92 (addf : (⟨S4000000, .f32⟩ : BufTy).Contents (Elt F) → (⟨S4000000, .f32⟩ : BufTy).Contents (Elt F) → (⟨S4000000, .f32⟩ : BufTy).Contents (Elt F)),
    StableHlo.unary main_v92 main_v93 (broadcastInDim S4000000x1 ![0] bcast_S4000000_S4000000x1_0 : (⟨S4000000, .f32⟩ : BufTy).Contents (Elt F) → (⟨S4000000x1, .f32⟩ : BufTy).Contents (Elt F)) ]

/-- The 64 operations of window main_part2, in order. -/
abbrev ops2 : List (HloOp τ sig (Elt F)) :=
  [ StableHlo.nullary main_cst_24 (constant S_ .f32 0x3F000000#32),
    StableHlo.unary main_cst_24 main_v94 (broadcastInDim S4000000x1 ![] bcast_S_S4000000x1 : (⟨S_, .f32⟩ : BufTy).Contents (Elt F) → (⟨S4000000x1, .f32⟩ : BufTy).Contents (Elt F)),
    StableHlo.binary main_v94 main_v93 main_v95 (mulf : (⟨S4000000x1, .f32⟩ : BufTy).Contents (Elt F) → (⟨S4000000x1, .f32⟩ : BufTy).Contents (Elt F) → (⟨S4000000x1, .f32⟩ : BufTy).Contents (Elt F)),
    StableHlo.unary main_arg8 main_v96 (broadcastInDim S1x12 ![1] bcast_S12_S1x12_1 : (⟨S12, .f32⟩ : BufTy).Contents (Elt F) → (⟨S1x12, .f32⟩ : BufTy).Contents (Elt F)),
    StableHlo.unary main_v95 main_v97 (broadcastInDim S4000000x12 ![0, 1] bcast_S4000000x1_S4000000x12_0_1 : (⟨S4000000x1, .f32⟩ : BufTy).Contents (Elt F) → (⟨S4000000x12, .f32⟩ : BufTy).Contents (Elt F)),
    StableHlo.unary main_v96 main_v98 (broadcastInDim S4000000x12 ![0, 1] bcast_S1x12_S4000000x12_0_1 : (⟨S1x12, .f32⟩ : BufTy).Contents (Elt F) → (⟨S4000000x12, .f32⟩ : BufTy).Contents (Elt F)),
    StableHlo.binary main_v97 main_v98 main_v99 (subf : (⟨S4000000x12, .f32⟩ : BufTy).Contents (Elt F) → (⟨S4000000x12, .f32⟩ : BufTy).Contents (Elt F) → (⟨S4000000x12, .f32⟩ : BufTy).Contents (Elt F)),
    StableHlo.binary main_v99 main_v99 main_v100 (mulf : (⟨S4000000x12, .f32⟩ : BufTy).Contents (Elt F) → (⟨S4000000x12, .f32⟩ : BufTy).Contents (Elt F) → (⟨S4000000x12, .f32⟩ : BufTy).Contents (Elt F)),
    StableHlo.nullary main_cst_25 (constant S_ .f32 0xC1000000#32),
    StableHlo.unary main_cst_25 main_v101 (broadcastInDim S4000000x12 ![] bcast_S_S4000000x12 : (⟨S_, .f32⟩ : BufTy).Contents (Elt F) → (⟨S4000000x12, .f32⟩ : BufTy).Contents (Elt F)),
    StableHlo.binary main_v101 main_v100 main_v102 (mulf : (⟨S4000000x12, .f32⟩ : BufTy).Contents (Elt F) → (⟨S4000000x12, .f32⟩ : BufTy).Contents (Elt F) → (⟨S4000000x12, .f32⟩ : BufTy).Contents (Elt F)),
    StableHlo.unary main_v102 main_v103 (Host.exp : (⟨S4000000x12, .f32⟩ : BufTy).Contents (Elt F) → (⟨S4000000x12, .f32⟩ : BufTy).Contents (Elt F)),
    StableHlo.nullary main_cst_26 (constant S_ .f32 0x3C000000#32),
    StableHlo.unary main_cst_26 main_v104 (broadcastInDim S4000000 ![] bcast_S_S4000000 : (⟨S_, .f32⟩ : BufTy).Contents (Elt F) → (⟨S4000000, .f32⟩ : BufTy).Contents (Elt F)),
    StableHlo.binary main_v104 main_v71 main_v105 (mulf : (⟨S4000000, .f32⟩ : BufTy).Contents (Elt F) → (⟨S4000000, .f32⟩ : BufTy).Contents (Elt F) → (⟨S4000000, .f32⟩ : BufTy).Contents (Elt F)),
    StableHlo.binary main_v105 main_v78 main_v106 (mulf : (⟨S4000000, .f32⟩ : BufTy).Contents (Elt F) → (⟨S4000000, .f32⟩ : BufTy).Contents (Elt F) → (⟨S4000000, .f32⟩ : BufTy).Contents (Elt F)),
    StableHlo.nullary main_cst_27 (constant S_ .f32 0x40490FDB#32),
    StableHlo.unary main_cst_27 main_v107 (broadcastInDim S4000000 ![] bcast_S_S4000000 : (⟨S_, .f32⟩ : BufTy).Contents (Elt F) → (⟨S4000000, .f32⟩ : BufTy).Contents (Elt F)),
    StableHlo.binary main_v107 main_v57 main_v108 (mulf : (⟨S4000000, .f32⟩ : BufTy).Contents (Elt F) → (⟨S4000000, .f32⟩ : BufTy).Contents (Elt F) → (⟨S4000000, .f32⟩ : BufTy).Contents (Elt F)),
    StableHlo.nullary main_cst_28 (constant S_ .f32 0x40A00000#32),
    StableHlo.unary main_cst_28 main_v109 (broadcastInDim S4000000 ![] bcast_S_S4000000 : (⟨S_, .f32⟩ : BufTy).Contents (Elt F) → (⟨S4000000, .f32⟩ : BufTy).Contents (Elt F)),
    StableHlo.binary main_v108 main_v109 main_v110 (Host.divf : (⟨S4000000, .f32⟩ : BufTy).Contents (Elt F) → (⟨S4000000, .f32⟩ : BufTy).Contents (Elt F) → (⟨S4000000, .f32⟩ : BufTy).Contents (Elt F)),
    StableHlo.unary main_v110 main_v111 (Host.cos : (⟨S4000000, .f32⟩ : BufTy).Contents (Elt F) → (⟨S4000000, .f32⟩ : BufTy).Contents (Elt F)),
    StableHlo.nullary main_cst_29 (constant S_ .f32 0x3F800000#32),
    StableHlo.unary main_cst_29 main_v112 (broadcastInDim S4000000 ![] bcast_S_S4000000 : (⟨S_, .f32⟩ : BufTy).Contents (Elt F) → (⟨S4000000, .f32⟩ : BufTy).Contents (Elt F)),
    StableHlo.binary main_v111 main_v112 main_v113 (addf : (⟨S4000000, .f32⟩ : BufTy).Contents (Elt F) → (⟨S4000000, .f32⟩ : BufTy).Contents (Elt F) → (⟨S4000000, .f32⟩ : BufTy).Contents (Elt F)),
    StableHlo.nullary main_cst_30 (constant S_ .f32 0x3F000000#32),
    StableHlo.unary main_cst_30 main_v114 (broadcastInDim S4000000 ![] bcast_S_S4000000 : (⟨S_, .f32⟩ : BufTy).Contents (Elt F) → (⟨S4000000, .f32⟩ : BufTy).Contents (Elt F)),
    StableHlo.binary main_v114 main_v113 main_v115 (mulf : (⟨S4000000, .f32⟩ : BufTy).Contents (Elt F) → (⟨S4000000, .f32⟩ : BufTy).Contents (Elt F) → (⟨S4000000, .f32⟩ : BufTy).Contents (Elt F)),
    StableHlo.nullary main_cst_31 (constant S_ .f32 0x40A00000#32),
    StableHlo.unary main_cst_31 main_v116 (broadcastInDim S4000000 ![] bcast_S_S4000000 : (⟨S_, .f32⟩ : BufTy).Contents (Elt F) → (⟨S4000000, .f32⟩ : BufTy).Contents (Elt F)),
    StableHlo.binary main_v57 main_v116 main_v117 (cmpf .olt : (⟨S4000000, .f32⟩ : BufTy).Contents (Elt F) → (⟨S4000000, .f32⟩ : BufTy).Contents (Elt F) → (⟨S4000000, .i1⟩ : BufTy).Contents (Elt F)),
    StableHlo.nullary main_cst_32 (constant S_ .f32 0x00000000#32),
    StableHlo.TRef.unary (.of main_cst_32) main_call2.v0 id,
    StableHlo.TRef.unary main_call2.v0 main_call2.v1 (broadcastInDim S4000000 ![] bcast_S_S4000000),
    StableHlo.TRef.ternary (.of main_v117) (.of main_v115) main_call2.v1 main_call2.v2 select,
    StableHlo.binary main_v106 main_v118 main_v119 (mulf : (⟨S4000000, .f32⟩ : BufTy).Contents (Elt F) → (⟨S4000000, .f32⟩ : BufTy).Contents (Elt F) → (⟨S4000000, .f32⟩ : BufTy).Contents (Elt F)),
    StableHlo.nullary main_cst_33 (constant S_ .f32 0x40490FDB#32),
    StableHlo.unary main_cst_33 main_v120 (broadcastInDim S4000000 ![] bcast_S_S4000000 : (⟨S_, .f32⟩ : BufTy).Contents (Elt F) → (⟨S4000000, .f32⟩ : BufTy).Contents (Elt F)),
    StableHlo.binary main_v120 main_v64 main_v121 (mulf : (⟨S4000000, .f32⟩ : BufTy).Contents (Elt F) → (⟨S4000000, .f32⟩ : BufTy).Contents (Elt F) → (⟨S4000000, .f32⟩ : BufTy).Contents (Elt F)),
    StableHlo.nullary main_cst_34 (constant S_ .f32 0x40A00000#32),
    StableHlo.unary main_cst_34 main_v122 (broadcastInDim S4000000 ![] bcast_S_S4000000 : (⟨S_, .f32⟩ : BufTy).Contents (Elt F) → (⟨S4000000, .f32⟩ : BufTy).Contents (Elt F)),
    StableHlo.binary main_v121 main_v122 main_v123 (Host.divf : (⟨S4000000, .f32⟩ : BufTy).Contents (Elt F) → (⟨S4000000, .f32⟩ : BufTy).Contents (Elt F) → (⟨S4000000, .f32⟩ : BufTy).Contents (Elt F)),
    StableHlo.unary main_v123 main_v124 (Host.cos : (⟨S4000000, .f32⟩ : BufTy).Contents (Elt F) → (⟨S4000000, .f32⟩ : BufTy).Contents (Elt F)),
    StableHlo.nullary main_cst_35 (constant S_ .f32 0x3F800000#32),
    StableHlo.unary main_cst_35 main_v125 (broadcastInDim S4000000 ![] bcast_S_S4000000 : (⟨S_, .f32⟩ : BufTy).Contents (Elt F) → (⟨S4000000, .f32⟩ : BufTy).Contents (Elt F)),
    StableHlo.binary main_v124 main_v125 main_v126 (addf : (⟨S4000000, .f32⟩ : BufTy).Contents (Elt F) → (⟨S4000000, .f32⟩ : BufTy).Contents (Elt F) → (⟨S4000000, .f32⟩ : BufTy).Contents (Elt F)),
    StableHlo.nullary main_cst_36 (constant S_ .f32 0x3F000000#32),
    StableHlo.unary main_cst_36 main_v127 (broadcastInDim S4000000 ![] bcast_S_S4000000 : (⟨S_, .f32⟩ : BufTy).Contents (Elt F) → (⟨S4000000, .f32⟩ : BufTy).Contents (Elt F)),
    StableHlo.binary main_v127 main_v126 main_v128 (mulf : (⟨S4000000, .f32⟩ : BufTy).Contents (Elt F) → (⟨S4000000, .f32⟩ : BufTy).Contents (Elt F) → (⟨S4000000, .f32⟩ : BufTy).Contents (Elt F)),
    StableHlo.nullary main_cst_37 (constant S_ .f32 0x40A00000#32),
    StableHlo.unary main_cst_37 main_v129 (broadcastInDim S4000000 ![] bcast_S_S4000000 : (⟨S_, .f32⟩ : BufTy).Contents (Elt F) → (⟨S4000000, .f32⟩ : BufTy).Contents (Elt F)),
    StableHlo.binary main_v64 main_v129 main_v130 (cmpf .olt : (⟨S4000000, .f32⟩ : BufTy).Contents (Elt F) → (⟨S4000000, .f32⟩ : BufTy).Contents (Elt F) → (⟨S4000000, .i1⟩ : BufTy).Contents (Elt F)),
    StableHlo.nullary main_cst_38 (constant S_ .f32 0x00000000#32),
    StableHlo.TRef.unary (.of main_cst_38) main_call3.v0 id,
    StableHlo.TRef.unary main_call3.v0 main_call3.v1 (broadcastInDim S4000000 ![] bcast_S_S4000000),
    StableHlo.TRef.ternary (.of main_v130) (.of main_v128) main_call3.v1 main_call3.v2 select,
    StableHlo.binary main_v119 main_v131 main_v132 (mulf : (⟨S4000000, .f32⟩ : BufTy).Contents (Elt F) → (⟨S4000000, .f32⟩ : BufTy).Contents (Elt F) → (⟨S4000000, .f32⟩ : BufTy).Contents (Elt F)),
    StableHlo.unary main_v132 main_v133 (broadcastInDim S4000000x1x1 ![0] bcast_S4000000_S4000000x1x1_0 : (⟨S4000000, .f32⟩ : BufTy).Contents (Elt F) → (⟨S4000000x1x1, .f32⟩ : BufTy).Contents (Elt F)),
    StableHlo.unary main_v91 main_v134 (broadcastInDim S4000000x2x1 ![0, 1] bcast_S4000000x2_S4000000x2x1_0_1 : (⟨S4000000x2, .f32⟩ : BufTy).Contents (Elt F) → (⟨S4000000x2x1, .f32⟩ : BufTy).Contents (Elt F)),
    StableHlo.unary main_v133 main_v135 (broadcastInDim S4000000x2x1 ![0, 1, 2] bcast_S4000000x1x1_S4000000x2x1_0_1_2 : (⟨S4000000x1x1, .f32⟩ : BufTy).Contents (Elt F) → (⟨S4000000x2x1, .f32⟩ : BufTy).Contents (Elt F)),
    StableHlo.binary main_v135 main_v134 main_v136 (mulf : (⟨S4000000x2x1, .f32⟩ : BufTy).Contents (Elt F) → (⟨S4000000x2x1, .f32⟩ : BufTy).Contents (Elt F) → (⟨S4000000x2x1, .f32⟩ : BufTy).Contents (Elt F)),
    StableHlo.unary main_v103 main_v137 (broadcastInDim S4000000x1x12 ![0, 2] bcast_S4000000x12_S4000000x1x12_0_2 : (⟨S4000000x12, .f32⟩ : BufTy).Contents (Elt F) → (⟨S4000000x1x12, .f32⟩ : BufTy).Contents (Elt F)),
    StableHlo.unary main_v136 main_v138 (broadcastInDim S4000000x2x12 ![0, 1, 2] bcast_S4000000x2x1_S4000000x2x12_0_1_2 : (⟨S4000000x2x1, .f32⟩ : BufTy).Contents (Elt F) → (⟨S4000000x2x12, .f32⟩ : BufTy).Contents (Elt F)) ]

/-- The 12 operations of window main_part3, in order. -/
abbrev ops3 : List (HloOp τ sig (Elt F)) :=
  [ StableHlo.unary main_v137 main_v139 (broadcastInDim S4000000x2x12 ![0, 1, 2] bcast_S4000000x1x12_S4000000x2x12_0_1_2 : (⟨S4000000x1x12, .f32⟩ : BufTy).Contents (Elt F) → (⟨S4000000x2x12, .f32⟩ : BufTy).Contents (Elt F)),
    StableHlo.binary main_v138 main_v139 main_v140 (mulf : (⟨S4000000x2x12, .f32⟩ : BufTy).Contents (Elt F) → (⟨S4000000x2x12, .f32⟩ : BufTy).Contents (Elt F) → (⟨S4000000x2x12, .f32⟩ : BufTy).Contents (Elt F)),
    StableHlo.reshape main_v140 main_v141 rfl shapeCasts_S4000000x2x12_S4000000x24,
    StableHlo.nullary main_cst_39 (constant S_ .f32 0x00000000#32),
    StableHlo.unary main_cst_39 main_v142 (broadcastInDim S50000x24 ![] bcast_S_S50000x24 : (⟨S_, .f32⟩ : BufTy).Contents (Elt F) → (⟨S50000x24, .f32⟩ : BufTy).Contents (Elt F)),
    StableHlo.unary main_arg4 main_v143 (broadcastInDim S4000000x1 ![0] bcast_S4000000_S4000000x1_0 : (⟨S4000000, .i32⟩ : BufTy).Contents (Elt F) → (⟨S4000000x1, .i32⟩ : BufTy).Contents (Elt F)),
    StableHlo.ternary main_v142 main_v143 main_v141 main_v144 ((fun x i u => Host.scatterAdd scatter_S50000x24_S4000000x1_S4000000x24_1_0_0_1 x i u) : (⟨S50000x24, .f32⟩ : BufTy).Contents (Elt F) → (⟨S4000000x1, .i32⟩ : BufTy).Contents (Elt F) → (⟨S4000000x24, .f32⟩ : BufTy).Contents (Elt F) → (⟨S50000x24, .f32⟩ : BufTy).Contents (Elt F)),
    StableHlo.binary main_v36 main_v144 main_v145 ((fun a b => concatenate S50000x56 1 [⟨S50000x32, a⟩, ⟨S50000x24, b⟩] concatenates_S50000x32_S50000x24_S50000x56_d1) : (⟨S50000x32, .f32⟩ : BufTy).Contents (Elt F) → (⟨S50000x24, .f32⟩ : BufTy).Contents (Elt F) → (⟨S50000x56, .f32⟩ : BufTy).Contents (Elt F)),
    StableHlo.unary main_arg9 main_v146 (broadcastInDim S50000x56 ![0, 1] bcast_S1x56_S50000x56_0_1 : (⟨S1x56, .f32⟩ : BufTy).Contents (Elt F) → (⟨S50000x56, .f32⟩ : BufTy).Contents (Elt F)),
    StableHlo.binary main_v145 main_v146 main_v147 (subf : (⟨S50000x56, .f32⟩ : BufTy).Contents (Elt F) → (⟨S50000x56, .f32⟩ : BufTy).Contents (Elt F) → (⟨S50000x56, .f32⟩ : BufTy).Contents (Elt F)),
    StableHlo.unary main_arg10 main_v148 (broadcastInDim S50000x56 ![0, 1] bcast_S1x56_S50000x56_0_1 : (⟨S1x56, .f32⟩ : BufTy).Contents (Elt F) → (⟨S50000x56, .f32⟩ : BufTy).Contents (Elt F)),
    StableHlo.binary main_v147 main_v148 main_v149 (Host.divf : (⟨S50000x56, .f32⟩ : BufTy).Contents (Elt F) → (⟨S50000x56, .f32⟩ : BufTy).Contents (Elt F) → (⟨S50000x56, .f32⟩ : BufTy).Contents (Elt F)) ]

/-- Every operation of @main, in order: the windows one after the other (201 operations). -/
abbrev ops : List (HloOp τ sig (Elt F)) := ops0 ++ (ops1 ++ (ops2 ++ (ops3)))

end Cert.ReferenceIdeal.Hand

end
-- ==== Proof.RefStages.lean ====
/-
  The reference function, stage by stage. Each definition below is one array of the reference program as a
  function of the program's argument arrays only, built from the same operations, in the same operand order,
  as the program's own lines. The stages:

  * an index array normalised into its range (a negative index counts from the end), as a one-column array;
  * the neighbour charge of every pair, gathered from the integer charges read as floats;
  * the length of every pair vector, the square root of the sum of the squares of its three components;
  * the cosine cutoff of a length, `½ (cos(π d / 5) + 1)` below `5` and `0` from it on;
  * the radial array `exp(-4 (d - μ)²) · (f(d) · z)`, pairs by centres;
  * the angular array `(2⁻⁷ za zb f(da) f(db) · (1 + λ cos θ)⁸) · exp(-8 (½ (da + db) - μ)²)`, laid out triples by
    (sign, centre) and then read as triples by twenty-four columns;
  * the tail: both arrays summed into their atoms' rows, the two sums side by side, shifted and scaled column by column.
-/
import proofs.«133981_j1932735284042_1_alg».proof.Proof.Gen.ReferenceIdeal

noncomputable section

namespace Cert.ReferenceIdeal.Stages

open Idealize.ShloMosaic Cert.ReferenceIdeal Cert.ReferenceIdeal.Facts₀

variable {F : FTy → Type} [FloatOps F]

/-! ## Indices -/

/-- A pair's neighbour index normalised into `[0, 50000)`: a negative index has `50000` added. As one column. -/
def nrm50k (a3 : IVec S2000000 32) : IVec S2000000x1 32 :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 50000#32)))
      a3)

/-- A triple's pair index normalised into `[0, 2000000)`: a negative index has `2000000` added. As one column. -/
def nrm2m (a : IVec S4000000 32) : IVec S4000000x1 32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 2000000#32)))
      a)

/-! ## Charges and lengths -/

/-- The atoms' integer charges as floats. -/
def zf (a0 : IVec S50000 32) : FVec F S50000 .f32 := sitofp .f32 a0

/-- The charge of every pair's neighbour. -/
def zj (a0 : IVec S50000 32) (a3 : IVec S2000000 32) : FVec F S2000000 .f32 :=
  (fun x i => Host.gather gather_S50000_S2000000x1_S2000000_n_0_n_n_0_1_1 x i) (zf a0) (nrm50k a3)

/-- The sum of the squares of every pair vector's three components. -/
def sqsum (a1 : FVec F S2000000x3 .f32) : FVec F S2000000 .f32 :=
  (fun x v => Host.reduceAdd x v reducesTo_S2000000x3_S2000000_d1 h_S_) (mulf a1 a1) (constant S_ .f32 0x00000000#32)

/-- The length of every pair vector. -/
def dref (a1 : FVec F S2000000x3 .f32) : FVec F S2000000 .f32 := Host.sqrt (sqsum a1)

/-! ## The cosine cutoff -/

/-- `½ (cos(π d / 5) + 1)`, over the pairs. -/
def fcos (d : FVec F S2000000 .f32) : FVec F S2000000 .f32 :=
  mulf (broadcastInDim S2000000 ![] bcast_S_S2000000 (constant S_ .f32 0x3F000000#32))
    (addf
      (Host.cos
        (Host.divf (mulf (broadcastInDim S2000000 ![] bcast_S_S2000000 (constant S_ .f32 0x40490FDB#32)) d)
          (broadcastInDim S2000000 ![] bcast_S_S2000000 (constant S_ .f32 0x40A00000#32))))
      (broadcastInDim S2000000 ![] bcast_S_S2000000 (constant S_ .f32 0x3F800000#32)))

/-- The cutoff of a length, over the pairs: `fcos` where `d < 5`, zero elsewhere. -/
def fcutRef (d : FVec F S2000000 .f32) : FVec F S2000000 .f32 :=
  select (cmpf .olt d (broadcastInDim S2000000 ![] bcast_S_S2000000 (constant S_ .f32 0x40A00000#32))) (fcos d)
    (broadcastInDim S2000000 ![] bcast_S_S2000000 (id (constant S_ .f32 0x00000000#32)))

/-- `½ (cos(π d / 5) + 1)`, over the triples. -/
def fcos4 (d : FVec F S4000000 .f32) : FVec F S4000000 .f32 :=
  mulf (broadcastInDim S4000000 ![] bcast_S_S4000000 (constant S_ .f32 0x3F000000#32))
    (addf
      (Host.cos
        (Host.divf (mulf (broadcastInDim S4000000 ![] bcast_S_S4000000 (constant S_ .f32 0x40490FDB#32)) d)
          (broadcastInDim S4000000 ![] bcast_S_S4000000 (constant S_ .f32 0x40A00000#32))))
      (broadcastInDim S4000000 ![] bcast_S_S4000000 (constant S_ .f32 0x3F800000#32)))

/-- The cutoff of a length, over the triples. -/
def fcutRef4 (d : FVec F S4000000 .f32) : FVec F S4000000 .f32 :=
  select (cmpf .olt d (broadcastInDim S4000000 ![] bcast_S_S4000000 (constant S_ .f32 0x40A00000#32))) (fcos4 d)
    (broadcastInDim S4000000 ![] bcast_S_S4000000 (id (constant S_ .f32 0x00000000#32)))

/-! ## The radial array -/

/-- `d - μ`, pairs by centres. -/
def rdiff (d : FVec F S2000000 .f32) (a7 : FVec F S32 .f32) : FVec F S2000000x32 .f32 :=
  subf
    (broadcastInDim S2000000x32 ![0, 1] bcast_S2000000x1_S2000000x32_0_1
      (broadcastInDim S2000000x1 ![0] bcast_S2000000_S2000000x1_0 d))
    (broadcastInDim S2000000x32 ![0, 1] bcast_S1x32_S2000000x32_0_1 (broadcastInDim S1x32 ![1] bcast_S32_S1x32_1 a7))

/-- `exp(-4 (d - μ)²)`, pairs by centres. -/
def gaussRef (d : FVec F S2000000 .f32) (a7 : FVec F S32 .f32) : FVec F S2000000x32 .f32 :=
  Host.exp
    (mulf (broadcastInDim S2000000x32 ![] bcast_S_S2000000x32 (constant S_ .f32 0xC0800000#32))
      (mulf (rdiff d a7) (rdiff d a7)))

/-- `f(d) · z`, one per pair. -/
def wRef (d z : FVec F S2000000 .f32) : FVec F S2000000 .f32 := mulf (fcutRef d) z

/-- The radial array from the lengths, the neighbour charges and the centres. -/
def radOf (d z : FVec F S2000000 .f32) (a7 : FVec F S32 .f32) : FVec F S2000000x32 .f32 :=
  mulf (gaussRef d a7)
    (broadcastInDim S2000000x32 ![0, 1] bcast_S2000000x1_S2000000x32_0_1
      (broadcastInDim S2000000x1 ![0] bcast_S2000000_S2000000x1_0 (wRef d z)))

/-- The radial array of the reference. -/
def radRef (a0 : IVec S50000 32) (a1 : FVec F S2000000x3 .f32) (a3 : IVec S2000000 32) (a7 : FVec F S32 .f32) :
    FVec F S2000000x32 .f32 :=
  radOf (dref a1) (zj a0 a3) a7

/-! ## The angular array -/

/-- `cos θ` of every triple: the scalar product of its two pair vectors over the product of their lengths. -/
def cosRef (ra rb : FVec F S4000000x3 .f32) (da db : FVec F S4000000 .f32) : FVec F S4000000 .f32 :=
  Host.divf
    ((fun x v => Host.reduceAdd x v reducesTo_S4000000x3_S4000000_d1 h_S_) (mulf ra rb) (constant S_ .f32 0x00000000#32))
    (mulf da db)

/-- The two signs `λ = 1, -1`. -/
def lamRef : FVec F S2 .f32 := fun i => FloatOps.ofBits .f32 (lit0 (S2.rowMajor i))

/-- `(1 + λ cos θ)⁸`, triples by signs. -/
def powRef (c : FVec F S4000000 .f32) : FVec F S4000000x2 .f32 :=
  Host.powf
    (addf (broadcastInDim S4000000x2 ![] bcast_S_S4000000x2 (constant S_ .f32 0x3F800000#32))
      (mulf
        (broadcastInDim S4000000x2 ![0, 1] bcast_S1x2_S4000000x2_0_1 (broadcastInDim S1x2 ![1] bcast_S2_S1x2_1 lamRef))
        (broadcastInDim S4000000x2 ![0, 1] bcast_S4000000x1_S4000000x2_0_1
          (broadcastInDim S4000000x1 ![0] bcast_S4000000_S4000000x1_0 c))))
    (broadcastInDim S4000000x2 ![] bcast_S_S4000000x2 (constant S_ .f32 0x41000000#32))

/-- `½ (da + db) - μ`, triples by centres. -/
def adiff (da db : FVec F S4000000 .f32) (a8 : FVec F S12 .f32) : FVec F S4000000x12 .f32 :=
  subf
    (broadcastInDim S4000000x12 ![0, 1] bcast_S4000000x1_S4000000x12_0_1
      (mulf (broadcastInDim S4000000x1 ![] bcast_S_S4000000x1 (constant S_ .f32 0x3F000000#32))
        (broadcastInDim S4000000x1 ![0] bcast_S4000000_S4000000x1_0 (addf da db))))
    (broadcastInDim S4000000x12 ![0, 1] bcast_S1x12_S4000000x12_0_1 (broadcastInDim S1x12 ![1] bcast_S12_S1x12_1 a8))

/-- `exp(-8 (½ (da + db) - μ)²)`, triples by centres. -/
def gaussARef (da db : FVec F S4000000 .f32) (a8 : FVec F S12 .f32) : FVec F S4000000x12 .f32 :=
  Host.exp
    (mulf (broadcastInDim S4000000x12 ![] bcast_S_S4000000x12 (constant S_ .f32 0xC1000000#32))
      (mulf (adiff da db a8) (adiff da db a8)))

/-- `2⁻⁷ za zb f(da) f(db)`, one per triple, the product taken from the left. -/
def prefRef (za zb da db : FVec F S4000000 .f32) : FVec F S4000000 .f32 :=
  mulf
    (mulf (mulf (mulf (broadcastInDim S4000000 ![] bcast_S_S4000000 (constant S_ .f32 0x3C000000#32)) za) zb)
      (fcutRef4 da))
    (fcutRef4 db)

/-- The angular array as triples by signs by centres. -/
def ang3Of (ra rb : FVec F S4000000x3 .f32) (da db za zb : FVec F S4000000 .f32) (a8 : FVec F S12 .f32) :
    FVec F S4000000x2x12 .f32 :=
  mulf
    (broadcastInDim S4000000x2x12 ![0, 1, 2] bcast_S4000000x2x1_S4000000x2x12_0_1_2
      (mulf
        (broadcastInDim S4000000x2x1 ![0, 1, 2] bcast_S4000000x1x1_S4000000x2x1_0_1_2
          (broadcastInDim S4000000x1x1 ![0] bcast_S4000000_S4000000x1x1_0 (prefRef za zb da db)))
        (broadcastInDim S4000000x2x1 ![0, 1] bcast_S4000000x2_S4000000x2x1_0_1 (powRef (cosRef ra rb da db)))))
    (broadcastInDim S4000000x2x12 ![0, 1, 2] bcast_S4000000x1x12_S4000000x2x12_0_1_2
      (broadcastInDim S4000000x1x12 ![0, 2] bcast_S4000000x12_S4000000x1x12_0_2 (gaussARef da db a8)))

/-- The angular array as triples by twenty-four columns: the same elements in row-major order. -/
def angOf (ra rb : FVec F S4000000x3 .f32) (da db za zb : FVec F S4000000 .f32) (a8 : FVec F S12 .f32) :
    FVec F S4000000x24 .f32 :=
  fun i => shapeCast S4000000x24 (ang3Of ra rb da db za zb a8) shapeCasts_S4000000x2x12_S4000000x24 i

/-- The angular array of the reference: the two pair vectors, their lengths and their neighbour charges gathered per
    triple. -/
def angRef (a0 : IVec S50000 32) (a1 : FVec F S2000000x3 .f32) (a3 : IVec S2000000 32) (a5 a6 : IVec S4000000 32)
    (a8 : FVec F S12 .f32) : FVec F S4000000x24 .f32 :=
  angOf
    ((fun x i => Host.gather gather_S2000000x3_S4000000x1_S4000000x3_1_0_n_n_0_1_13 x i) a1 (nrm2m a5))
    ((fun x i => Host.gather gather_S2000000x3_S4000000x1_S4000000x3_1_0_n_n_0_1_13 x i) a1 (nrm2m a6))
    ((fun x i => Host.gather gather_S2000000_S4000000x1_S4000000_n_0_n_n_0_1_1 x i) (dref a1) (nrm2m a5))
    ((fun x i => Host.gather gather_S2000000_S4000000x1_S4000000_n_0_n_n_0_1_1 x i) (dref a1) (nrm2m a6))
    ((fun x i => Host.gather gather_S2000000_S4000000x1_S4000000_n_0_n_n_0_1_1 x i) (zj a0 a3) (nrm2m a5))
    ((fun x i => Host.gather gather_S2000000_S4000000x1_S4000000_n_0_n_n_0_1_1 x i) (zj a0 a3) (nrm2m a6))
    a8

/-! ## The tail -/

/-- The radial array summed into its atoms' rows. -/
def radSum (rad : FVec F S2000000x32 .f32) (a2 : IVec S2000000 32) : FVec F S50000x32 .f32 :=
  (fun x i u => Host.scatterAdd scatter_S50000x32_S2000000x1_S2000000x32_1_0_0_1 x i u)
    (broadcastInDim S50000x32 ![] bcast_S_S50000x32 (constant S_ .f32 0x00000000#32))
    (broadcastInDim S2000000x1 ![0] bcast_S2000000_S2000000x1_0 a2) rad

/-- The angular array summed into its atoms' rows. -/
def angSum (ang : FVec F S4000000x24 .f32) (a4 : IVec S4000000 32) : FVec F S50000x24 .f32 :=
  (fun x i u => Host.scatterAdd scatter_S50000x24_S4000000x1_S4000000x24_1_0_0_1 x i u)
    (broadcastInDim S50000x24 ![] bcast_S_S50000x24 (constant S_ .f32 0x00000000#32))
    (broadcastInDim S4000000x1 ![0] bcast_S4000000_S4000000x1_0 a4) ang

/-- The result: the two sums side by side, minus the column means, over the column deviations. -/
def tailRef (rad : FVec F S2000000x32 .f32) (ang : FVec F S4000000x24 .f32) (a2 : IVec S2000000 32)
    (a4 : IVec S4000000 32) (a9 a10 : FVec F S1x56 .f32) : FVec F S50000x56 .f32 :=
  Host.divf
    (subf
      ((fun a b => concatenate S50000x56 1 [⟨S50000x32, a⟩, ⟨S50000x24, b⟩] concatenates_S50000x32_S50000x24_S50000x56_d1)
        (radSum rad a2) (angSum ang a4))
      (broadcastInDim S50000x56 ![0, 1] bcast_S1x56_S50000x56_0_1 a9))
    (broadcastInDim S50000x56 ![0, 1] bcast_S1x56_S50000x56_0_1 a10)

end Cert.ReferenceIdeal.Stages

end
-- ==== Proof.RefRun.lean ====
/-
  The reference program's run, read back.

  The reference is a straight line of array operations: no kernel, no loop, no branch. Its @main is printed in four
  windows and calls three small functions (the length of a row vector; a select against a broadcast scalar, at two
  sizes); with each called function's operations standing in its call's place, @main is one list of 201 operations,
  each writing one buffer of its own from buffers written earlier or from the arguments.

  * main_eq: @main IS that list run in order. Each window is its own list by computation (a called function's body
    unfolds at the call, and sequencing reassociates); the windows run one after the other are the concatenation.
  * run_fold: hence every execution terminates, and every buffer ends at the fold of the operations' results over the
    launch contents: each operation rewrites the one buffer it writes and leaves the rest.
  * frame: no operation writes an argument array (each writes its own result, a different buffer), so the eleven
    arguments end as they began.
  * rad_eq, ang_eq, result_eq: the fold read at three buffers. The staged definitions of the reference (the radial array,
    the angular array, the tail) are built from the program's own operations in the program's operand order, so with
    every operation's result replaced by its function of its operands' contents the fold at the buffer IS the staged
    term over the argument arrays. The result buffer's last window is read on its own, from any contents, because its
    concatenation holds its two operands in a list; the two operands (the row sums) are read over the whole program.
-/
import proofs.«133981_j1932735284042_1_alg».proof.Proof.RefOps
import proofs.«133981_j1932735284042_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations -/

set_option maxRecDepth 8192 in
set_option maxHeartbeats 4000000 in
/-- The first window is its operations in order: the two called functions' bodies unfold at their calls and the
    sequencing reassociates by computation. -/
theorem part0_eq (c : Dev nD) : main_part0 (F := F) c = seq ops0 := rfl

set_option maxRecDepth 8192 in
set_option maxHeartbeats 4000000 in
theorem part1_eq (c : Dev nD) : main_part1 (F := F) c = seq ops1 := rfl

set_option maxRecDepth 8192 in
set_option maxHeartbeats 4000000 in
theorem part2_eq (c : Dev nD) : main_part2 (F := F) c = seq ops2 := rfl

set_option maxRecDepth 8192 in
set_option maxHeartbeats 4000000 in
theorem part3_eq (c : Dev nD) : main_part3 (F := F) c = seq ops3 := rfl

/-- @main runs its four windows in order, and a line of operations run after another is their concatenation run
    as one. -/
theorem main_eq (c : Dev nD) : main (F := F) c = seq ops := by
  simp only [ops, seq_append, ← part0_eq c, ← part1_eq c, ← part2_eq c, ← part3_eq c]
  rfl

/-! ## What the run's statement asks of the operations -/

theorem scopedRefs_eq : (Finset.univ.filter fun b : Ref sig .tc => b.isScoped) = ∅ := by decide
theorem scopedSems_eq : (Finset.univ.filter fun sm : SemLoc sig => sm.isScoped .tc) = ∅ := by decide

/-- Every buffer a window's operations touch is a TensorCore reference: each builder's own fact, operation by
    operation. -/
theorem ops0_sub : (ops0 : List (HloOp τ sig (Elt F))).Forall fun op => op.bufs ⊆ tcRefs τ sig := by
  simp only [ops0, List.forall_cons, List.Forall, nullary_bufs_sub, unary_bufs_sub, binary_bufs_sub, ternary_bufs_sub,
    reshape_bufs_sub, and_self]
theorem ops1_sub : (ops1 : List (HloOp τ sig (Elt F))).Forall fun op => op.bufs ⊆ tcRefs τ sig := by
  simp only [ops1, List.forall_cons, List.Forall, nullary_bufs_sub, unary_bufs_sub, binary_bufs_sub, ternary_bufs_sub,
    reshape_bufs_sub, and_self]
theorem ops2_sub : (ops2 : List (HloOp τ sig (Elt F))).Forall fun op => op.bufs ⊆ tcRefs τ sig := by
  simp only [ops2, List.forall_cons, List.Forall, nullary_bufs_sub, unary_bufs_sub, binary_bufs_sub, ternary_bufs_sub,
    reshape_bufs_sub, and_self]
theorem ops3_sub : (ops3 : List (HloOp τ sig (Elt F))).Forall fun op => op.bufs ⊆ tcRefs τ sig := by
  simp only [ops3, List.forall_cons, List.Forall, nullary_bufs_sub, unary_bufs_sub, binary_bufs_sub, ternary_bufs_sub,
    reshape_bufs_sub, and_self]

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

/-- Every operation of a window determines its results (none allocates): by computation, operation by operation. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h
  exacts [ops0_fresh op h, ops1_fresh op h, ops2_fresh op h, ops3_fresh op h]

/-! ## The run -/

/-- On the one device, for any float values, from any memory with zero counters: every weakly fair execution of
    @main terminates, and every final state has each buffer at the fold of the operations' results over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are left as found -/

/-- Two lines run one after the other fold as the second over the first's fold. -/
theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

/-- The fold of all of @main, window after window. -/
theorem after_ops (V : Valuation τ sig (Elt F)) :
    after ops V = after ops3 (after ops2 (after ops1 (after ops0 V))) := by
  simp only [ops, after_app]

/-- The first valuation holds the eleven argument arrays of @main as the second does. -/
structure ArgsAs (W V : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)

theorem ArgsAs.trans {X W V : Valuation τ sig (Elt F)} (h₂ : ArgsAs X W) (h₁ : ArgsAs W V) : ArgsAs X V :=
  ⟨h₂.a0.trans h₁.a0, h₂.a1.trans h₁.a1, h₂.a2.trans h₁.a2, h₂.a3.trans h₁.a3, h₂.a4.trans h₁.a4, h₂.a5.trans h₁.a5,
    h₂.a6.trans h₁.a6, h₂.a7.trans h₁.a7, h₂.a8.trans h₁.a8, h₂.a9.trans h₁.a9, h₂.a10.trans h₁.a10⟩

set_option maxRecDepth 8192 in
set_option maxHeartbeats 4000000 in
/-- No operation of a window writes an argument of @main: each writes its own result, a different reference. -/
theorem keep0 (V : Valuation τ sig (Elt F)) : ArgsAs (after ops0 V) V := by
  constructor <;> after_results_simp
set_option maxRecDepth 8192 in
set_option maxHeartbeats 4000000 in
theorem keep1 (V : Valuation τ sig (Elt F)) : ArgsAs (after ops1 V) V := by
  constructor <;> after_results_simp
set_option maxRecDepth 8192 in
set_option maxHeartbeats 4000000 in
theorem keep2 (V : Valuation τ sig (Elt F)) : ArgsAs (after ops2 V) V := by
  constructor <;> after_results_simp
set_option maxRecDepth 8192 in
set_option maxHeartbeats 4000000 in
theorem keep3 (V : Valuation τ sig (Elt F)) : ArgsAs (after ops3 V) V := by
  constructor <;> after_results_simp

/-- All of @main leaves its arguments as it found them. -/
theorem args_keep (V : Valuation τ sig (Elt F)) : ArgsAs (after ops V) V := by
  rw [after_ops]
  exact (keep3 _).trans ((keep2 _).trans ((keep1 _).trans (keep0 V)))

/-- @main runs (terminates, no fault) and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      have k := args_keep (launchContents m c)
      ⟨(h c main_arg0).trans k.a0, (h c main_arg1).trans k.a1, (h c main_arg2).trans k.a2, (h c main_arg3).trans k.a3,
        (h c main_arg4).trans k.a4, (h c main_arg5).trans k.a5, (h c main_arg6).trans k.a6, (h c main_arg7).trans k.a7,
        (h c main_arg8).trans k.a8, (h c main_arg9).trans k.a9, (h c main_arg10).trans k.a10⟩)
    (run_fold m ρ)

/-! ## The results read back

Each staged definition is built from the program's own operations in the program's operand order, so the fold at a
result buffer, with every operation's result replaced by its function of its operands' contents, is the staged
definition's own term over the argument arrays. -/

set_option maxRecDepth 8192 in
set_option maxHeartbeats 4000000 in
/-- The radial array: the buffer of the product of the Gaussian in the pair length and the cutoff-weighted charge. -/
theorem rad_eq (V : Valuation τ sig (Elt F)) :
    after ops V (Proc.devRef .tc main_v33)
      = Stages.radRef (F := F) (V (Proc.devRef .tc main_arg0)) (V (Proc.devRef .tc main_arg1))
          (V (Proc.devRef .tc main_arg3)) (V (Proc.devRef .tc main_arg7)) := by
  simp only [after_ops]
  after_results_simp
  rfl

set_option maxRecDepth 8192 in
set_option maxHeartbeats 4000000 in
/-- The angular array: the buffer of the reshaped product over triples, signs and centres. -/
theorem ang_eq (V : Valuation τ sig (Elt F)) :
    after ops V (Proc.devRef .tc main_v141)
      = Stages.angRef (F := F) (V (Proc.devRef .tc main_arg0)) (V (Proc.devRef .tc main_arg1))
          (V (Proc.devRef .tc main_arg3)) (V (Proc.devRef .tc main_arg5)) (V (Proc.devRef .tc main_arg6))
          (V (Proc.devRef .tc main_arg8)) := by
  simp only [after_ops]
  after_results_simp
  rfl

set_option maxRecDepth 8192 in
set_option maxHeartbeats 4000000 in
/-- The radial array summed into its atoms' rows: the buffer the first scatter-add writes. -/
theorem radSum_eq (V : Valuation τ sig (Elt F)) :
    after ops V (Proc.devRef .tc main_v36)
      = Stages.radSum (F := F)
          (Stages.radRef (F := F) (V (Proc.devRef .tc main_arg0)) (V (Proc.devRef .tc main_arg1))
            (V (Proc.devRef .tc main_arg3)) (V (Proc.devRef .tc main_arg7)))
          (V (Proc.devRef .tc main_arg2)) := by
  simp only [after_ops]
  after_results_simp
  rfl

set_option maxRecDepth 8192 in
set_option maxHeartbeats 4000000 in
/-- The angular array summed into its atoms' rows: the buffer the second scatter-add writes. -/
theorem angSum_eq (V : Valuation τ sig (Elt F)) :
    after ops V (Proc.devRef .tc main_v144)
      = Stages.angSum (F := F)
          (Stages.angRef (F := F) (V (Proc.devRef .tc main_arg0)) (V (Proc.devRef .tc main_arg1))
            (V (Proc.devRef .tc main_arg3)) (V (Proc.devRef .tc main_arg5)) (V (Proc.devRef .tc main_arg6))
            (V (Proc.devRef .tc main_arg8)))
          (V (Proc.devRef .tc main_arg4)) := by
  simp only [after_ops]
  after_results_simp
  rfl

/-- Two arrays of row sums side by side, minus the column means, over the column deviations. -/
def tailOf (s32 : FVec F S50000x32 .f32) (s24 : FVec F S50000x24 .f32) (a9 a10 : FVec F S1x56 .f32) :
    FVec F S50000x56 .f32 :=
  Host.divf
    (subf
      ((fun a b => concatenate S50000x56 1 [⟨S50000x32, a⟩, ⟨S50000x24, b⟩] concatenates_S50000x32_S50000x24_S50000x56_d1)
        s32 s24)
      (broadcastInDim S50000x56 ![0, 1] bcast_S1x56_S50000x56_0_1 a9))
    (broadcastInDim S50000x56 ![0, 1] bcast_S1x56_S50000x56_0_1 a10)

set_option maxRecDepth 8192 in
set_option maxHeartbeats 4000000 in
/-- The last window, from any contents: the result buffer is the two sums' buffers side by side, shifted and scaled
    by the last two arguments (each operation's result rewritten at its own buffer, also inside the list of the
    concatenation's operands). -/
theorem last_eq (W : Valuation τ sig (Elt F)) :
    after ops3 W (Proc.devRef .tc main_v149)
      = tailOf (F := F) (after ops3 W (Proc.devRef .tc main_v36)) (after ops3 W (Proc.devRef .tc main_v144))
          (after ops3 W (Proc.devRef .tc main_arg9)) (after ops3 W (Proc.devRef .tc main_arg10)) := by
  after_results
  rfl

/-- The result: the staged tail of the staged radial and angular arrays. -/
theorem result_eq (V : Valuation τ sig (Elt F)) :
    after ops V (Proc.devRef .tc main_v149)
      = Stages.tailRef (F := F)
          (Stages.radRef (F := F) (V (Proc.devRef .tc main_arg0)) (V (Proc.devRef .tc main_arg1))
            (V (Proc.devRef .tc main_arg3)) (V (Proc.devRef .tc main_arg7)))
          (Stages.angRef (F := F) (V (Proc.devRef .tc main_arg0)) (V (Proc.devRef .tc main_arg1))
            (V (Proc.devRef .tc main_arg3)) (V (Proc.devRef .tc main_arg5)) (V (Proc.devRef .tc main_arg6))
            (V (Proc.devRef .tc main_arg8)))
          (V (Proc.devRef .tc main_arg2)) (V (Proc.devRef .tc main_arg4))
          (V (Proc.devRef .tc main_arg9)) (V (Proc.devRef .tc main_arg10)) := by
  have h := last_eq (after ops2 (after ops1 (after ops0 V)))
  rw [← after_ops V] at h
  rw [h, radSum_eq V, angSum_eq V, (args_keep V).a9, (args_keep V).a10]
  rfl

end Cert.ReferenceIdeal.Hand

end
-- ==== Proof.RefValue.lean ====
/-
  The reference's two value stages read element by element, over the extended reals.

  Every array operation of the stages is read at a symbolic index: an elementwise operation is the scalar operation on the
  operands' elements, a broadcast reads its operand at the index with the broadcast coordinates dropped, the reshape of
  `[T, 2, 12]` to `[T, 24]` reads column `q` at sign `q / 12` and centre `q % 12`, and a sum over three components
  from the initial value `0` is the three-term sum.

  Radial: the reference forms `exp((-4) · ((d - μ) · (d - μ))) · (f(d) · z)`, the shared entry groups the exponent as
  `((-4) · (d - μ)) · (d - μ)`: multiplication of extended reals is associative.

  Angular: the reference raises `1 + λ · cos θ` to the power `8` with `λ = 1` in the first twelve columns and `λ = -1` in
  the last twelve. Where the two pair vectors have real components and the two lengths are real and not zero, `cos θ` is a
  real number `r`, the base is the real `1 + r` or `1 - r`, and the real power `x ^ 8` is the eighth power by three
  squarings. The exponent `exp((-8) · (x · x))` is regrouped as for the radial array.
-/
import proofs.«133981_j1932735284042_1_alg».proof.Proof.Spec
import proofs.«133981_j1932735284042_1_alg».proof.Proof.RefStages
import Idealize.ShloMosaic.Lib.IdealHost
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Stages

/-! ## The words' values -/

theorem lit_neg_one : Ideal.ofBits .f32 0xBF800000#32 = -1 := by
  have h : Ideal.ofBits .f32 0xBF800000#32 = ((-1 : ℝ) : EReal) := by
    simp [Ideal.ofBits, Ideal.ieee, -EReal.coe_mul, -EReal.coe_neg]; norm_num
  rw [h, EReal.coe_neg, EReal.coe_one]

theorem lit_eight : Ideal.ofBits .f32 0x41000000#32 = ((8 : ℝ) : EReal) := by
  simp [Ideal.ofBits, Ideal.ieee, -EReal.coe_mul]; norm_num

/-! ## Broadcasts read at an index -/

section Broadcasts

variable {α : Type}

/-- A vector as one column: row `p` reads element `p`. -/
theorem bc_col {n : Nat} (h : (⟨1, ![n]⟩ : Shape).BroadcastsInDim ⟨2, ![n, 1]⟩ ![0])
    (x : (⟨1, ![n]⟩ : Shape).Idx → α) (p : Fin n) (q : Fin 1) :
    broadcastInDim ⟨2, ![n, 1]⟩ ![0] h x (ix2 p q) = x (ix1 p) :=
  broadcastInDim_apply _ _ _ _ _ (by
    intro a; fin_cases a
    show p.val = if n = 1 then 0 else p.val
    split_ifs with h1
    · have := p.isLt; omega
    · rfl)

/-- One column repeated along the rows' length: entry `(p, j)` reads row `p` of the column. -/
theorem bc_wide {n m : Nat} (h : (⟨2, ![n, 1]⟩ : Shape).BroadcastsInDim ⟨2, ![n, m]⟩ ![0, 1])
    (x : (⟨2, ![n, 1]⟩ : Shape).Idx → α) (p : Fin n) (j : Fin m) :
    broadcastInDim ⟨2, ![n, m]⟩ ![0, 1] h x (ix2 p j) = x (ix2 p 0) :=
  broadcastInDim_apply _ _ _ _ _ (by
    intro a; fin_cases a
    · show p.val = if n = 1 then 0 else p.val
      split_ifs with h1
      · have := p.isLt; omega
      · rfl
    · rfl)

/-- A vector as one row: column `j` reads element `j`. -/
theorem bc_row {m : Nat} (h : (⟨1, ![m]⟩ : Shape).BroadcastsInDim ⟨2, ![1, m]⟩ ![1])
    (x : (⟨1, ![m]⟩ : Shape).Idx → α) (q : Fin 1) (j : Fin m) :
    broadcastInDim ⟨2, ![1, m]⟩ ![1] h x (ix2 q j) = x (ix1 j) :=
  broadcastInDim_apply _ _ _ _ _ (by
    intro a; fin_cases a
    show j.val = if m = 1 then 0 else j.val
    split_ifs with h1
    · have := j.isLt; omega
    · rfl)

/-- One row repeated down the columns: entry `(p, j)` reads column `j` of the row. -/
theorem bc_tall {n m : Nat} (h : (⟨2, ![1, m]⟩ : Shape).BroadcastsInDim ⟨2, ![n, m]⟩ ![0, 1])
    (x : (⟨2, ![1, m]⟩ : Shape).Idx → α) (p : Fin n) (j : Fin m) :
    broadcastInDim ⟨2, ![n, m]⟩ ![0, 1] h x (ix2 p j) = x (ix2 0 j) :=
  broadcastInDim_apply _ _ _ _ _ (by
    intro a; fin_cases a
    · rfl
    · show j.val = if m = 1 then 0 else j.val
      split_ifs with h1
      · have := j.isLt; omega
      · rfl)

/-- A vector over the triples as `[T, 1, 1]`. -/
theorem bc3_a (h : S4000000.BroadcastsInDim S4000000x1x1 ![0]) (x : S4000000.Idx → α) (t : Fin 4000000) (u v : Fin 1) :
    broadcastInDim S4000000x1x1 ![0] h x (ix3 t u v) = x (ix1 t) :=
  broadcastInDim_apply _ _ _ _ _ (by intro a; fin_cases a <;> rfl)

/-- `[T, 1, 1]` repeated along the middle axis. -/
theorem bc3_b (h : S4000000x1x1.BroadcastsInDim S4000000x2x1 ![0, 1, 2]) (x : S4000000x1x1.Idx → α) (t : Fin 4000000)
    (l : Fin 2) (v : Fin 1) : broadcastInDim S4000000x2x1 ![0, 1, 2] h x (ix3 t l v) = x (ix3 t 0 0) :=
  broadcastInDim_apply _ _ _ _ _ (by intro a; fin_cases a <;> rfl)

/-- `[T, 2]` as `[T, 2, 1]`. -/
theorem bc3_c (h : S4000000x2.BroadcastsInDim S4000000x2x1 ![0, 1]) (x : S4000000x2.Idx → α) (t : Fin 4000000)
    (l : Fin 2) (v : Fin 1) : broadcastInDim S4000000x2x1 ![0, 1] h x (ix3 t l v) = x (ix2 t l) :=
  broadcastInDim_apply _ _ _ _ _ (by intro a; fin_cases a <;> rfl)

/-- `[T, 2, 1]` repeated along the last axis. -/
theorem bc3_d (h : S4000000x2x1.BroadcastsInDim S4000000x2x12 ![0, 1, 2]) (x : S4000000x2x1.Idx → α) (t : Fin 4000000)
    (l : Fin 2) (m : Fin 12) : broadcastInDim S4000000x2x12 ![0, 1, 2] h x (ix3 t l m) = x (ix3 t l 0) :=
  broadcastInDim_apply _ _ _ _ _ (by intro a; fin_cases a <;> rfl)

/-- `[T, 12]` as `[T, 1, 12]`. -/
theorem bc3_e (h : S4000000x12.BroadcastsInDim S4000000x1x12 ![0, 2]) (x : S4000000x12.Idx → α) (t : Fin 4000000)
    (u : Fin 1) (m : Fin 12) : broadcastInDim S4000000x1x12 ![0, 2] h x (ix3 t u m) = x (ix2 t m) :=
  broadcastInDim_apply _ _ _ _ _ (by intro a; fin_cases a <;> rfl)

/-- `[T, 1, 12]` repeated along the middle axis. -/
theorem bc3_f (h : S4000000x1x12.BroadcastsInDim S4000000x2x12 ![0, 1, 2]) (x : S4000000x1x12.Idx → α) (t : Fin 4000000)
    (l : Fin 2) (m : Fin 12) : broadcastInDim S4000000x2x12 ![0, 1, 2] h x (ix3 t l m) = x (ix3 t 0 m) :=
  broadcastInDim_apply _ _ _ _ _ (by intro a; fin_cases a <;> rfl)

end Broadcasts

/-! ## The lengths -/

theorem red_pair : S2000000x3.Reduces [1] S2000000 := by decide

theorem red_triple : S4000000x3.Reduces [1] S4000000 := by decide

/-- A pair's index with the component inserted. -/
theorem lift_pair (h : S2000000x3.Reduces [1] S2000000) (p : Fin 2000000) (k : Fin 3) : h.lift (ix1 p) k = ix2 p k := by
  funext a; fin_cases a <;> rfl

/-- A triple's index with the component inserted. -/
theorem lift_triple (h : S4000000x3.Reduces [1] S4000000) (t : Fin 4000000) (k : Fin 3) : h.lift (ix1 t) k = ix2 t k := by
  funext a; fin_cases a <;> rfl

theorem hostSqrt_apply {s : Shape} {φ : FTy} (x : FVec Ideal s φ) (i : s.Idx) : Host.sqrt x i = Ideal.sqrt (x i) := rfl

theorem hostExp_apply {s : Shape} {φ : FTy} (x : FVec Ideal s φ) (i : s.Idx) : Host.exp x i = Ideal.exp (x i) := rfl

theorem hostPowf_apply {s : Shape} {φ : FTy} (x y : FVec Ideal s φ) (i : s.Idx) : Host.powf x y i = Ideal.pow (x i) (y i) := rfl

/-- A scalar constant broadcast to any shape reads the constant's value. -/
theorem bc_const {T : Shape} (h : S_.BroadcastsInDim T ![]) (w : BitVec 32) (j : T.Idx) :
    broadcastInDim T ![] h (constant (F := Ideal) S_ .f32 w) j = Ideal.ofBits .f32 w := rfl

/-- The reference's lengths are the shared ones: the sum from `0` over the three components is the scalar product. -/
theorem dref_eq (a1 : FVec Ideal S2000000x3 .f32) : dref (F := Ideal) a1 = Spec.dArr a1 := by
  funext i
  obtain ⟨p, rfl⟩ : ∃ p : Fin 2000000, i = ix1 p := ⟨_, eq_ix1 i⟩
  rw [Spec.dArr_ix1]
  simp only [dref, sqsum, Spec.dAt, Spec.len3, Spec.dot3]
  rw [hostSqrt_apply, hostReduceAdd_apply, Ideal.hostReduceAdd_single _ red_pair,
    constant_apply, Ideal.ofBits_zero_f32, zero_add]
  show Ideal.sqrt (∑ k : Fin 3, mulf a1 a1 (Shape.Reduces.lift red_pair (ix1 p) k))
    = Ideal.sqrt (∑ k : Fin 3, a1 (ix2 p k) * a1 (ix2 p k))
  refine congrArg Ideal.sqrt (Finset.sum_congr rfl fun k _ => ?_)
  rw [lift_pair, mulf_apply]

/-! ## The radial array -/

/-- The reference's cutoff at an element is the shared cutoff of that element. -/
theorem fcutRef_apply (d : FVec Ideal S2000000 .f32) (i : S2000000.Idx) : fcutRef (F := Ideal) d i = Spec.fcut (d i) := rfl

theorem fcutRef4_apply (d : FVec Ideal S4000000 .f32) (i : S4000000.Idx) : fcutRef4 (F := Ideal) d i = Spec.fcut (d i) := rfl

theorem rdiff_apply (d : FVec Ideal S2000000 .f32) (a7 : FVec Ideal S32 .f32) (p : Fin 2000000) (j : Fin 32) :
    rdiff (F := Ideal) d a7 (ix2 p j) = d (ix1 p) - a7 (ix1 j) := by
  unfold rdiff
  rw [subf_apply, bc_wide, bc_col, bc_tall, bc_row]

/-- The radial array from lengths and charges, entry by entry. -/
theorem radOf_apply (d z : FVec Ideal S2000000 .f32) (a7 : FVec Ideal S32 .f32) (p : Fin 2000000) (j : Fin 32) :
    radOf (F := Ideal) d z a7 (ix2 p j) = Spec.radE (d (ix1 p)) (z (ix1 p)) (a7 (ix1 j)) := by
  simp only [radOf, gaussRef, wRef, Spec.radE]
  rw [mulf_apply, bc_wide, bc_col, hostExp_apply, mulf_apply, mulf_apply, bc_const, rdiff_apply, mulf_apply, fcutRef_apply,
    mul_assoc (Ideal.ofBits .f32 0xC0800000#32)]

theorem rad_eq (a0 : IVec S50000 32) (a1 : FVec Ideal S2000000x3 .f32) (a3 : IVec S2000000 32) (a7 : FVec Ideal S32 .f32) :
    radRef (F := Ideal) a0 a1 a3 a7 = Spec.radArr a1 (zj (F := Ideal) a0 a3) a7 := by
  funext i
  obtain ⟨p, j, rfl⟩ : ∃ (p : Fin 2000000) (j : Fin 32), i = ix2 p j := ⟨_, _, eq_ix2 i⟩
  rw [Spec.radArr_ix2]
  unfold radRef Spec.radAt
  rw [radOf_apply, dref_eq, Spec.dArr_ix1]

/-! ## The angular array -/

/-- `cos θ` of a triple, as the shared scalar. -/
theorem cosRef_apply (ra rb : FVec Ideal S4000000x3 .f32) (da db : FVec Ideal S4000000 .f32) (t : Fin 4000000) :
    cosRef (F := Ideal) ra rb da db (ix1 t)
      = Spec.cosT (Spec.vec3 ra t) (Spec.vec3 rb t) (da (ix1 t)) (db (ix1 t)) := by
  simp only [cosRef, Spec.cosT, Spec.dot3]
  rw [hostDivf_apply, hostReduceAdd_apply, Ideal.hostReduceAdd_single _ red_triple, constant_apply, Ideal.ofBits_zero_f32,
    zero_add, mulf_apply]
  show Ideal.div (∑ k : Fin 3, mulf ra rb (Shape.Reduces.lift red_triple (ix1 t) k)) (da (ix1 t) * db (ix1 t))
    = Ideal.div (∑ k : Fin 3, ra (ix2 t k) * rb (ix2 t k)) (da (ix1 t) * db (ix1 t))
  refine congrArg (fun s => Ideal.div s (da (ix1 t) * db (ix1 t))) (Finset.sum_congr rfl fun k _ => ?_)
  rw [lift_triple, mulf_apply]

/-- The sign of column block `l`. -/
theorem lamRef_apply (l : Fin 2) : lamRef (F := Ideal) (ix1 l) = Ideal.ofBits .f32 (lit0 l) := by
  unfold lamRef
  show Ideal.ofBits .f32 (lit0 (S2.rowMajor (ix1 l))) = Ideal.ofBits .f32 (lit0 l)
  exact congrArg (fun k => Ideal.ofBits .f32 (lit0 k)) (Fin.ext (Shape.rowMajor_val_one _))

theorem powRef_apply (c : FVec Ideal S4000000 .f32) (t : Fin 4000000) (l : Fin 2) :
    powRef (F := Ideal) c (ix2 t l)
      = Ideal.pow (Ideal.ofBits .f32 0x3F800000#32 + Ideal.ofBits .f32 (lit0 l) * c (ix1 t)) (Ideal.ofBits .f32 0x41000000#32) := by
  unfold powRef
  rw [hostPowf_apply, addf_apply, mulf_apply, bc_const, bc_const, bc_tall, bc_row, bc_wide, bc_col, lamRef_apply]

theorem adiff_apply (da db : FVec Ideal S4000000 .f32) (a8 : FVec Ideal S12 .f32) (t : Fin 4000000) (m : Fin 12) :
    adiff (F := Ideal) da db a8 (ix2 t m)
      = Ideal.ofBits .f32 0x3F000000#32 * (da (ix1 t) + db (ix1 t)) - a8 (ix1 m) := by
  unfold adiff
  rw [subf_apply, bc_wide, mulf_apply, bc_const, bc_col, addf_apply, bc_tall, bc_row]

/-- The radial factor of an angular entry, as the shared scalar: the exponent regrouped. -/
theorem gaussARef_apply (da db : FVec Ideal S4000000 .f32) (a8 : FVec Ideal S12 .f32) (t : Fin 4000000) (m : Fin 12) :
    gaussARef (F := Ideal) da db a8 (ix2 t m) = Spec.radA (da (ix1 t)) (db (ix1 t)) (a8 (ix1 m)) := by
  unfold gaussARef Spec.radA
  rw [hostExp_apply, mulf_apply, mulf_apply, bc_const, adiff_apply, mul_assoc (Ideal.ofBits .f32 0xC1000000#32)]

/-- The prefactor of a triple, as the shared scalar. -/
theorem prefRef_apply (za zb da db : FVec Ideal S4000000 .f32) (i : S4000000.Idx) :
    prefRef (F := Ideal) za zb da db i = Spec.pref (za i) (zb i) (da i) (db i) := rfl

/-- The `[T, 2, 12]` array entry by entry: prefactor times power, times the radial factor. -/
theorem ang3Of_apply (ra rb : FVec Ideal S4000000x3 .f32) (da db za zb : FVec Ideal S4000000 .f32) (a8 : FVec Ideal S12 .f32)
    (t : Fin 4000000) (l : Fin 2) (m : Fin 12) :
    ang3Of (F := Ideal) ra rb da db za zb a8 (ix3 t l m)
      = (prefRef za zb da db (ix1 t) * powRef (cosRef ra rb da db) (ix2 t l)) * gaussARef da db a8 (ix2 t m) := by
  unfold ang3Of
  rw [mulf_apply, bc3_d, bc3_f, bc3_e, mulf_apply, bc3_b, bc3_a, bc3_c]

/-- The `[T, 24]` array reads column `l · 12 + m` at sign `l` and centre `m`. -/
theorem angOf_apply (ra rb : FVec Ideal S4000000x3 .f32) (da db za zb : FVec Ideal S4000000 .f32) (a8 : FVec Ideal S12 .f32)
    (t : Fin 4000000) (q : Fin 24) (l : Fin 2) (m : Fin 12) (hq : q.val = l.val * 12 + m.val) :
    angOf (F := Ideal) ra rb da db za zb a8 (ix2 t q) = ang3Of ra rb da db za zb a8 (ix3 t l m) := by
  unfold angOf
  exact shapeCast_apply _ _ _ _ (by
    rw [Shape.rowMajor_val_three, Shape.rowMajor_val_two]
    show (t.val * 2 + l.val) * 12 + m.val = t.val * 24 + q.val
    omega)

/-! ### The power at a real base -/

/-- The real power `x ^ 8` is the eighth power by three squarings. -/
theorem pow8_real (r : ℝ) : Ideal.pow (r : EReal) (Ideal.ofBits .f32 0x41000000#32) = Spec.sq8 (r : EReal) := by
  rw [lit_eight, Ideal.pow_coe_coe]
  unfold Spec.sq8
  rw [← EReal.coe_mul, ← EReal.coe_mul, ← EReal.coe_mul]
  refine congrArg (fun x : ℝ => (x : EReal)) ?_
  show r ^ (8 : ℝ) = r * r * (r * r) * (r * r * (r * r))
  rw [show (8 : ℝ) = ((8 : ℕ) : ℝ) by norm_num, Real.rpow_natCast]
  ring

/-- With the sign `1`: the base is `1 + r`. -/
theorem pow_pos (r : ℝ) :
    Ideal.pow (Ideal.ofBits .f32 0x3F800000#32 + Ideal.ofBits .f32 (lit0 0) * (r : EReal)) (Ideal.ofBits .f32 0x41000000#32)
      = Spec.sq8 (Ideal.ofBits .f32 0x3F800000#32 + (r : EReal)) := by
  show Ideal.pow (Ideal.ofBits .f32 0x3F800000#32 + Ideal.ofBits .f32 0x3F800000#32 * (r : EReal)) _ = _
  rw [Ideal.ofBits_one_f32, one_mul, ← EReal.coe_one, ← EReal.coe_add, pow8_real]

/-- With the sign `-1`: the base is `1 - r`. -/
theorem pow_neg (r : ℝ) :
    Ideal.pow (Ideal.ofBits .f32 0x3F800000#32 + Ideal.ofBits .f32 (lit0 1) * (r : EReal)) (Ideal.ofBits .f32 0x41000000#32)
      = Spec.sq8 (Ideal.ofBits .f32 0x3F800000#32 - (r : EReal)) := by
  show Ideal.pow (Ideal.ofBits .f32 0x3F800000#32 + Ideal.ofBits .f32 0xBF800000#32 * (r : EReal)) _ = _
  rw [lit_neg_one, neg_one_mul, ← sub_eq_add_neg, Ideal.ofBits_one_f32, ← EReal.coe_one, ← EReal.coe_sub, pow8_real]

/-- `cos θ` is real where the components are real and the lengths are real and not zero. -/
theorem cosT_real (a b : Fin 3 → EReal) (da db : EReal) (ha : ∀ k, ∃ x : ℝ, a k = (x : EReal))
    (hb : ∀ k, ∃ x : ℝ, b k = (x : EReal)) (hda : ∃ x : ℝ, x ≠ 0 ∧ da = (x : EReal))
    (hdb : ∃ x : ℝ, x ≠ 0 ∧ db = (x : EReal)) : ∃ r : ℝ, Spec.cosT a b da db = (r : EReal) := by
  choose xa hxa using ha
  choose xb hxb using hb
  obtain ⟨u, hu, rfl⟩ := hda
  obtain ⟨v, hv, rfl⟩ := hdb
  refine ⟨(xa 0 * xb 0 + xa 1 * xb 1 + xa 2 * xb 2) * (u * v)⁻¹, ?_⟩
  have hne : ((u : EReal) * (v : EReal)) ≠ 0 := by
    rw [← EReal.coe_mul]; exact EReal.coe_ne_zero.2 (mul_ne_zero hu hv)
  unfold Spec.cosT Spec.dot3 Ideal.div
  rw [if_neg hne, Fin.sum_univ_three, hxa, hxa, hxa, hxb, hxb, hxb, ← EReal.coe_mul u v, ← EReal.coe_inv,
    ← EReal.coe_mul, ← EReal.coe_mul, ← EReal.coe_mul, ← EReal.coe_add, ← EReal.coe_add, ← EReal.coe_mul]

/-- The angular array from the gathered rows, lengths and charges, entry by entry. -/
theorem angOf_eq (ra rb : FVec Ideal S4000000x3 .f32) (da db za zb : FVec Ideal S4000000 .f32) (a8 : FVec Ideal S12 .f32)
    (hra : ∀ i, ∃ x : ℝ, ra i = (x : EReal)) (hrb : ∀ i, ∃ x : ℝ, rb i = (x : EReal))
    (hda : ∀ t, ∃ x : ℝ, x ≠ 0 ∧ da t = (x : EReal)) (hdb : ∀ t, ∃ x : ℝ, x ≠ 0 ∧ db t = (x : EReal)) :
    angOf (F := Ideal) ra rb da db za zb a8 = Spec.angArr ra rb da db za zb a8 := by
  funext i
  obtain ⟨t, q, rfl⟩ : ∃ (t : Fin 4000000) (q : Fin 24), i = ix2 t q := ⟨_, _, eq_ix2 i⟩
  rw [Spec.angArr_ix2]
  obtain ⟨r, hr⟩ := cosT_real (Spec.vec3 ra t) (Spec.vec3 rb t) (da (ix1 t)) (db (ix1 t)) (fun k => hra _) (fun k => hrb _)
    (hda _) (hdb _)
  unfold Spec.angAt
  by_cases hq : q.val < 12
  · rw [if_pos hq, angOf_apply ra rb da db za zb a8 t q 0 ⟨q.val, hq⟩ (by simp), ang3Of_apply, powRef_apply, cosRef_apply,
      gaussARef_apply, prefRef_apply, hr, pow_pos]
    unfold Spec.angPos
    rw [hr]
    exact congrArg (fun k : Fin 12 => _ * Spec.radA (da (ix1 t)) (db (ix1 t)) (a8 (ix1 k)))
      (Fin.ext (Nat.mod_eq_of_lt hq).symm)
  · have hq' : q.val - 12 < 12 := by have := q.isLt; omega
    rw [if_neg hq, angOf_apply ra rb da db za zb a8 t q 1 ⟨q.val - 12, hq'⟩ (by simp; omega), ang3Of_apply, powRef_apply,
      cosRef_apply, gaussARef_apply, prefRef_apply, hr, pow_neg]
    unfold Spec.angNeg
    rw [hr]
    exact congrArg (fun k : Fin 12 => _ * Spec.radA (da (ix1 t)) (db (ix1 t)) (a8 (ix1 k)))
      (Fin.ext (by show q.val - 12 = q.val % 12; have := q.isLt; omega))

/-- The reference's angular array is the shared one over the gathered rows, lengths and charges. -/
theorem ang_eq (a0 : IVec S50000 32) (a1 : FVec Ideal S2000000x3 .f32) (a3 : IVec S2000000 32) (a5 a6 : IVec S4000000 32)
    (a8 : FVec Ideal S12 .f32)
    (hra : ∀ i, ∃ x : ℝ, (Host.gather gather_S2000000x3_S4000000x1_S4000000x3_1_0_n_n_0_1_13 a1 (nrm2m a5)) i = (x : EReal))
    (hrb : ∀ i, ∃ x : ℝ, (Host.gather gather_S2000000x3_S4000000x1_S4000000x3_1_0_n_n_0_1_13 a1 (nrm2m a6)) i = (x : EReal))
    (hda : ∀ t, ∃ x : ℝ, x ≠ 0 ∧
      (Host.gather gather_S2000000_S4000000x1_S4000000_n_0_n_n_0_1_1 (dref (F := Ideal) a1) (nrm2m a5)) t = (x : EReal))
    (hdb : ∀ t, ∃ x : ℝ, x ≠ 0 ∧
      (Host.gather gather_S2000000_S4000000x1_S4000000_n_0_n_n_0_1_1 (dref (F := Ideal) a1) (nrm2m a6)) t = (x : EReal)) :
    angRef (F := Ideal) a0 a1 a3 a5 a6 a8
      = Spec.angArr
          (Host.gather gather_S2000000x3_S4000000x1_S4000000x3_1_0_n_n_0_1_13 a1 (nrm2m a5))
          (Host.gather gather_S2000000x3_S4000000x1_S4000000x3_1_0_n_n_0_1_13 a1 (nrm2m a6))
          (Host.gather gather_S2000000_S4000000x1_S4000000_n_0_n_n_0_1_1 (dref (F := Ideal) a1) (nrm2m a5))
          (Host.gather gather_S2000000_S4000000x1_S4000000_n_0_n_n_0_1_1 (dref (F := Ideal) a1) (nrm2m a6))
          (Host.gather gather_S2000000_S4000000x1_S4000000_n_0_n_n_0_1_1 (zj (F := Ideal) a0 a3) (nrm2m a5))
          (Host.gather gather_S2000000_S4000000x1_S4000000_n_0_n_n_0_1_1 (zj (F := Ideal) a0 a3) (nrm2m a6))
          a8 :=
  angOf_eq _ _ _ _ _ _ a8 hra hrb hda hdb

end Cert.ReferenceIdeal.RefValue

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.PreDecode.lean ====
/-
  The precondition, read entry by entry over the extended reals.

  The precondition is a conjunction of seven statements, each an "all" over an array: five say that every entry of a
  float input has absolute value below `+∞`, that is, is a real number; two say that the squared row length
  `sq p = Σ_k r p k · r p k` is positive at every row the two index inputs point to. An index `n` is read the way array
  indexing reads it: a negative `n` counts from the end (`n + 2000000`), and the result is clamped into the rows there
  are. This file splits the conjunction and reads each "all" at an entry.

  It also records that a gather only re-indexes its operand: it commutes with any map applied entrywise, and a
  property of every operand entry is a property of every gathered entry.
-/
import proofs.«133981_j1932735284042_1_alg».proof.Proof.Gen.Pre_finite_inputs
import proofs.«133981_j1932735284042_1_alg».proof.Proof.LibFinite
import Idealize.ShloMosaic.PureOps.Ideal
import Idealize.ShloMosaic.PureOps.Ideal.Laws
import Idealize.ShloMosaic.Lib.ReduceAll
import Idealize.ShloMosaic.Lib.ValueIdx

noncomputable section

namespace Cert.PreDecode

open Idealize.ShloMosaic Cert.Pre_finite_inputs Cert.Pre_finite_inputs.Facts

/-! ## A gather re-indexes its operand -/

section Gather

variable {s si t : Shape} {w : Nat}

/-- A gather commutes with a map applied to every entry of the operand. -/
theorem gather_map {α β : Type} (d : GatherDims s si t) (x : s.Idx → α) (n : IVec si w) (f : α → β) :
    Host.gather d (fun i => f (x i)) n = fun y => f (Host.gather d x n y) := rfl

/-- What holds of every entry of the operand holds of every gathered entry. -/
theorem gather_forall {α : Type} (d : GatherDims s si t) (x : s.Idx → α) (n : IVec si w) (P : α → Prop)
    (hx : ∀ i, P (x i)) : ∀ y, P (Host.gather d x n y) :=
  fun y => hx (d.operandIdx y n)

end Gather

/-! ## The two arrays the positivity conjuncts are about -/

/-- The squared row lengths `sq p = Σ_k r p k · r p k`, as the precondition computes them. -/
def sqArr (a1 : FVec Ideal S2000000x3 .f32) : FVec Ideal S2000000 .f32 :=
  Host.reduceAdd (F := Ideal) (mulf a1 a1) (constant (F := Ideal) S_ .f32 0x00000000#32)
    reducesTo_S2000000x3_S2000000_d1 h_S_

/-- An index input made ready for the gather: a negative entry moved up by the number of rows, the result laid out
    as one column. -/
def idxArr (a : IVec S4000000 32) : IVec S4000000x1 32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 2000000#32))) a)

/-- The squared row lengths at the rows an index input points to. -/
def sqAt (a1 : FVec Ideal S2000000x3 .f32) (a : IVec S4000000 32) : FVec Ideal S4000000 .f32 :=
  Host.gather gather_S2000000_S4000000x1_S4000000_n_0_n_n_0_1_1 (sqArr a1) (idxArr a)

/-! ## Scalars -/

/-- A comparison "greater than the word of zero" that holds says the number is positive. -/
theorem pos_of_cmp_ogt_zero (x : EReal)
    (h : Ideal.cmp .ogt x (Ideal.ofBits .f32 0x00000000#32) = 1#1) : (0 : EReal) < x := by
  rw [Ideal.ofBits_zero_f32] at h
  by_contra hx
  revert h
  simp [Ideal.cmp, hx]

/-- An "all" of "greater than zero" over a one-dimensional array, read at an entry. -/
theorem pos_of_all (v : FVec Ideal S4000000 .f32) (init : S_.Idx → BitVec 1)
    (e : Host.reduce IntOp.andi
        (cmpf .ogt v (broadcastInDim S4000000 ![] bcast_S_S4000000 (constant (F := Ideal) S_ .f32 0x00000000#32)))
        init reducesTo_S4000000_S_d0 h_S_ ValueIdx.ix0 = 1#1)
    (t : S4000000.Idx) : (0 : EReal) < v t :=
  pos_of_cmp_ogt_zero (v t) (Host.reduce_andi_all _ init reducesTo_S4000000_S_d0 h_S_ ValueIdx.ix0 e t)

/-! ## The precondition, split -/

section Decode

variable {a0 : IVec S50000 32} {a1 : FVec Ideal S2000000x3 .f32} {a2 : IVec S2000000 32} {a3 : IVec S2000000 32}
  {a4 : IVec S4000000 32} {a5 : IVec S4000000 32} {a6 : IVec S4000000 32} {a7 : FVec Ideal S32 .f32}
  {a8 : FVec Ideal S12 .f32} {a9 : FVec Ideal S1x56 .f32} {a10 : FVec Ideal S1x56 .f32}

/-- The seven conjuncts, each read at an entry. -/
theorem decode (h : Cert.Pre_finite_inputs.fn (F := Ideal) a0 a1 a2 a3 a4 a5 a6 a7 a8 a9 a10 = fun _ => 1#1) :
    (∀ i, ∃ x : ℝ, a1 i = (x : EReal)) ∧ (∀ i, ∃ x : ℝ, a7 i = (x : EReal)) ∧ (∀ i, ∃ x : ℝ, a8 i = (x : EReal)) ∧
    (∀ i, ∃ x : ℝ, a9 i = (x : EReal)) ∧ (∀ i, ∃ x : ℝ, a10 i = (x : EReal)) ∧
    (∀ t, (0 : EReal) < sqAt a1 a5 t) ∧ (∀ t, (0 : EReal) < sqAt a1 a6 t) := by
  have h0 := congrFun h ValueIdx.ix0
  dsimp only [Cert.Pre_finite_inputs.fn, Cert.Pre_finite_inputs.fn_part1, Cert.Pre_finite_inputs.fn_part2] at h0
  obtain ⟨h36, hk⟩ := IntOp.andi_eq_one.1 h0
  obtain ⟨h25, hj⟩ := IntOp.andi_eq_one.1 h36
  obtain ⟨h20, e10⟩ := IntOp.andi_eq_one.1 h25
  obtain ⟨h15, e9⟩ := IntOp.andi_eq_one.1 h20
  obtain ⟨h10, e8⟩ := IntOp.andi_eq_one.1 h15
  obtain ⟨e1, e7⟩ := IntOp.andi_eq_one.1 h10
  exact ⟨Cert.LibFinite.real_of_all a1 _ _ _ _ e1, Cert.LibFinite.real_of_all a7 _ _ _ _ e7,
    Cert.LibFinite.real_of_all a8 _ _ _ _ e8, Cert.LibFinite.real_of_all a9 _ _ _ _ e9,
    Cert.LibFinite.real_of_all a10 _ _ _ _ e10,
    pos_of_all (sqAt a1 a5) _ hj, pos_of_all (sqAt a1 a6) _ hk⟩

variable (h : Cert.Pre_finite_inputs.fn (F := Ideal) a0 a1 a2 a3 a4 a5 a6 a7 a8 a9 a10 = fun _ => 1#1)
include h

/-- Every entry of the pair vectors is a real number. -/
theorem real_r : ∀ i, ∃ x : ℝ, a1 i = (x : EReal) := (decode h).1
/-- Every radial centre is a real number. -/
theorem real_mus_rad : ∀ i, ∃ x : ℝ, a7 i = (x : EReal) := (decode h).2.1
/-- Every angular centre is a real number. -/
theorem real_mus_ang : ∀ i, ∃ x : ℝ, a8 i = (x : EReal) := (decode h).2.2.1
/-- Every entry of the mean is a real number. -/
theorem real_mean : ∀ i, ∃ x : ℝ, a9 i = (x : EReal) := (decode h).2.2.2.1
/-- Every entry of the deviation is a real number. -/
theorem real_std : ∀ i, ∃ x : ℝ, a10 i = (x : EReal) := (decode h).2.2.2.2.1
/-- The squared row length is positive at every row the first index input points to. -/
theorem sq_pos_j : ∀ t, (0 : EReal) < Host.gather gather_S2000000_S4000000x1_S4000000_n_0_n_n_0_1_1 (sqArr a1) (idxArr a5) t :=
  (decode h).2.2.2.2.2.1
/-- The squared row length is positive at every row the second index input points to. -/
theorem sq_pos_k : ∀ t, (0 : EReal) < Host.gather gather_S2000000_S4000000x1_S4000000_n_0_n_n_0_1_1 (sqArr a1) (idxArr a6) t :=
  (decode h).2.2.2.2.2.2

end Decode

end Cert.PreDecode

end
-- ==== Proof.RefHyps.lean ====
/-
  From the precondition to the four facts the reference's angular array is read under.

  The angular array is formed, per triple, from two pair vectors (the rows of the pair-vector input that the two index
  inputs pick) and from their lengths. Reading it as the shared angular entry wants every picked component to be a real
  number, and every picked length to be a real number other than zero.

  A gather only re-indexes its operand. Every component of every pair vector is real by the precondition, so every
  picked component is. A length is `√(x₀ x₀ + x₁ x₁ + x₂ x₂)` with `x₀, x₁, x₂` real: the sum is a real number that is
  not negative, so its root is a real number, and so is every picked length. Finally the picked length is the root of
  the picked squared length, which the precondition says is positive; and the root of a positive extended real (a
  positive real number, or `+∞`) is not zero.
-/
import proofs.«133981_j1932735284042_1_alg».proof.Proof.Spec
import proofs.«133981_j1932735284042_1_alg».proof.Proof.PreDecode
import proofs.«133981_j1932735284042_1_alg».proof.Proof.RefStages
import proofs.«133981_j1932735284042_1_alg».proof.Proof.RefValue

noncomputable section

open scoped BigOperators

namespace Cert.ReferenceIdeal.RefHyps

open Idealize.ShloMosaic Idealize.ShloMosaic.ValueIdx Cert.ReferenceIdeal Cert.ReferenceIdeal.Stages

/-! ## Scalars -/

/-- The root of a positive extended real is not zero: `√(+∞) = +∞`, and a positive real number has a positive root. -/
theorem sqrt_ne_zero_of_pos (x : EReal) (hx : 0 < x) : Ideal.sqrt x ≠ 0 := by
  induction x using EReal.rec with
  | bot => exact absurd hx not_lt_bot
  | top => rw [Ideal.sqrt_top]; exact EReal.top_ne_zero
  | coe r =>
    have hr : 0 < r := EReal.coe_pos.1 hx
    rw [Ideal.sqrt_coe, if_neg (not_lt.2 hr.le)]
    exact EReal.coe_ne_zero.2 (Real.sqrt_pos.2 hr).ne'

/-- The length of a vector of three real components is a real number: the sum of the three squares is not negative. -/
theorem len3_real (a : Fin 3 → EReal) (ha : ∀ k, ∃ x : ℝ, a k = (x : EReal)) : ∃ y : ℝ, Spec.len3 a = (y : EReal) := by
  choose x hx using ha
  have hnn : ¬ (x 0 * x 0 + x 1 * x 1 + x 2 * x 2 < 0) :=
    not_lt.2 (add_nonneg (add_nonneg (mul_self_nonneg _) (mul_self_nonneg _)) (mul_self_nonneg _))
  refine ⟨Real.sqrt (x 0 * x 0 + x 1 * x 1 + x 2 * x 2), ?_⟩
  unfold Spec.len3 Spec.dot3
  rw [Fin.sum_univ_three, hx, hx, hx, ← EReal.coe_mul, ← EReal.coe_mul, ← EReal.coe_mul, ← EReal.coe_add, ← EReal.coe_add,
    Ideal.sqrt_coe, if_neg hnn]

/-! ## A gather read at an entry -/

/-- A gathered entry is the operand's entry at the index the gather computes for it. -/
theorem gather_apply {s si t : Shape} {w : Nat} {α : Type} (d : GatherDims s si t) (x : s.Idx → α) (n : IVec si w)
    (y : t.Idx) : Host.gather d x n y = x (d.operandIdx y n) := rfl

/-! ## The precondition's picked squared lengths are the reference's -/

/-- The squared row lengths at the rows an index input points to, as the precondition forms them, are the reference's
    squared lengths picked by the reference's normalised index: the same operations on the same operands, field by
    field. -/
theorem sqAt_eq (a1 : FVec Ideal Cert.Pre_finite_inputs.S2000000x3 .f32) (a : IVec Cert.Pre_finite_inputs.S4000000 32) :
    Host.gather Cert.Pre_finite_inputs.gather_S2000000_S4000000x1_S4000000_n_0_n_n_0_1_1 (Cert.PreDecode.sqArr a1)
        (Cert.PreDecode.idxArr a)
      = Host.gather gather_S2000000_S4000000x1_S4000000_n_0_n_n_0_1_1 (sqsum (F := Ideal) a1) (nrm2m a) := rfl

/-! ## The four facts -/

section Hyps

variable {a0 : IVec Cert.Pre_finite_inputs.S50000 32} {a1 : FVec Ideal Cert.Pre_finite_inputs.S2000000x3 .f32}
  {a2 : IVec Cert.Pre_finite_inputs.S2000000 32} {a3 : IVec Cert.Pre_finite_inputs.S2000000 32}
  {a4 : IVec Cert.Pre_finite_inputs.S4000000 32} {a5 : IVec Cert.Pre_finite_inputs.S4000000 32}
  {a6 : IVec Cert.Pre_finite_inputs.S4000000 32} {a7 : FVec Ideal Cert.Pre_finite_inputs.S32 .f32}
  {a8 : FVec Ideal Cert.Pre_finite_inputs.S12 .f32} {a9 : FVec Ideal Cert.Pre_finite_inputs.S1x56 .f32}
  {a10 : FVec Ideal Cert.Pre_finite_inputs.S1x56 .f32}

variable (h : Cert.Pre_finite_inputs.fn (F := Ideal) a0 a1 a2 a3 a4 a5 a6 a7 a8 a9 a10 = fun _ => 1#1)
include h

/-- Every length is a real number. -/
theorem dref_real : ∀ i, ∃ y : ℝ, dref (F := Ideal) a1 i = (y : EReal) := by
  intro i
  rw [RefValue.dref_eq]
  exact len3_real (Spec.vec3 a1 (Spec.c i)) (fun k => Cert.PreDecode.real_r h _)

/-- Where the picked squared lengths are positive, every picked length is a real number other than zero. -/
theorem len_of_pos (a : IVec S4000000 32)
    (hpos : ∀ t, (0 : EReal) <
      Host.gather gather_S2000000_S4000000x1_S4000000_n_0_n_n_0_1_1 (sqsum (F := Ideal) a1) (nrm2m a) t) :
    ∀ t, ∃ x : ℝ, x ≠ 0 ∧
      (Host.gather gather_S2000000_S4000000x1_S4000000_n_0_n_n_0_1_1 (dref (F := Ideal) a1) (nrm2m a)) t = (x : EReal) := by
  intro t
  obtain ⟨y, hy⟩ := Cert.PreDecode.gather_forall gather_S2000000_S4000000x1_S4000000_n_0_n_n_0_1_1 (dref (F := Ideal) a1)
    (nrm2m a) (fun v => ∃ y : ℝ, v = (y : EReal)) (dref_real h) t
  refine ⟨y, ?_, hy⟩
  rintro rfl
  -- the picked length is the root of the picked squared length
  have hs : Host.gather gather_S2000000_S4000000x1_S4000000_n_0_n_n_0_1_1 (dref (F := Ideal) a1) (nrm2m a) t
      = Ideal.sqrt (Host.gather gather_S2000000_S4000000x1_S4000000_n_0_n_n_0_1_1 (sqsum (F := Ideal) a1) (nrm2m a) t) := by
    rw [gather_apply, gather_apply]
    unfold dref
    exact RefValue.hostSqrt_apply _ _
  exact sqrt_ne_zero_of_pos _ (hpos t) ((hs.symm.trans hy).trans EReal.coe_zero)

/-- Every component of the pair vectors the first index input picks is a real number. -/
theorem rows_real_j : ∀ i, ∃ x : ℝ,
    (Host.gather gather_S2000000x3_S4000000x1_S4000000x3_1_0_n_n_0_1_13 a1 (nrm2m a5)) i = (x : EReal) :=
  Cert.PreDecode.gather_forall gather_S2000000x3_S4000000x1_S4000000x3_1_0_n_n_0_1_13 a1 (nrm2m a5)
    (fun v => ∃ x : ℝ, v = (x : EReal)) (Cert.PreDecode.real_r h)

/-- Every component of the pair vectors the second index input picks is a real number. -/
theorem rows_real_k : ∀ i, ∃ x : ℝ,
    (Host.gather gather_S2000000x3_S4000000x1_S4000000x3_1_0_n_n_0_1_13 a1 (nrm2m a6)) i = (x : EReal) :=
  Cert.PreDecode.gather_forall gather_S2000000x3_S4000000x1_S4000000x3_1_0_n_n_0_1_13 a1 (nrm2m a6)
    (fun v => ∃ x : ℝ, v = (x : EReal)) (Cert.PreDecode.real_r h)

/-- Every length the first index input picks is a real number other than zero. -/
theorem len_real_ne_zero_j : ∀ t, ∃ x : ℝ, x ≠ 0 ∧
    (Host.gather gather_S2000000_S4000000x1_S4000000_n_0_n_n_0_1_1 (dref (F := Ideal) a1) (nrm2m a5)) t = (x : EReal) :=
  len_of_pos h a5 fun t => sqAt_eq a1 a5 ▸ Cert.PreDecode.sq_pos_j h t

/-- Every length the second index input picks is a real number other than zero. -/
theorem len_real_ne_zero_k : ∀ t, ∃ x : ℝ, x ≠ 0 ∧
    (Host.gather gather_S2000000_S4000000x1_S4000000_n_0_n_n_0_1_1 (dref (F := Ideal) a1) (nrm2m a6)) t = (x : EReal) :=
  len_of_pos h a6 fun t => sqAt_eq a1 a6 ▸ Cert.PreDecode.sq_pos_k h t

end Hyps

end Cert.ReferenceIdeal.RefHyps

end
-- ==== Proof.Bridge.lean ====
/-
  Both programs end at one function of the arguments. The kernel's result buffer holds the shared tail (per-atom sums,
  side by side, minus the mean, over the deviation) of what its two launches leave, and those are the specification's
  radial and angular arrays of the pair vectors, the neighbour charges, the gathered vectors, lengths and charges and the
  centres. The reference's result is the same tail of its radial and angular stages, which are the same two arrays — the
  angular one because, under the precondition, every gathered component is real and every gathered length a non-zero
  real, so that the reference's real eighth power is the kernel's three squarings. The host operations the two programs
  share (index normalisation, gathers, the per-atom sums, the tail) are the same functions term for term.
-/
import proofs.«133981_j1932735284042_1_alg».proof.Defs
import proofs.«133981_j1932735284042_1_alg».proof.Proof.KI.KValue
import proofs.«133981_j1932735284042_1_alg».proof.Proof.KI.Final0
import proofs.«133981_j1932735284042_1_alg».proof.Proof.KI.Final1
import proofs.«133981_j1932735284042_1_alg».proof.Proof.KI.KLayout
import proofs.«133981_j1932735284042_1_alg».proof.Proof.RefRun
import proofs.«133981_j1932735284042_1_alg».proof.Proof.RefValue
import proofs.«133981_j1932735284042_1_alg».proof.Proof.RefHyps

set_option maxRecDepth 16384

noncomputable section

namespace Cert.Bridge

open Idealize.ShloMosaic Idealize.ShloMosaic.TcCoe Idealize.SL.Sem

/-! ## The kernel's result, as the specification's arrays -/

section Kernel

open Cert.KernelIdeal Cert.KernelIdeal.Gen Cert.KernelIdeal.Hand

variable (m : (ℓ : Loc nD τ sig) → Buf (Elt Ideal) ℓ) (ρ : Dev nD → PrngReg) (c : Dev nD)

/-- What the radial launch leaves in its first result array. -/
theorem kernel_rad : (dat0 (F := Ideal) (V1 m ρ) c).arrAt 2 cfg0.N
    = Spec.radArr (m ((c : Thread nD τ).loc main_arg1))
        (zjK (F := Ideal) (m ((c : Thread nD τ).loc main_arg0)) (m ((c : Thread nD τ).loc main_arg3)))
        (m ((c : Thread nD τ).loc main_arg7)) := by
  rw [final0_2 (V1 m ρ) c, V1_v9, V1_v10, cols_rzK, col3_rzK, row_centres32]

/-- What it leaves in its second, as a flat array: the pair lengths. -/
theorem kernel_len : shapeCast S2000000 ((dat0 (F := Ideal) (V1 m ρ) c).arrAt 3 cfg0.N) shapeCasts_S2000000x1_S2000000
    = Spec.dArr (m ((c : Thread nD τ).loc main_arg1)) := by
  rw [final0_3 (V1 m ρ) c, V1_v9, cols_rzK, flat_asCol]

/-- What the angular launch leaves in its result array. -/
theorem kernel_ang : (dat1 (F := Ideal) (V3 m ρ) c).arrAt 3 cfg1.N
    = Spec.angArr
        (gRow (F := Ideal) (m ((c : Thread nD τ).loc main_arg1)) (m ((c : Thread nD τ).loc main_arg5)))
        (gRow (F := Ideal) (m ((c : Thread nD τ).loc main_arg1)) (m ((c : Thread nD τ).loc main_arg6)))
        (gVec (F := Ideal) (Spec.dArr (m ((c : Thread nD τ).loc main_arg1))) (m ((c : Thread nD τ).loc main_arg5)))
        (gVec (F := Ideal) (Spec.dArr (m ((c : Thread nD τ).loc main_arg1))) (m ((c : Thread nD τ).loc main_arg6)))
        (gVec (F := Ideal) (zjK (F := Ideal) (m ((c : Thread nD τ).loc main_arg0)) (m ((c : Thread nD τ).loc main_arg3))) (m ((c : Thread nD τ).loc main_arg5)))
        (gVec (F := Ideal) (zjK (F := Ideal) (m ((c : Thread nD τ).loc main_arg0)) (m ((c : Thread nD τ).loc main_arg3))) (m ((c : Thread nD τ).loc main_arg6)))
        (m ((c : Thread nD τ).loc main_arg8)) := by
  rw [final1_3 (V3 m ρ) c, V3_v58, V3_v63, V3_v64, kernel_len, colsA_r6K, colsB_r6K, col0_s4K, col1_s4K, col2_s4K, col3_s4K,
    row_centres12]

/-- The kernel's result buffer at the end of the run. -/
theorem kernel_value : W5 m ρ c (Proc.devRef .tc main_v73)
    = tailK (F := Ideal)
        (Spec.radArr (m ((c : Thread nD τ).loc main_arg1))
          (zjK (F := Ideal) (m ((c : Thread nD τ).loc main_arg0)) (m ((c : Thread nD τ).loc main_arg3)))
          (m ((c : Thread nD τ).loc main_arg7)))
        (Spec.angArr
          (gRow (F := Ideal) (m ((c : Thread nD τ).loc main_arg1)) (m ((c : Thread nD τ).loc main_arg5)))
          (gRow (F := Ideal) (m ((c : Thread nD τ).loc main_arg1)) (m ((c : Thread nD τ).loc main_arg6)))
          (gVec (F := Ideal) (Spec.dArr (m ((c : Thread nD τ).loc main_arg1))) (m ((c : Thread nD τ).loc main_arg5)))
          (gVec (F := Ideal) (Spec.dArr (m ((c : Thread nD τ).loc main_arg1))) (m ((c : Thread nD τ).loc main_arg6)))
          (gVec (F := Ideal) (zjK (F := Ideal) (m ((c : Thread nD τ).loc main_arg0)) (m ((c : Thread nD τ).loc main_arg3))) (m ((c : Thread nD τ).loc main_arg5)))
          (gVec (F := Ideal) (zjK (F := Ideal) (m ((c : Thread nD τ).loc main_arg0)) (m ((c : Thread nD τ).loc main_arg3))) (m ((c : Thread nD τ).loc main_arg6)))
          (m ((c : Thread nD τ).loc main_arg8)))
        (m ((c : Thread nD τ).loc main_arg2)) (m ((c : Thread nD τ).loc main_arg4))
        (m ((c : Thread nD τ).loc main_arg9)) (m ((c : Thread nD τ).loc main_arg10)) := by
  rw [W5_v73, kernel_rad, kernel_ang]

end Kernel

/-! ## The host operations the two programs share are the same functions -/

section Same

open Cert.KernelIdeal.Hand Cert.ReferenceIdeal.Stages

theorem zj_same (a0 : IVec Cert.KernelIdeal.S50000 32) (a3 : IVec Cert.KernelIdeal.S2000000 32) :
    zjK (F := Ideal) a0 a3 = zj (F := Ideal) a0 a3 := rfl
theorem gRow_same (a1 : FVec Ideal Cert.KernelIdeal.S2000000x3 .f32) (a : IVec Cert.KernelIdeal.S4000000 32) :
    gRow (F := Ideal) a1 a = Host.gather Cert.ReferenceIdeal.gather_S2000000x3_S4000000x1_S4000000x3_1_0_n_n_0_1_13 a1 (nrm2m a) := rfl
theorem gVec_same (x : FVec Ideal Cert.KernelIdeal.S2000000 .f32) (a : IVec Cert.KernelIdeal.S4000000 32) :
    gVec (F := Ideal) x a = Host.gather Cert.ReferenceIdeal.gather_S2000000_S4000000x1_S4000000_n_0_n_n_0_1_1 x (nrm2m a) := rfl
theorem tail_same (rad : FVec Ideal Cert.KernelIdeal.S2000000x32 .f32) (ang : FVec Ideal Cert.KernelIdeal.S4000000x24 .f32)
    (a2 : IVec Cert.KernelIdeal.S2000000 32) (a4 : IVec Cert.KernelIdeal.S4000000 32) (a9 a10 : FVec Ideal Cert.KernelIdeal.S1x56 .f32) :
    tailK (F := Ideal) rad ang a2 a4 a9 a10 = tailRef (F := Ideal) rad ang a2 a4 a9 a10 := rfl

end Same

/-! ## The reference's result, as the same arrays -/

section Reference

open Cert.ReferenceIdeal Cert.ReferenceIdeal.Stages Cert.ReferenceIdeal.RefValue Cert.ReferenceIdeal.RefHyps

theorem ref_value {a0 : IVec S50000 32} {a1 : FVec Ideal S2000000x3 .f32} {a2 a3 : IVec S2000000 32} {a4 a5 a6 : IVec S4000000 32}
    {a7 : FVec Ideal S32 .f32} {a8 : FVec Ideal S12 .f32} {a9 a10 : FVec Ideal S1x56 .f32}
    (h : Cert.Pre_finite_inputs.fn (F := Ideal) a0 a1 a2 a3 a4 a5 a6 a7 a8 a9 a10 = fun _ => 1#1) :
    tailRef (F := Ideal) (radRef (F := Ideal) a0 a1 a3 a7) (angRef (F := Ideal) a0 a1 a3 a5 a6 a8) a2 a4 a9 a10
    = tailRef (F := Ideal) (Spec.radArr a1 (zj (F := Ideal) a0 a3) a7)
        (Spec.angArr (Host.gather gather_S2000000x3_S4000000x1_S4000000x3_1_0_n_n_0_1_13 a1 (nrm2m a5))
          (Host.gather gather_S2000000x3_S4000000x1_S4000000x3_1_0_n_n_0_1_13 a1 (nrm2m a6))
          (Host.gather gather_S2000000_S4000000x1_S4000000_n_0_n_n_0_1_1 (Spec.dArr a1) (nrm2m a5))
          (Host.gather gather_S2000000_S4000000x1_S4000000_n_0_n_n_0_1_1 (Spec.dArr a1) (nrm2m a6))
          (Host.gather gather_S2000000_S4000000x1_S4000000_n_0_n_n_0_1_1 (zj (F := Ideal) a0 a3) (nrm2m a5))
          (Host.gather gather_S2000000_S4000000x1_S4000000_n_0_n_n_0_1_1 (zj (F := Ideal) a0 a3) (nrm2m a6)) a8)
        a2 a4 a9 a10 := by
  rw [rad_eq, ang_eq a0 a1 a3 a5 a6 a8 (rows_real_j h) (rows_real_k h) (len_real_ne_zero_j h) (len_real_ne_zero_k h), dref_eq]

end Reference

end Cert.Bridge

end
-- ==== Proof.lean ====
/-
  The certificate. Each of the three programs runs to the end without a fault and leaves its arguments as launched:
  the kernel's program, word-level and idealized alike, by following the core's buffers through its three host
  stretches and two launches; the reference by the fold of its operations. The ideal pass rewrote nothing, so the
  idealized kernel is the kernel's own text read at the ideal instance. And at the ideal instance, from memories that
  agree on the arguments and satisfy the precondition — finite float inputs, and every triple's two gathered pair
  vectors of positive squared length, which is where the reference's quotient by the product of their lengths is
  defined —, the kernel's result buffer and the reference's end at the same array.
-/
import proofs.«133981_j1932735284042_1_alg».proof.Defs
import proofs.«133981_j1932735284042_1_alg».proof.Proof.Gen.Kernel
import proofs.«133981_j1932735284042_1_alg».proof.Proof.Gen.KernelIdeal
import proofs.«133981_j1932735284042_1_alg».proof.Proof.Gen.ReferenceIdeal
import proofs.«133981_j1932735284042_1_alg».proof.Proof.Gen.Pre_finite_inputs
import proofs.«133981_j1932735284042_1_alg».proof.Proof.K.Run
import proofs.«133981_j1932735284042_1_alg».proof.Proof.Bridge

set_option maxRecDepth 16384

noncomputable section

namespace Cert.Proof

open Idealize.ShloMosaic Idealize.ShloMosaic.TcCoe Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.Hand.frame m ρ

/-- The reference's result buffer, from a memory agreeing with the kernel's on the arguments, ends at what the kernel's
    result buffer ends at. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    StableHlo.after Cert.ReferenceIdeal.Hand.ops (StableHlo.launchContents m' c) (Proc.devRef .tc Cert.ReferenceIdeal.main_v149)
      = Cert.KernelIdeal.Hand.W5 m ρ c (Proc.devRef .tc Cert.KernelIdeal.main_v73) := by
  have e0 : StableHlo.launchContents m' c (Proc.devRef .tc Cert.ReferenceIdeal.main_arg0) = m ((c.tc : Thread Cert.KernelIdeal.nD Cert.KernelIdeal.τ).loc Cert.KernelIdeal.main_arg0) := (hagree c).1
  have e1 : StableHlo.launchContents m' c (Proc.devRef .tc Cert.ReferenceIdeal.main_arg1) = m ((c.tc : Thread Cert.KernelIdeal.nD Cert.KernelIdeal.τ).loc Cert.KernelIdeal.main_arg1) := (hagree c).2.1
  have e2 : StableHlo.launchContents m' c (Proc.devRef .tc Cert.ReferenceIdeal.main_arg2) = m ((c.tc : Thread Cert.KernelIdeal.nD Cert.KernelIdeal.τ).loc Cert.KernelIdeal.main_arg2) := (hagree c).2.2.1
  have e3 : StableHlo.launchContents m' c (Proc.devRef .tc Cert.ReferenceIdeal.main_arg3) = m ((c.tc : Thread Cert.KernelIdeal.nD Cert.KernelIdeal.τ).loc Cert.KernelIdeal.main_arg3) := (hagree c).2.2.2.1
  have e4 : StableHlo.launchContents m' c (Proc.devRef .tc Cert.ReferenceIdeal.main_arg4) = m ((c.tc : Thread Cert.KernelIdeal.nD Cert.KernelIdeal.τ).loc Cert.KernelIdeal.main_arg4) := (hagree c).2.2.2.2.1
  have e5 : StableHlo.launchContents m' c (Proc.devRef .tc Cert.ReferenceIdeal.main_arg5) = m ((c.tc : Thread Cert.KernelIdeal.nD Cert.KernelIdeal.τ).loc Cert.KernelIdeal.main_arg5) := (hagree c).2.2.2.2.2.1
  have e6 : StableHlo.launchContents m' c (Proc.devRef .tc Cert.ReferenceIdeal.main_arg6) = m ((c.tc : Thread Cert.KernelIdeal.nD Cert.KernelIdeal.τ).loc Cert.KernelIdeal.main_arg6) := (hagree c).2.2.2.2.2.2.1
  have e7 : StableHlo.launchContents m' c (Proc.devRef .tc Cert.ReferenceIdeal.main_arg7) = m ((c.tc : Thread Cert.KernelIdeal.nD Cert.KernelIdeal.τ).loc Cert.KernelIdeal.main_arg7) := (hagree c).2.2.2.2.2.2.2.1
  have e8 : StableHlo.launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have e9 : StableHlo.launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have e10 : StableHlo.launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2
  rw [Cert.ReferenceIdeal.Hand.result_eq, e0, e1, e2, e3, e4, e5, e6, e7, e8, e9, e10, Cert.Bridge.ref_value (hpre c),
    Cert.Bridge.kernel_value m ρ c]
  simp only [Cert.Bridge.tail_same, Cert.Bridge.zj_same, Cert.Bridge.gRow_same, Cert.Bridge.gVec_same]

theorem algebraic : Cert.algebraic_KernelIdeal_ReferenceIdeal := by
  intro m ρ m' ρ' hpre hagree
  refine ⟨fun c => Cert.KernelIdeal.Hand.W5 m ρ c (Proc.devRef .tc Cert.KernelIdeal.main_v73), ?_, ?_⟩
  · exact (θ_run (Cert.KernelIdeal.defs (F := Ideal)) _ _).mono (fun r h c =>
      ⟨h c Cert.KernelIdeal.main_v73 (by decide),
        (h c Cert.KernelIdeal.main_arg0 (by decide)).trans (Cert.KernelIdeal.Hand.W5_main_arg0 m ρ c),
        (h c Cert.KernelIdeal.main_arg1 (by decide)).trans (Cert.KernelIdeal.Hand.W5_main_arg1 m ρ c),
        (h c Cert.KernelIdeal.main_arg2 (by decide)).trans (Cert.KernelIdeal.Hand.W5_main_arg2 m ρ c),
        (h c Cert.KernelIdeal.main_arg3 (by decide)).trans (Cert.KernelIdeal.Hand.W5_main_arg3 m ρ c),
        (h c Cert.KernelIdeal.main_arg4 (by decide)).trans (Cert.KernelIdeal.Hand.W5_main_arg4 m ρ c),
        (h c Cert.KernelIdeal.main_arg5 (by decide)).trans (Cert.KernelIdeal.Hand.W5_main_arg5 m ρ c),
        (h c Cert.KernelIdeal.main_arg6 (by decide)).trans (Cert.KernelIdeal.Hand.W5_main_arg6 m ρ c),
        (h c Cert.KernelIdeal.main_arg7 (by decide)).trans (Cert.KernelIdeal.Hand.W5_main_arg7 m ρ c),
        (h c Cert.KernelIdeal.main_arg8 (by decide)).trans (Cert.KernelIdeal.Hand.W5_main_arg8 m ρ c),
        (h c Cert.KernelIdeal.main_arg9 (by decide)).trans (Cert.KernelIdeal.Hand.W5_main_arg9 m ρ c),
        (h c Cert.KernelIdeal.main_arg10 (by decide)).trans (Cert.KernelIdeal.Hand.W5_main_arg10 m ρ c)⟩)
      (Cert.KernelIdeal.Hand.run_all m ρ)
  · refine (θ_run (Cert.ReferenceIdeal.defs (F := Ideal)) _ _).mono (fun r h c => ?_) (Cert.ReferenceIdeal.Hand.run_fold m' ρ')
    have k := Cert.ReferenceIdeal.Hand.args_keep (StableHlo.launchContents m' c)
    exact ⟨(h c Cert.ReferenceIdeal.main_v149).trans (results_agree m ρ m' hpre hagree c),
      (h c Cert.ReferenceIdeal.main_arg0).trans k.a0,
      (h c Cert.ReferenceIdeal.main_arg1).trans k.a1,
      (h c Cert.ReferenceIdeal.main_arg2).trans k.a2,
      (h c Cert.ReferenceIdeal.main_arg3).trans k.a3,
      (h c Cert.ReferenceIdeal.main_arg4).trans k.a4,
      (h c Cert.ReferenceIdeal.main_arg5).trans k.a5,
      (h c Cert.ReferenceIdeal.main_arg6).trans k.a6,
      (h c Cert.ReferenceIdeal.main_arg7).trans k.a7,
      (h c Cert.ReferenceIdeal.main_arg8).trans k.a8,
      (h c Cert.ReferenceIdeal.main_arg9).trans k.a9,
      (h c Cert.ReferenceIdeal.main_arg10).trans k.a10⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
